-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![64, 64, 64]⟩ ⟨3, ![128, 128, 128]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![64, 64, 64]⟩ ⟨3, ![128, 128, 128]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x64x64 : Shape := ⟨3, ![64, 64, 64]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel

variable [Facts]

def fn {F : FTy → Type} [FloatOps F] (main_arg0 : FVec F S64x64x64 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  main_v3
-- ==== Pre_finite_inputs_ReferenceIdeal.lean ====
abbrev S128x128x128 : Shape := ⟨3, ![128, 128, 128]⟩
abbrev S_ : Shape := ⟨0, ![]⟩

class Facts : Prop where
  bcast_S_S128x128x128 : S_.BroadcastsInDim S128x128x128 (![] : Fin 0 → Fin S128x128x128.rank)
  reducesTo_S128x128x128_S_d0_1_2 : S128x128x128.ReducesTo [0, 1, 2] S_
  h_S_ : 0 < S_.numel

variable [Facts]

def fn {F : FTy → Type} [FloatOps F] (main_arg0 : FVec F S128x128x128 .f32) : IVec S_ 1 :=
  let main_v0 : FVec F S128x128x128 .f32 := Host.absf main_arg0
  let main_cst : FVec F S_ .f32 := constant S_ .f32 0x7F800000#32
  let main_v1 : FVec F S128x128x128 .f32 := broadcastInDim S128x128x128 ![] bcast_S_S128x128x128 main_cst
  let main_v2 : IVec S128x128x128 1 := cmpf .olt main_v0 main_v1
  let main_c : IVec S_ 1 := constantI S_ 1 1#1
  let main_v3 : IVec S_ 1 := (fun x v => Host.reduce IntOp.andi x v reducesTo_S128x128x128_S_d0_1_2 h_S_) main_v2 main_c
  main_v3
-- ==== Kernel.lean ====
abbrev S64x64x64 : Shape := ⟨3, ![64, 64, 64]⟩
abbrev S64x64 : Shape := ⟨2, ![64, 64]⟩
abbrev S3 : Shape := ⟨1, ![3]⟩
abbrev S_ : Shape := ⟨0, ![]⟩
abbrev S1x64x64 : Shape := ⟨3, ![1, 64, 64]⟩
abbrev S64x1x64 : Shape := ⟨3, ![64, 1, 64]⟩
abbrev S64x64x1 : Shape := ⟨3, ![64, 64, 1]⟩
abbrev S32x64x64 : Shape := ⟨3, ![32, 64, 64]⟩
abbrev S31x64x64 : Shape := ⟨3, ![31, 64, 64]⟩
abbrev S32x1x64 : Shape := ⟨3, ![32, 1, 64]⟩
abbrev S32x64x1 : Shape := ⟨3, ![32, 64, 1]⟩
abbrev S32x63x64 : Shape := ⟨3, ![32, 63, 64]⟩
abbrev S32x64x63 : Shape := ⟨3, ![32, 64, 63]⟩
abbrev S1 : Shape := ⟨1, ![1]⟩

abbrev nBuf : Space → Nat
  | .hbm => 2
  | .vmem => 8
  | .smem => 0
  | _ => 0

abbrev bufTy : (tb : Table) → Fin (tcTables nBuf tb) → BufTy
  | .hbm, ⟨0, _⟩ => ⟨S64x64x64, .f32⟩
  | .hbm, ⟨1, _⟩ => ⟨S64x64x64, .f32⟩
  | .local _ .vmem, ⟨0, _⟩ => ⟨S64x64x64, .f32⟩
  | .local _ .vmem, ⟨1, _⟩ => ⟨S64x64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_dev4 (d0 : Dev nD) : Nat :=
  let c0_i32_47 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_46 : BitVec 32 := 4#32
  let v99 : BitVec 32 := Scalar.muli v9 c4_i32_46
  let v100 : BitVec 32 := Scalar.addi c0_i32_47 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v101 : BitVec 32 := Scalar.muli v5 c2_i32_48
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v103 : BitVec 32 := Scalar.muli v8 c1_i32_49
  let v104 : BitVec 32 := Scalar.addi v102 v103
  v104.toNat
def k0_dev5 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v109 : BitVec 32 := Scalar.muli v2 c4_i32_52
  let v110 : BitVec 32 := Scalar.addi c0_i32_53 v109
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_54 : BitVec 32 := 2#32
  let v111 : BitVec 32 := Scalar.muli v10 c2_i32_54
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v113 : BitVec 32 := Scalar.muli v8 c1_i32_55
  let v114 : BitVec 32 := Scalar.addi v112 v113
  v114.toNat
def k0_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v119 : BitVec 32 := Scalar.muli v2 c4_i32_58
  let v120 : BitVec 32 := Scalar.addi c0_i32_59 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v121 : BitVec 32 := Scalar.muli v5 c2_i32_60
  let v122 : BitVec 32 := Scalar.addi v120 v121
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_61 : BitVec 32 := 1#32
  let v123 : BitVec 32 := Scalar.muli v11 c1_i32_61
  let v124 : BitVec 32 := Scalar.addi v122 v123
  v124.toNat
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  iota_S64x64_d0_w32 : S64x64.Iotas .tc 32 [0]
  iota_S64x64_d1_w32 : S64x64.Iotas .tc 32 [1]
  slices_S64x64x64_o63_0_0_S1x64x64 : S64x64x64.Slices ![63, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S64x64x64_o0_0_0_S1x64x64 : S64x64x64.Slices ![0, 0, 0] S1x64x64
  slices_S64x64x64_o0_63_0_S64x1x64 : S64x64x64.Slices ![0, 63, 0] S64x1x64
  shapeCasts_S64x1x64_S64x64 : S64x1x64.ShapeCasts S64x64
  slices_S64x64x64_o0_0_0_S64x1x64 : S64x64x64.Slices ![0, 0, 0] S64x1x64
  slices_S64x64x64_o0_0_63_S64x64x1 : S64x64x64.Slices ![0, 0, 63] S64x64x1
  shapeCasts_S64x64x1_S64x64 : S64x64x1.ShapeCasts S64x64
  slices_S64x64x64_o0_0_0_S64x64x1 : S64x64x64.Slices ![0, 0, 0] S64x64x1
  slices_S64x64x64_o0_0_0_S32x64x64 : S64x64x64.Slices ![0, 0, 0] S32x64x64
  slices_S64x64x64_o0_0_0_S31x64x64 : S64x64x64.Slices ![0, 0, 0] S31x64x64
  concatenates_S1x64x64_S31x64x64_S32x64x64_d0 : Shape.Concatenates [S1x64x64, S31x64x64] S32x64x64 0
  slices_S64x64x64_o1_0_0_S32x64x64 : S64x64x64.Slices ![1, 0, 0] S32x64x64
  slices_S32x64x64_o0_0_0_S32x63x64 : S32x64x64.Slices ![0, 0, 0] S32x63x64
  concatenates_S32x1x64_S32x63x64_S32x64x64_d1 : Shape.Concatenates [S32x1x64, S32x63x64] S32x64x64 1
  slices_S32x64x64_o0_1_0_S32x63x64 : S32x64x64.Slices ![0, 1, 0] S32x63x64
  concatenates_S32x63x64_S32x1x64_S32x64x64_d1 : Shape.Concatenates [S32x63x64, S32x1x64] S32x64x64 1
  slices_S32x64x64_o0_0_0_S32x64x63 : S32x64x64.Slices ![0, 0, 0] S32x64x63
  concatenates_S32x64x1_S32x64x63_S32x64x64_d2 : Shape.Concatenates [S32x64x1, S32x64x63] S32x64x64 2
  slices_S32x64x64_o0_0_1_S32x64x63 : S32x64x64.Slices ![0, 0, 1] S32x64x63
  concatenates_S32x64x63_S32x64x1_S32x64x64_d2 : Shape.Concatenates [S32x64x63, S32x64x1] S32x64x64 2
  iota_S32x64x64_d0_w32 : S32x64x64.Iotas .tc 32 [0]
  iota_S32x64x64_d1_w32 : S32x64x64.Iotas .tc 32 [1]
  iota_S32x64x64_d2_w32 : S32x64x64.Iotas .tc 32 [2]
  inb_S64x64x64_S32x64x64_0_0_0 : ∀ a, (![0, 0, 0] : Fin 3 → Nat) a + S32x64x64.size a ≤ S64x64x64.size a
  h_S32x64x64 : 0 < S32x64x64.numel
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  slices_S64x64x64_o32_0_0_S32x64x64 : S64x64x64.Slices ![32, 0, 0] S32x64x64
  slices_S64x64x64_o31_0_0_S32x64x64 : S64x64x64.Slices ![31, 0, 0] S32x64x64
  slices_S64x64x64_o33_0_0_S31x64x64 : S64x64x64.Slices ![33, 0, 0] S31x64x64
  concatenates_S31x64x64_S1x64x64_S32x64x64_d0 : Shape.Concatenates [S31x64x64, S1x64x64] S32x64x64 0
  inb_S64x64x64_S32x64x64_32_0_0 : ∀ a, (![32, 0, 0] : Fin 3 → Nat) a + S32x64x64.size a ≤ S64x64x64.size a
  inb_S64x64x64_S1x64x64_63_0_0 : ∀ a, (![63, 0, 0] : Fin 3 → Nat) a + S1x64x64.size a ≤ S64x64x64.size a
  h_S1x64x64 : 0 < S1x64x64.numel
  shapeCasts_S1x64x64_S1x64x64 : S1x64x64.ShapeCasts S1x64x64
  shapeCasts_S64x64_S1x64x64 : S64x64.ShapeCasts S1x64x64
  inb_S64x64x64_S1x64x64_0_0_0 : ∀ a, (![0, 0, 0] : Fin 3 → Nat) a + S1x64x64.size a ≤ S64x64x64.size a
  inb_S64x64x64_S64x1x64_0_63_0 : ∀ a, (![0, 63, 0] : Fin 3 → Nat) a + S64x1x64.size a ≤ S64x64x64.size a
  h_S64x1x64 : 0 < S64x1x64.numel
  shapeCasts_S64x1x64_S64x1x64 : S64x1x64.ShapeCasts S64x1x64
  shapeCasts_S64x64_S64x1x64 : S64x64.ShapeCasts S64x1x64
  inb_S64x64x64_S64x1x64_0_0_0 : ∀ a, (![0, 0, 0] : Fin 3 → Nat) a + S64x1x64.size a ≤ S64x64x64.size a
  inb_S64x64x64_S64x64x1_0_0_63 : ∀ a, (![0, 0, 63] : Fin 3 → Nat) a + S64x64x1.size a ≤ S64x64x64.size a
  h_S64x64x1 : 0 < S64x64x1.numel
  shapeCasts_S64x64x1_S64x64x1 : S64x64x1.ShapeCasts S64x64x1
  shapeCasts_S64x64_S64x64x1 : S64x64.ShapeCasts S64x64x1
  inb_S64x64x64_S64x64x1_0_0_0 : ∀ a, (![0, 0, 0] : Fin 3 → Nat) a + S64x64x1.size a ≤ S64x64x64.size a
  hcc0_scratch6 : 2 + S3.numel ≤ 8
  hcc0_scratch7 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch6 : DmaSems sig S3 := SemArray.consecutive 2 S3 hcc0_scratch6
abbrev cc0_scratch7 : DmaSems sig S3 := SemArray.consecutive 5 S3 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x128x128 : Shape := ⟨3, ![128, 128, 128]⟩
abbrev S_ : Shape := ⟨0, ![]⟩
abbrev S126x126x126 : Shape := ⟨3, ![126, 126, 126]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S128x128x128, .f32⟩
  | .hbm, ⟨1, _⟩ => ⟨S_, .f32⟩
  | .hbm, ⟨2, _⟩ => ⟨S128x128x128, .f32⟩
  | .hbm, ⟨3, _⟩ => ⟨S126x126x126, .f32⟩
  | .hbm, ⟨4, _⟩ => ⟨S126x126x126, .f32⟩
  | .hbm, ⟨5, _⟩ => ⟨S126x126x126, .f32⟩
  | .hbm, ⟨6, _⟩ => ⟨S126x126x126, .f32⟩
  | .hbm, ⟨7, _⟩ => ⟨S126x126x126, .f32⟩
  | .hbm, ⟨8, _⟩ => ⟨S126x126x126, .f32⟩
  | .hbm, ⟨9, _⟩ => ⟨S126x126x126, .f32⟩
  | .hbm, ⟨10, _⟩ => ⟨S126x126x126, .f32⟩
  | .hbm, ⟨11, _⟩ => ⟨S126x126x126, .f32⟩
  | .hbm, ⟨12, _⟩ => ⟨S126x126x126, .f32⟩
  | .hbm, ⟨13, _⟩ => ⟨S126x126x126, .f32⟩
  | .hbm, ⟨14, _⟩ => ⟨S126x126x126, .f32⟩
  | .hbm, ⟨15, _⟩ => ⟨S_, .f32⟩
  | .hbm, ⟨16, _⟩ => ⟨S126x126x126, .f32⟩
  | .hbm, ⟨17, _⟩ => ⟨S126x126x126, .f32⟩
  | .hbm, ⟨18, _⟩ => ⟨S126x126x126, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S128x128x128, .f32⟩
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S128x128x128 : S_.BroadcastsInDim S128x128x128 (![] : Fin 0 → Fin S128x128x128.rank)
  slices_S128x128x128_S126x126x126_0_1_1 : S128x128x128.Slices ![0, 1, 1] S126x126x126
  slices_S128x128x128_S126x126x126_2_1_1 : S128x128x128.Slices ![2, 1, 1] S126x126x126
  slices_S128x128x128_S126x126x126_1_0_1 : S128x128x128.Slices ![1, 0, 1] S126x126x126
  slices_S128x128x128_S126x126x126_1_2_1 : S128x128x128.Slices ![1, 2, 1] S126x126x126
  slices_S128x128x128_S126x126x126_1_1_0 : S128x128x128.Slices ![1, 1, 0] S126x126x126
  slices_S128x128x128_S126x126x126_1_1_2 : S128x128x128.Slices ![1, 1, 2] S126x126x126
  slices_S128x128x128_S126x126x126_1_1_1 : S128x128x128.Slices ![1, 1, 1] S126x126x126
  bcast_S_S126x126x126 : S_.BroadcastsInDim S126x126x126 (![] : Fin 0 → Fin S126x126x126.rank)
  bcast_S_S1 : S_.BroadcastsInDim S1 (![] : Fin 0 → Fin S1.rank)
  concatenates_S1_S1_S1_S3_d0 : Shape.Concatenates [S1, S1, S1] S3 0
  scatter_S128x128x128_S3_S126x126x126_012_n_012_0_wf : ScatterDims.WF S128x128x128 S3 S126x126x126 [0, 1, 2] [] [0, 1, 2] 0

variable [Facts₀]

def scatter_S128x128x128_S3_S126x126x126_012_n_012_0 : ScatterDims S128x128x128 S3 S126x126x126 where
  updateWindowDims := [0, 1, 2]
  insertedWindowDims := []
  scatterDimsToOperandDims := [0, 1, 2]
  indexVectorDim := 0
  wf := scatter_S128x128x128_S3_S126x126x126_012_n_012_0_wf

class Facts : Prop extends Facts₀ where

variable [Facts]
-- ==== Proof.Values.lean ====
/-
  The data a device's kernel instance computes, as pure terms of the devices' input blocks, generic in the float
  instance: the device's mesh coordinates as the words the body computes, its three face neighbours, the face it sends
  along each axis, the two half-slabs of the local stencil, and the output block after the three received faces have
  been added onto its interior faces.
-/
import proofs.«900808_g7700000000000809_dist_halo3d_v7x_xyz2x2x2_s64_f32_1_alg».proof.Proof.Gen.KernelIdeal.Skeleton

noncomputable section

namespace Cert.KernelIdeal.Halo

open Cert.KernelIdeal Cert.KernelIdeal.Gen
open Idealize.ShloMosaic Idealize.ShloMosaic.TcCoe Idealize.SL.Sem

variable {F : FTy → Type} [FloatOps F]

/-! ## The device's place on the 2 × 2 × 2 mesh -/

/-- The device's coordinate along the first mesh axis, as the body computes it from the device id. -/
def wx (c : Dev nD) : BitVec 32 := Scalar.remsi (Scalar.divsi (Dev.word c) 4#32) 2#32
/-- Its coordinate along the second axis. -/
def wy (c : Dev nD) : BitVec 32 := Scalar.remsi (Scalar.divsi (Dev.word c) 2#32) 2#32
/-- Its coordinate along the third axis. -/
def wz (c : Dev nD) : BitVec 32 := Scalar.remsi (Scalar.divsi (Dev.word c) 1#32) 2#32

/-- The neighbour across the face orthogonal to the first axis: the first coordinate flipped. -/
def nbX (c : Dev nD) : Dev nD := ⟨k0_dev1 c, k0_dev1_lt c⟩
/-- The neighbour with the second coordinate flipped. -/
def nbY (c : Dev nD) : Dev nD := ⟨k0_dev2 c, k0_dev2_lt c⟩
/-- The neighbour with the third coordinate flipped. -/
def nbZ (c : Dev nD) : Dev nD := ⟨k0_dev3 c, k0_dev3_lt c⟩

/-! ## Faces and slabs -/

/-- A device's input block. -/
abbrev Cube (F : FTy → Type) : Type := Vec F S64x64x64 .f32
/-- A face of it. -/
abbrev Face (F : FTy → Type) : Type := Vec F S64x64 .f32

/-- The face a device sends to its first-axis neighbour: its interior face orthogonal to that axis (row 63 on the
    low device, row 0 on the high one), zeroed where the other two coordinates lie on the global boundary. -/
def faceX (c : Dev nD) (x : Cube F) : FVec F S64x64 .f32 :=
  if wx c = 0#32 then k0_pay2 (wy c) (wz c) x else k0_pay3 (wy c) (wz c) x
def faceY (c : Dev nD) (x : Cube F) : FVec F S64x64 .f32 :=
  if wy c = 0#32 then k0_pay4 (wx c) (wz c) x else k0_pay5 (wx c) (wz c) x
def faceZ (c : Dev nD) (x : Cube F) : FVec F S64x64 .f32 :=
  if wz c = 0#32 then k0_pay6 (wx c) (wy c) x else k0_pay7 (wx c) (wy c) x

/-- The local stencil on rows 0 … 31 of the block (neighbours outside the block read as zero), zeroed on the global
    boundary. -/
def slabLo (c : Dev nD) (x : Cube F) : FVec F S32x64x64 .f32 :=
  k0_pay12 (Scalar.muli (wx c) 63#32) (Scalar.muli (wy c) 63#32) (Scalar.muli (wz c) 63#32)
    (k0_pay8 x) (k0_pay9 x) (k0_pay10 x) (k0_pay11 (F := F))
/-- The same on rows 32 … 63. -/
def slabHi (c : Dev nD) (x : Cube F) : FVec F S32x64x64 .f32 :=
  k0_pay16 (Scalar.muli (wx c) 63#32) (Scalar.muli (wy c) 63#32) (Scalar.muli (wz c) 63#32)
    (k0_pay13 (k0_pay1 x)) (k0_pay14 (k0_pay1 x)) (k0_pay15 (F := F))

/-! ## The output block -/

/-- The output block's staging buffer, and what it holds. -/
abbrev oM : Memref sig .tc .vmem S64x64x64 .f32 := Memref.whole cc0_stg1_0
abbrev OC (F : FTy → Type) : Type := (cc0_stg1_0 : Ref sig .tc).ty.Contents (Elt F)

abbrev rLo : Rect S64x64x64 := Rect.unit (s := S64x64x64) ![0, 0, 0] S32x64x64.size inb_S64x64x64_S32x64x64_0_0_0
abbrev rHi : Rect S64x64x64 := Rect.unit (s := S64x64x64) ![32, 0, 0] S32x64x64.size inb_S64x64x64_S32x64x64_32_0_0
abbrev rX63 : Rect S64x64x64 := Rect.unit (s := S64x64x64) ![63, 0, 0] S1x64x64.size inb_S64x64x64_S1x64x64_63_0_0
abbrev rX0 : Rect S64x64x64 := Rect.unit (s := S64x64x64) ![0, 0, 0] S1x64x64.size inb_S64x64x64_S1x64x64_0_0_0
abbrev rY63 : Rect S64x64x64 := Rect.unit (s := S64x64x64) ![0, 63, 0] S64x1x64.size inb_S64x64x64_S64x1x64_0_63_0
abbrev rY0 : Rect S64x64x64 := Rect.unit (s := S64x64x64) ![0, 0, 0] S64x1x64.size inb_S64x64x64_S64x1x64_0_0_0
abbrev rZ63 : Rect S64x64x64 := Rect.unit (s := S64x64x64) ![0, 0, 63] S64x64x1.size inb_S64x64x64_S64x64x1_0_0_63
abbrev rZ0 : Rect S64x64x64 := Rect.unit (s := S64x64x64) ![0, 0, 0] S64x64x1.size inb_S64x64x64_S64x64x1_0_0_0

/-- The buffer after a store of `w` through the rectangle `r`. -/
def stO (r : Rect S64x64x64) (o : OC F) (w : r.shape.Idx → Elt F .f32) : OC F :=
  (oM.access r).write (Elt F) o w Finset.univ
/-- What a load through the rectangle `r` reads of it. -/
def ldO (r : Rect S64x64x64) (o : OC F) : r.toLoadRect.shape.Idx → Elt F .f32 :=
  oM.view.readAt (Elt F) r.toLoadRect o

/-- The received first-axis face added onto the interior face orthogonal to that axis. -/
def addX (c : Dev nD) (o : OC F) (h : Face F) : OC F :=
  if wx c = 0#32 then stO rX63 o (k0_pay17 (ldO rX63 o) h) else stO rX0 o (k0_pay18 (ldO rX0 o) h)
def addY (c : Dev nD) (o : OC F) (h : Face F) : OC F :=
  if wy c = 0#32 then stO rY63 o (k0_pay19 (ldO rY63 o) h) else stO rY0 o (k0_pay20 (ldO rY0 o) h)
def addZ (c : Dev nD) (o : OC F) (h : Face F) : OC F :=
  if wz c = 0#32 then stO rZ63 o (k0_pay21 (ldO rZ63 o) h) else stO rZ0 o (k0_pay22 (ldO rZ0 o) h)

/-- A buffer of zeros: the contents the two slab stores overwrite (any would do: the slabs cover the block). -/
def o00 : OC F := fun _ => (Scalar.ofBits .f32 0x00000000#32 : F .f32)

/-- The block after the two slab stores. -/
def slabs (c : Dev nD) (o : OC F) (x : Cube F) : OC F := stO rHi (stO rLo o (slabLo c x)) (slabHi c x)

/-- The device's output block, from every device's input block: the local stencil, then the three neighbours' faces
    added in the order first, second, third axis. -/
def outAt (c : Dev nD) (X : Dev nD → Cube F) : OC F :=
  addZ c (addY c (addX c (slabs c o00 (X c)) (faceX (nbX c) (X (nbX c)))) (faceY (nbY c) (X (nbY c))))
    (faceZ (nbZ c) (X (nbZ c)))

end Cert.KernelIdeal.Halo

end
-- ==== Proof.Protocol.lean ====
/-
  The cross-device protocol of the halo exchange, under the rounds discipline.

  Each device owns seven semaphore cells: the runtime's barrier semaphore and, per mesh axis, a send and a receive
  DMA semaphore. One round each. The barrier cell's round has three duties of one unit, one per axis, paid by the
  neighbour across that axis on entry; what the neighbour's unit hands over is the neighbour's landing buffer for
  that axis and the fact that the neighbour stands at round 0 of its receive cell — exactly what a copy into that
  buffer needs. A receive cell's one duty is the neighbour's copy: it hands the owner its landing buffer holding the
  face the neighbour sent. A send cell's one duty is the device's own copy: it hands back the face buffer.

  A device waits on its barrier cell while it still owes the three copies: barrier cells sit at level 1, receive
  cells at level 2, everything else at level 0, so every wait is below what the waiter owes.
-/
import proofs.«900808_g7700000000000809_dist_halo3d_v7x_xyz2x2x2_s64_f32_1_alg».proof.Proof.Values
import proofs.«900808_g7700000000000809_dist_halo3d_v7x_xyz2x2x2_s64_f32_1_alg».proof.Proof.Gen.KernelIdeal.Launch
import proofs.«900808_g7700000000000809_dist_halo3d_v7x_xyz2x2x2_s64_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.HaloProof

open Cert.KernelIdeal Cert.KernelIdeal.Gen Cert.KernelIdeal.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the mesh axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The neighbours -/

theorem nbX_nbX (c : Dev nD) : nbX (nbX c) = c := by revert c; decide +kernel
theorem nbY_nbY (c : Dev nD) : nbY (nbY c) = c := by revert c; decide +kernel
theorem nbZ_nbZ (c : Dev nD) : nbZ (nbZ c) = c := by revert c; decide +kernel

/-- The body's device chains: the three signals and the three copies address the three neighbours (the copies' chains are
    the signals', operation for operation). -/
theorem dev1_eq (c : Dev nD) : (⟨k0_dev1 c, k0_dev1_lt c⟩ : Dev nD) = nbX c := rfl
theorem dev2_eq (c : Dev nD) : (⟨k0_dev2 c, k0_dev2_lt c⟩ : Dev nD) = nbY c := rfl
theorem dev3_eq (c : Dev nD) : (⟨k0_dev3 c, k0_dev3_lt c⟩ : Dev nD) = nbZ c := rfl
theorem dev4_eq (c : Dev nD) : (⟨k0_dev4 c, k0_dev4_lt c⟩ : Dev nD) = nbX c := rfl
theorem dev5_eq (c : Dev nD) : (⟨k0_dev5 c, k0_dev5_lt c⟩ : Dev nD) = nbY c := rfl
theorem dev6_eq (c : Dev nD) : (⟨k0_dev6 c, k0_dev6_lt c⟩ : Dev nD) = nbZ c := rfl

def flipX : Dev nD ≃ Dev nD := ⟨nbX, nbX, nbX_nbX, nbX_nbX⟩
def flipY : Dev nD ≃ Dev nD := ⟨nbY, nbY, nbY_nbY, nbY_nbY⟩
def flipZ : Dev nD ≃ Dev nD := ⟨nbZ, nbZ, nbZ_nbZ, nbZ_nbZ⟩

/-! ## The buffers and the cells -/

abbrev xM : Memref sig .tc .vmem S64x64x64 .f32 := Memref.whole cc0_stg0_0
abbrev fxM : Memref sig .tc .vmem S64x64 .f32 := Memref.whole cc0_scratch0
abbrev fyM : Memref sig .tc .vmem S64x64 .f32 := Memref.whole cc0_scratch1
abbrev fzM : Memref sig .tc .vmem S64x64 .f32 := Memref.whole cc0_scratch2
abbrev hxM : Memref sig .tc .vmem S64x64 .f32 := Memref.whole cc0_scratch3
abbrev hyM : Memref sig .tc .vmem S64x64 .f32 := Memref.whole cc0_scratch4
abbrev hzM : Memref sig .tc .vmem S64x64 .f32 := Memref.whole cc0_scratch5

/-- The runtime's barrier semaphore of collective id 0, and the six DMA semaphores of the two scratch arrays. -/
abbrev barS : Sem sig := (SemArray.scalar (sig.barrier 0 rfl) : Sems sig S_).sem
abbrev sX : DmaSem sig := ((cc0_scratch6.slice (Rect.unit (s := S3) ![0] S1.size inb_S3_S1_0)).squeeze S_ squeezes_S1_S_).sem
abbrev sY : DmaSem sig := ((cc0_scratch6.slice (Rect.unit (s := S3) ![1] S1.size inb_S3_S1_1)).squeeze S_ squeezes_S1_S_).sem
abbrev sZ : DmaSem sig := ((cc0_scratch6.slice (Rect.unit (s := S3) ![2] S1.size inb_S3_S1_2)).squeeze S_ squeezes_S1_S_).sem
abbrev rX : DmaSem sig := ((cc0_scratch7.slice (Rect.unit (s := S3) ![0] S1.size inb_S3_S1_0)).squeeze S_ squeezes_S1_S_).sem
abbrev rY : DmaSem sig := ((cc0_scratch7.slice (Rect.unit (s := S3) ![1] S1.size inb_S3_S1_1)).squeeze S_ squeezes_S1_S_).sem
abbrev rZ : DmaSem sig := ((cc0_scratch7.slice (Rect.unit (s := S3) ![2] S1.size inb_S3_S1_2)).squeeze S_ squeezes_S1_S_).sem

abbrev barCell (c : Dev nD) : GSem nD τ sig := ((c : Thread nD τ), .reg barS)
abbrev dCell (q : DmaSem sig) (c : Dev nD) : GSem nD τ sig := ((c : Thread nD τ), .dma q)

/-- The kernel's own (scoped) semaphores, as the launch indexes them; -/
abbrev osem : Fin 6 → SemLoc sig := fun | 0 => .dma sX | 1 => .dma sY | 2 => .dma sZ | 3 => .dma rX | 4 => .dma rY | 5 => .dma rZ
/-- all seven of the protocol's. -/
abbrev csem : Fin 7 → SemLoc sig := fun | 0 => .reg barS | 1 => .dma sX | 2 => .dma sY | 3 => .dma sZ | 4 => .dma rX | 5 => .dma rY | 6 => .dma rZ
abbrev kcell (ck : Dev nD × Fin 7) : GSem nD τ sig := ((ck.1 : Thread nD τ), csem ck.2)

/-- A face's credit: the units a copy of one 64 × 64 face pays. -/
abbrev N : ℕ := (hxM : Memref sig .tc .vmem S64x64 .f32).view.dmaCredit
theorem N_pos : 0 < N := View.dmaCredit_pos _ (by decide)

/-! ## Contents -/

/-- Device `c`'s input block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The faces device `c` sends. -/
def fvX (c : Dev nD) : (cc0_scratch0 : Ref sig .tc).ty.Contents (Elt F) := faceX c (xstg m ρ c)
def fvY (c : Dev nD) : (cc0_scratch1 : Ref sig .tc).ty.Contents (Elt F) := faceY c (xstg m ρ c)
def fvZ (c : Dev nD) : (cc0_scratch2 : Ref sig .tc).ty.Contents (Elt F) := faceZ c (xstg m ρ c)

end Cert.KernelIdeal.HaloProof

end
-- ==== Proof.Schedule.lean ====
/-
  The schedule of the halo exchange's seven cells per device, its tables, what a device owes when the kernel is
  launched, and the levels that order the waits.
-/
import proofs.«900808_g7700000000000809_dist_halo3d_v7x_xyz2x2x2_s64_f32_1_alg».proof.Proof.Protocol

noncomputable section

namespace Cert.KernelIdeal.HaloProof

open Cert.KernelIdeal Cert.KernelIdeal.Gen Cert.KernelIdeal.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- What the neighbour across axis `d` hands device `c` with its unit on `c`'s barrier cell: the neighbour's landing
    buffer for that axis, and that the neighbour stands at round 0 of its receive cell for that axis. -/
def barPay (c : Dev nD) (d : Fin 3) : sProp 𝕄 :=
  match d with
  | 0 => iprop((∃ f, (hxM.view.loc (nbX c : Thread nD τ) ↦[hxM.view.set]{fullShare} f)) ∗ reached ER (dCell rX (nbX c)) 0)
  | 1 => iprop((∃ f, (hyM.view.loc (nbY c : Thread nD τ) ↦[hyM.view.set]{fullShare} f)) ∗ reached ER (dCell rY (nbY c)) 0)
  | 2 => iprop((∃ f, (hzM.view.loc (nbZ c : Thread nD τ) ↦[hzM.view.set]{fullShare} f)) ∗ reached ER (dCell rZ (nbZ c)) 0)

/-- A landing: the landing buffer holds the face the neighbour sent. -/
def recvPayX (c : Dev nD) : sProp 𝕄 := (hxM.view.loc (c : Thread nD τ) ↦[hxM.view.set]{fullShare} fvX m ρ (nbX c))
def recvPayY (c : Dev nD) : sProp 𝕄 := (hyM.view.loc (c : Thread nD τ) ↦[hyM.view.set]{fullShare} fvY m ρ (nbY c))
def recvPayZ (c : Dev nD) : sProp 𝕄 := (hzM.view.loc (c : Thread nD τ) ↦[hzM.view.set]{fullShare} fvZ m ρ (nbZ c))
/-- A departure: the face buffer is the device's again, unchanged. -/
def sendPayX (c : Dev nD) : sProp 𝕄 := (fxM.view.loc (c : Thread nD τ) ↦[fxM.view.set]{fullShare} fvX m ρ c)
def sendPayY (c : Dev nD) : sProp 𝕄 := (fyM.view.loc (c : Thread nD τ) ↦[fyM.view.set]{fullShare} fvY m ρ c)
def sendPayZ (c : Dev nD) : sProp 𝕄 := (fzM.view.loc (c : Thread nD τ) ↦[fzM.view.set]{fullShare} fvZ m ρ c)

abbrev IsBar (g : GSem nD τ sig) : Prop := g.1.2 = .tc ∧ g.2 = .reg barS
abbrev IsXfer (g : GSem nD τ sig) : Prop :=
  g.1.2 = .tc ∧ (g.2 = .dma sX ∨ g.2 = .dma sY ∨ g.2 = .dma sZ ∨ g.2 = .dma rX ∨ g.2 = .dma rY ∨ g.2 = .dma rZ)

/-- One round, round 0: a barrier cell has three duties of one unit, a send or receive cell the duty `0` of a face's
    credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma rX then recvPayX m ρ g.1.1
    else if g.2 = .dma rY then recvPayY m ρ g.1.1
    else if g.2 = .dma rZ then recvPayZ m ρ g.1.1
    else if g.2 = .dma sX then sendPayX m ρ g.1.1
    else if g.2 = .dma sY then sendPayY m ρ g.1.1
    else if g.2 = .dma sZ then sendPayZ m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma rX then recvPayX m ρ g.1.1
    else if g.2 = .dma rY then recvPayY m ρ g.1.1
    else if g.2 = .dma rZ then recvPayZ m ρ g.1.1
    else if g.2 = .dma sX then sendPayX m ρ g.1.1
    else if g.2 = .dma sY then sendPayY m ρ g.1.1
    else if g.2 = .dma sZ then sendPayZ m ρ g.1.1
    else iprop(emp))
  unfold barPay recvPayX recvPayY recvPayZ sendPayX sendPayY sendPayZ
  (repeat' split) <;> infer_instance

/-! ## The schedule's tables -/

section Tables
variable (c : Dev nD)

theorem ne_bar (q : DmaSem sig) : (SemLoc.dma q : SemLoc sig) ≠ .reg barS := fun h => by cases h
theorem not_bar_d (q : DmaSem sig) : ¬ IsBar (dCell q c) := fun h => ne_bar q h.2

theorem duties_bar : (sched (F := F) m ρ).duties (barCell c) 0 = Finset.univ := by dsimp only [sched]; exact if_pos ⟨rfl, rfl, rfl⟩
theorem duties_xfer (q : DmaSem sig)
    (hq : (SemLoc.dma q : SemLoc sig) = .dma sX ∨ (SemLoc.dma q : SemLoc sig) = .dma sY ∨ (SemLoc.dma q : SemLoc sig) = .dma sZ
      ∨ (SemLoc.dma q : SemLoc sig) = .dma rX ∨ (SemLoc.dma q : SemLoc sig) = .dma rY ∨ (SemLoc.dma q : SemLoc sig) = .dma rZ) :
    (sched (F := F) m ρ).duties (dCell q c) 0 = {0} := by
  dsimp only [sched]; rw [if_neg (fun h => not_bar_d c q h.2)]; exact if_pos ⟨rfl, rfl, hq⟩
theorem duties_sX : (sched (F := F) m ρ).duties (dCell sX c) 0 = {0} := duties_xfer m ρ c sX (.inl rfl)
theorem duties_sY : (sched (F := F) m ρ).duties (dCell sY c) 0 = {0} := duties_xfer m ρ c sY (.inr (.inl rfl))
theorem duties_sZ : (sched (F := F) m ρ).duties (dCell sZ c) 0 = {0} := duties_xfer m ρ c sZ (.inr (.inr (.inl rfl)))
theorem duties_rX : (sched (F := F) m ρ).duties (dCell rX c) 0 = {0} := duties_xfer m ρ c rX (.inr (.inr (.inr (.inl rfl))))
theorem duties_rY : (sched (F := F) m ρ).duties (dCell rY c) 0 = {0} := duties_xfer m ρ c rY (.inr (.inr (.inr (.inr (.inl rfl)))))
theorem duties_rZ : (sched (F := F) m ρ).duties (dCell rZ c) 0 = {0} := duties_xfer m ρ c rZ (.inr (.inr (.inr (.inr (.inr rfl)))))
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_xfer (q : DmaSem sig) (d : Fin 3) : (sched (F := F) m ρ).amount (dCell q c) 0 d = N := by
  dsimp only [sched]; exact if_neg (ne_bar q)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_xfer (q : DmaSem sig) (hd : (sched (F := F) m ρ).duties (dCell q c) 0 = {0}) : (sched (F := F) m ρ).expect (dCell q c) 0 = N := by
  unfold Schedule.expect Schedule.amountOf; rw [hd, Finset.sum_singleton, amount_xfer]
theorem expect_sX : (sched (F := F) m ρ).expect (dCell sX c) 0 = N := expect_xfer m ρ c sX (duties_sX m ρ c)
theorem expect_sY : (sched (F := F) m ρ).expect (dCell sY c) 0 = N := expect_xfer m ρ c sY (duties_sY m ρ c)
theorem expect_sZ : (sched (F := F) m ρ).expect (dCell sZ c) 0 = N := expect_xfer m ρ c sZ (duties_sZ m ρ c)
theorem expect_rX : (sched (F := F) m ρ).expect (dCell rX c) 0 = N := expect_xfer m ρ c rX (duties_rX m ρ c)
theorem expect_rY : (sched (F := F) m ρ).expect (dCell rY c) 0 = N := expect_xfer m ρ c rY (duties_rY m ρ c)
theorem expect_rZ : (sched (F := F) m ρ).expect (dCell rZ c) 0 = N := expect_xfer m ρ c rZ (duties_rZ m ρ c)

theorem payload_bar (d : Fin 3) : (sched (F := F) m ρ).payload (barCell c) 0 d = barPay c d := by dsimp only [sched]; exact if_pos rfl
theorem payload_rX (d : Fin 3) : (sched (F := F) m ρ).payload (dCell rX c) 0 d = recvPayX m ρ c := by
  dsimp only [sched]; rw [if_neg (ne_bar _), if_pos rfl]
theorem payload_rY (d : Fin 3) : (sched (F := F) m ρ).payload (dCell rY c) 0 d = recvPayY m ρ c := by
  dsimp only [sched]; rw [if_neg (ne_bar _), if_neg (by decide), if_pos rfl]
theorem payload_rZ (d : Fin 3) : (sched (F := F) m ρ).payload (dCell rZ c) 0 d = recvPayZ m ρ c := by
  dsimp only [sched]; rw [if_neg (ne_bar _), if_neg (by decide), if_neg (by decide), if_pos rfl]
theorem payload_sX (d : Fin 3) : (sched (F := F) m ρ).payload (dCell sX c) 0 d = sendPayX m ρ c := by
  dsimp only [sched]; rw [if_neg (ne_bar _), if_neg (by decide), if_neg (by decide), if_neg (by decide), if_pos rfl]
theorem payload_sY (d : Fin 3) : (sched (F := F) m ρ).payload (dCell sY c) 0 d = sendPayY m ρ c := by
  dsimp only [sched]; rw [if_neg (ne_bar _), if_neg (by decide), if_neg (by decide), if_neg (by decide), if_neg (by decide), if_pos rfl]
theorem payload_sZ (d : Fin 3) : (sched (F := F) m ρ).payload (dCell sZ c) 0 d = sendPayZ m ρ c := by
  dsimp only [sched]; rw [if_neg (ne_bar _), if_neg (by decide), if_neg (by decide), if_neg (by decide), if_neg (by decide), if_neg (by decide), if_pos rfl]

end Tables

/-! ## What each device owes at launch; the levels -/

/-- Device `c` owes each neighbour's receive cell a face's credit and each neighbour's barrier cell one unit. -/
def O₃ (c : Dev nD) : CellTallies nD τ sig Unit :=
  tallyAt (dCell rX (nbX c)) () N + tallyAt (dCell rY (nbY c)) () N + tallyAt (dCell rZ (nbZ c)) () N
def O₀ (c : Dev nD) : CellTallies nD τ sig Unit :=
  O₃ c + tallyAt (barCell (nbZ c)) () 1 + tallyAt (barCell (nbY c)) () 1 + tallyAt (barCell (nbX c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma rX ∨ g.2 = .dma rY ∨ g.2 = .dma rZ then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = dCell rX (nbX c) ∨ g = dCell rY (nbY c) ∨ g = dCell rZ (nbZ c) ∨ g = barCell (nbZ c) ∨ g = barCell (nbY c) ∨ g = barCell (nbX c) := by
  unfold O₀ O₃ at h
  simp only [Pi.add_apply, Finsupp.add_apply, tallyAt_apply] at h
  by_contra hn
  simp only [not_or] at hn
  obtain ⟨h1, h2, h3, h4, h5, h6⟩ := hn
  rw [if_neg (fun h' => h1 h'.1), if_neg (fun h' => h2 h'.1), if_neg (fun h' => h3 h'.1), if_neg (fun h' => h4 h'.1),
    if_neg (fun h' => h5 h'.1), if_neg (fun h' => h6 h'.1)] at h
  exact Nat.lt_irrefl 0 h

theorem O₃_pos {c : Dev nD} {g : GSem nD τ sig} {u : Unit} (h : 0 < O₃ c g u) :
    g = dCell rX (nbX c) ∨ g = dCell rY (nbY c) ∨ g = dCell rZ (nbZ c) := by
  unfold O₃ at h
  simp only [Pi.add_apply, Finsupp.add_apply, tallyAt_apply] at h
  by_contra hn
  simp only [not_or] at hn
  obtain ⟨h1, h2, h3⟩ := hn
  rw [if_neg (fun h' => h1 h'.1), if_neg (fun h' => h2 h'.1), if_neg (fun h' => h3 h'.1)] at h
  exact Nat.lt_irrefl 0 h

theorem lv_bar (c : Dev nD) (u : Unit) : lv (barCell c) u = 1 := by dsimp only [lv]; rw [if_pos rfl]
theorem lv_rX (c : Dev nD) (u : Unit) : lv (dCell rX c) u = 2 := by dsimp only [lv]; rw [if_neg (ne_bar _), if_pos (.inl rfl)]
theorem lv_rY (c : Dev nD) (u : Unit) : lv (dCell rY c) u = 2 := by dsimp only [lv]; rw [if_neg (ne_bar _), if_pos (.inr (.inl rfl))]
theorem lv_rZ (c : Dev nD) (u : Unit) : lv (dCell rZ c) u = 2 := by dsimp only [lv]; rw [if_neg (ne_bar _), if_pos (.inr (.inr rfl))]

/-- A wait on a level-0 cell (a staging semaphore, a send semaphore) while owing what is owed at launch, or nothing. -/
theorem mayWait_stage (c : Dev nD) (q : DmaSem sig)
    (hq : ¬ ((SemLoc.dma q : SemLoc sig) = .dma rX ∨ (SemLoc.dma q : SemLoc sig) = .dma rY ∨ (SemLoc.dma q : SemLoc sig) = .dma rZ))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by rw [Finset.mem_singleton.mp hp]; dsimp only [lv]; rw [if_neg (ne_bar q), if_neg hq])
      (fun g u hg => by
        rcases O₀_pos hg with rfl | rfl | rfl | rfl | rfl | rfl
        · rw [lv_rX]; decide
        · rw [lv_rY]; decide
        · rw [lv_rZ]; decide
        · rw [lv_bar]; decide
        · rw [lv_bar]; decide
        · rw [lv_bar]; decide)
  · rw [MayWait_zero]; iintro -; iempintro

/-- At its barrier wait a device owes the three copies only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_rX]; decide
      · rw [lv_rY]; decide
      · rw [lv_rZ]; decide)

/-! ## The cells' payloads spelt out: the owner's reading, and the payer's (the neighbour of the neighbour resolved) -/

theorem payload_bar0 (c : Dev nD) : (sched (F := F) m ρ).payload (barCell c) 0 0
    = iprop((∃ f, (hxM.view.loc (nbX c : Thread nD τ) ↦[hxM.view.set]{fullShare} f)) ∗ reached ER (dCell rX (nbX c)) 0) := by rw [payload_bar]; rfl
theorem payload_bar1 (c : Dev nD) : (sched (F := F) m ρ).payload (barCell c) 0 1
    = iprop((∃ f, (hyM.view.loc (nbY c : Thread nD τ) ↦[hyM.view.set]{fullShare} f)) ∗ reached ER (dCell rY (nbY c)) 0) := by rw [payload_bar]; rfl
theorem payload_bar2 (c : Dev nD) : (sched (F := F) m ρ).payload (barCell c) 0 2
    = iprop((∃ f, (hzM.view.loc (nbZ c : Thread nD τ) ↦[hzM.view.set]{fullShare} f)) ∗ reached ER (dCell rZ (nbZ c)) 0) := by rw [payload_bar]; rfl

theorem payload_rX' (c : Dev nD) (d : Fin 3) : (sched (F := F) m ρ).payload (dCell rX c) 0 d = (hxM.view.loc (c : Thread nD τ) ↦[hxM.view.set]{fullShare} fvX m ρ (nbX c)) := payload_rX m ρ c d
theorem payload_rY' (c : Dev nD) (d : Fin 3) : (sched (F := F) m ρ).payload (dCell rY c) 0 d = (hyM.view.loc (c : Thread nD τ) ↦[hyM.view.set]{fullShare} fvY m ρ (nbY c)) := payload_rY m ρ c d
theorem payload_rZ' (c : Dev nD) (d : Fin 3) : (sched (F := F) m ρ).payload (dCell rZ c) 0 d = (hzM.view.loc (c : Thread nD τ) ↦[hzM.view.set]{fullShare} fvZ m ρ (nbZ c)) := payload_rZ m ρ c d
theorem payload_sX' (c : Dev nD) (d : Fin 3) : (sched (F := F) m ρ).payload (dCell sX c) 0 d = (fxM.view.loc (c : Thread nD τ) ↦[fxM.view.set]{fullShare} fvX m ρ c) := payload_sX m ρ c d
theorem payload_sY' (c : Dev nD) (d : Fin 3) : (sched (F := F) m ρ).payload (dCell sY c) 0 d = (fyM.view.loc (c : Thread nD τ) ↦[fyM.view.set]{fullShare} fvY m ρ c) := payload_sY m ρ c d
theorem payload_sZ' (c : Dev nD) (d : Fin 3) : (sched (F := F) m ρ).payload (dCell sZ c) 0 d = (fzM.view.loc (c : Thread nD τ) ↦[fzM.view.set]{fullShare} fvZ m ρ c) := payload_sZ m ρ c d

theorem payload_rX_nb (c : Dev nD) (d : Fin 3) :
    (sched (F := F) m ρ).payload (dCell rX (nbX c)) 0 d = (hxM.view.loc (nbX c : Thread nD τ) ↦[hxM.view.set]{fullShare} fvX m ρ c) := by
  rw [payload_rX]; unfold recvPayX; rw [nbX_nbX]
theorem payload_rY_nb (c : Dev nD) (d : Fin 3) :
    (sched (F := F) m ρ).payload (dCell rY (nbY c)) 0 d = (hyM.view.loc (nbY c : Thread nD τ) ↦[hyM.view.set]{fullShare} fvY m ρ c) := by
  rw [payload_rY]; unfold recvPayY; rw [nbY_nbY]
theorem payload_rZ_nb (c : Dev nD) (d : Fin 3) :
    (sched (F := F) m ρ).payload (dCell rZ (nbZ c)) 0 d = (hzM.view.loc (nbZ c : Thread nD τ) ↦[hzM.view.set]{fullShare} fvZ m ρ c) := by
  rw [payload_rZ]; unfold recvPayZ; rw [nbZ_nbZ]

/-- The unit a device pays on a neighbour's barrier cell hands over the device's own landing buffer for that axis and
    its own standing at round 0 of its receive cell. -/
theorem payload_bar_nbX (c : Dev nD) :
    (sched (F := F) m ρ).payload (barCell (nbX c)) 0 0
      = iprop((∃ f, (hxM.view.loc (c : Thread nD τ) ↦[hxM.view.set]{fullShare} f)) ∗ reached ER (dCell rX c) 0) := by
  rw [payload_bar]; unfold barPay; rw [nbX_nbX]
theorem payload_bar_nbY (c : Dev nD) :
    (sched (F := F) m ρ).payload (barCell (nbY c)) 0 1
      = iprop((∃ f, (hyM.view.loc (c : Thread nD τ) ↦[hyM.view.set]{fullShare} f)) ∗ reached ER (dCell rY c) 0) := by
  rw [payload_bar]; unfold barPay; rw [nbY_nbY]
theorem payload_bar_nbZ (c : Dev nD) :
    (sched (F := F) m ρ).payload (barCell (nbZ c)) 0 2
      = iprop((∃ f, (hzM.view.loc (c : Thread nD τ) ↦[hzM.view.set]{fullShare} f)) ∗ reached ER (dCell rZ c) 0) := by
  rw [payload_bar]; unfold barPay; rw [nbZ_nbZ]

end Cert.KernelIdeal.HaloProof

end
-- ==== Proof.BodyData.lean ====
/-
  The proof data of the halo exchange's one pipeline point: what the staging buffers hold after the body, the ghost
  state a device's body starts from and ends in, and the body's pre- and postcondition.
-/
import proofs.«900808_g7700000000000809_dist_halo3d_v7x_xyz2x2x2_s64_f32_1_alg».proof.Proof.Schedule
import proofs.«900808_g7700000000000809_dist_halo3d_v7x_xyz2x2x2_s64_f32_1_alg».proof.Proof.Gen.KernelIdeal.Skeleton

set_option pp.maxSteps 4000
set_option pp.deepTerms false

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- Every device's input block. -/
def X : Dev nD → Cube F := fun c => xstg m ρ c

/-- The six scratch faces, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The cells' invariants device `c`'s body opens, under the names the launch allocated them at: its own seven, its
    three neighbours' barrier cells (its signals), each neighbour's receive cell for the shared axis (its copies). -/
def invs (K : Dev nD × Fin 7 → ℕ) (c : Dev nD) : sProp 𝕄 :=
  iprop(cellInv ER (sched m ρ) (K (c, 0)) (barCell c)
    ∗ cellInv ER (sched m ρ) (K (c, 1)) (dCell sX c) ∗ cellInv ER (sched m ρ) (K (c, 2)) (dCell sY c) ∗ cellInv ER (sched m ρ) (K (c, 3)) (dCell sZ c)
    ∗ cellInv ER (sched m ρ) (K (c, 4)) (dCell rX c) ∗ cellInv ER (sched m ρ) (K (c, 5)) (dCell rY c) ∗ cellInv ER (sched m ρ) (K (c, 6)) (dCell rZ c)
    ∗ cellInv ER (sched m ρ) (K (nbX c, 0)) (barCell (nbX c)) ∗ cellInv ER (sched m ρ) (K (nbY c, 0)) (barCell (nbY c)) ∗ cellInv ER (sched m ρ) (K (nbZ c, 0)) (barCell (nbZ c))
    ∗ cellInv ER (sched m ρ) (K (nbX c, 4)) (dCell rX (nbX c)) ∗ cellInv ER (sched m ρ) (K (nbY c, 5)) (dCell rY (nbY c)) ∗ cellInv ER (sched m ρ) (K (nbZ c, 6)) (dCell rZ (nbZ c)))

instance invs_persistent (K : Dev nD × Fin 7 → ℕ) (c : Dev nD) : BI.Persistent (invs m ρ K c) := by unfold invs; infer_instance

/-- The protocol's ghost state device `c` starts from: the invariants; its positions at round 0 of its seven cells; round
    0 reached on the cells it pays and on its own send and receive cells; the nine duty tokens it pays with. -/
def ghost (K : Dev nD × Fin 7 → ℕ) (c : Dev nD) : sProp 𝕄 :=
  iprop(invs m ρ K c
    ∗ atPos ER (barCell c) 0 ∅ 0
    ∗ atPos ER (dCell sX c) 0 ∅ 0 ∗ atPos ER (dCell sY c) 0 ∅ 0 ∗ atPos ER (dCell sZ c) 0 ∅ 0
    ∗ atPos ER (dCell rX c) 0 ∅ 0 ∗ atPos ER (dCell rY c) 0 ∅ 0 ∗ atPos ER (dCell rZ c) 0 ∅ 0
    ∗ reached ER (barCell (nbX c)) 0 ∗ reached ER (barCell (nbY c)) 0 ∗ reached ER (barCell (nbZ c)) 0
    ∗ reached ER (dCell rX (nbX c)) 0 ∗ reached ER (dCell rY (nbY c)) 0 ∗ reached ER (dCell rZ (nbZ c)) 0
    ∗ reached ER (dCell sX c) 0 ∗ reached ER (dCell sY c) 0 ∗ reached ER (dCell sZ c) 0
    ∗ reached ER (dCell rX c) 0 ∗ reached ER (dCell rY c) 0 ∗ reached ER (dCell rZ c) 0
    ∗ dutyTok ER (barCell (nbX c)) 0 0 ∗ dutyTok ER (barCell (nbY c)) 0 1 ∗ dutyTok ER (barCell (nbZ c)) 0 2
    ∗ dutyTok ER (dCell rX (nbX c)) 0 0 ∗ dutyTok ER (dCell rY (nbY c)) 0 0 ∗ dutyTok ER (dCell rZ (nbZ c)) 0 0
    ∗ dutyTok ER (dCell sX c) 0 0 ∗ dutyTok ER (dCell sY c) 0 0 ∗ dutyTok ER (dCell sZ c) 0 0)

/-- What device `c`'s body starts from: that at some names, its four credit tokens and the level facts. -/
def start (c : Dev nD) : sProp 𝕄 :=
  iprop((∃ K, ghost m ρ K c) ∗ cred (tallyAt (barCell c) () 3)
    ∗ cred (tallyAt (dCell rX c) () N) ∗ cred (tallyAt (dCell rY c) () N) ∗ cred (tallyAt (dCell rZ c) () N) ∗ levAts L lv)

def Φ₀ (c : Dev nD) : sProp 𝕄 := iprop(start m ρ c ∗ scratch c)
/-- After the point: the scratch faces at some contents, the six own cells at zero, closed. -/
def Φ₁ (c : Dev nD) : sProp 𝕄 :=
  iprop(scratch c ∗ semVal (dCell sX c) 0 ∗ semVal (dCell sY c) 0 ∗ semVal (dCell sZ c) 0
    ∗ semVal (dCell rX c) 0 ∗ semVal (dCell rY c) 0 ∗ semVal (dCell rZ c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt c (X m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## The body's pre- and postcondition -/

section Body

variable (K : Dev nD × Fin 7 → ℕ)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m ρ K c ∗ cred (tallyAt (barCell c) () 3)
      ∗ cred (tallyAt (dCell rX c) () N) ∗ cred (tallyAt (dCell rY c) () N) ∗ cred (tallyAt (dCell rZ c) () N) ∗ levAts L lv ∗ scratch c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt c (X m ρ)))

end Body

end Cert.KernelIdeal.HaloProof

end
-- ==== Proof.Sends.lean ====
/-
  The three face copies, each by the rounds discipline's rule for an addressed transfer at this protocol's cells.
-/
import proofs.«900808_g7700000000000809_dist_halo3d_v7x_xyz2x2x2_s64_f32_1_alg».proof.Proof.BodyData

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

/-- A whole face written over whatever the landing buffer held is the face. -/
theorem landedX (fd : (cc0_scratch3 : Ref sig .tc).ty.Contents (Elt F)) (fs : (cc0_scratch0 : Ref sig .tc).ty.Contents (Elt F)) :
    (hxM : Memref sig .tc .vmem S64x64 .f32).view.write (Elt F) fd ((fxM : Memref sig .tc .vmem S64x64 .f32).view.read (Elt F) fs) Finset.univ = fs := by
  show (View.whole cc0_scratch3).write (Elt F) fd ((View.whole cc0_scratch0).read (Elt F) fs) Finset.univ = fs
  rw [View.read_whole]
  exact View.write_whole_univ _ _ _

/-- The copy of the first-axis face into the neighbour's landing buffer: it pays the device's own send duty with the face
    buffer and the neighbour's receive duty with the landing buffer holding the face; the device then owes that
    neighbour's receive cell nothing and holds its send cell's credit. -/
theorem send_X (c n : Dev nD) (hn : n = nbX c)
    {hsc : (hxM : Memref sig (Dev.tc n : Thread nD τ).2.kind .vmem S64x64 .f32).view.ref.isScScratch = false}
    {hsrc : (fxM : Memref sig .tc .vmem S64x64 .f32).view.WordExact} {hdst : (hxM : Memref sig .tc .vmem S64x64 .f32).view.WordExact}
    {hsem : DmaTarget.Typed .vmem (.dma rX) (.remote (Dev.tc n : Thread nD τ) (hxM : Memref sig .tc .vmem S64x64 .f32) (.dma sX) hsc)}
    {α : Type} {Q : α → sProp 𝕄} {k : PUnit → Prog (TpuEff nD τ sig (Elt F) Λ₀ .tc) α}
    (fn : Buf (Elt F) ((hxM : Memref sig .tc .vmem S64x64 .f32).view.loc (nbX c : Thread nD τ))) (O : CellTallies nD τ sig Unit) (W : Waits sig Unit) :
    iprop(cellInv ER (sched m ρ) (K (c, 1)) (dCell sX c) ∗ cellInv ER (sched m ρ) (K (nbX c, 4)) (dCell rX (nbX c))
        ∗ (fxM.view.loc (c : Thread nD τ) ↦[fxM.view.set]{fullShare} fvX m ρ c) ∗ (hxM.view.loc (nbX c : Thread nD τ) ↦[hxM.view.set]{fullShare} fn)
        ∗ owes (c : Thread nD τ) (O + tallyAt (dCell rX (nbX c)) () N) W
        ∗ dutyTok ER (dCell sX c) 0 0 ∗ reached ER (dCell sX c) 0
        ∗ dutyTok ER (dCell rX (nbX c)) 0 0 ∗ reached ER (dCell rX (nbX c)) 0)
      ⊢ iprop(((cred (tallyAt (dCell sX c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fxM (.remote (Dev.tc n : Thread nD τ) hxM (.dma sX) hsc) (.dma rX) hsrc hdst hsem) k) Q) := by
  subst hn
  exact Rounds.wp_send_pointsTo 𝒱₀ ER (sched m ρ) (c : Thread nD τ) none (κ₁ := K (c, 1)) (κ₂ := K (nbX c, 4))
    (r₁ := 0) (r₂ := 0) (d₁ := 0) (d₂ := 0) (fd := fn)
    (by rw [duties_sX]; exact Finset.mem_singleton_self _) (by rw [duties_rX]; exact Finset.mem_singleton_self _)
    () () N rfl (amount_xfer m ρ c sX 0) (amount_xfer m ρ (nbX c) rX 0) O rfl (W := W)
    (Entails.of_eq (payload_sX' m ρ c 0).symm)
    (Entails.of_eq (by rw [payload_rX_nb, landedX]))

/-- A whole face written over whatever the landing buffer held is the face. -/
theorem landedY (fd : (cc0_scratch4 : Ref sig .tc).ty.Contents (Elt F)) (fs : (cc0_scratch1 : Ref sig .tc).ty.Contents (Elt F)) :
    (hyM : Memref sig .tc .vmem S64x64 .f32).view.write (Elt F) fd ((fyM : Memref sig .tc .vmem S64x64 .f32).view.read (Elt F) fs) Finset.univ = fs := by
  show (View.whole cc0_scratch4).write (Elt F) fd ((View.whole cc0_scratch1).read (Elt F) fs) Finset.univ = fs
  rw [View.read_whole]
  exact View.write_whole_univ _ _ _

/-- The copy of the second-axis face into the neighbour's landing buffer: it pays the device's own send duty with the face
    buffer and the neighbour's receive duty with the landing buffer holding the face; the device then owes that
    neighbour's receive cell nothing and holds its send cell's credit. -/
theorem send_Y (c n : Dev nD) (hn : n = nbY c)
    {hsc : (hyM : Memref sig (Dev.tc n : Thread nD τ).2.kind .vmem S64x64 .f32).view.ref.isScScratch = false}
    {hsrc : (fyM : Memref sig .tc .vmem S64x64 .f32).view.WordExact} {hdst : (hyM : Memref sig .tc .vmem S64x64 .f32).view.WordExact}
    {hsem : DmaTarget.Typed .vmem (.dma rY) (.remote (Dev.tc n : Thread nD τ) (hyM : Memref sig .tc .vmem S64x64 .f32) (.dma sY) hsc)}
    {α : Type} {Q : α → sProp 𝕄} {k : PUnit → Prog (TpuEff nD τ sig (Elt F) Λ₀ .tc) α}
    (fn : Buf (Elt F) ((hyM : Memref sig .tc .vmem S64x64 .f32).view.loc (nbY c : Thread nD τ))) (O : CellTallies nD τ sig Unit) (W : Waits sig Unit) :
    iprop(cellInv ER (sched m ρ) (K (c, 2)) (dCell sY c) ∗ cellInv ER (sched m ρ) (K (nbY c, 5)) (dCell rY (nbY c))
        ∗ (fyM.view.loc (c : Thread nD τ) ↦[fyM.view.set]{fullShare} fvY m ρ c) ∗ (hyM.view.loc (nbY c : Thread nD τ) ↦[hyM.view.set]{fullShare} fn)
        ∗ owes (c : Thread nD τ) (O + tallyAt (dCell rY (nbY c)) () N) W
        ∗ dutyTok ER (dCell sY c) 0 0 ∗ reached ER (dCell sY c) 0
        ∗ dutyTok ER (dCell rY (nbY c)) 0 0 ∗ reached ER (dCell rY (nbY c)) 0)
      ⊢ iprop(((cred (tallyAt (dCell sY c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fyM (.remote (Dev.tc n : Thread nD τ) hyM (.dma sY) hsc) (.dma rY) hsrc hdst hsem) k) Q) := by
  subst hn
  exact Rounds.wp_send_pointsTo 𝒱₀ ER (sched m ρ) (c : Thread nD τ) none (κ₁ := K (c, 2)) (κ₂ := K (nbY c, 5))
    (r₁ := 0) (r₂ := 0) (d₁ := 0) (d₂ := 0) (fd := fn)
    (by rw [duties_sY]; exact Finset.mem_singleton_self _) (by rw [duties_rY]; exact Finset.mem_singleton_self _)
    () () N rfl (amount_xfer m ρ c sY 0) (amount_xfer m ρ (nbY c) rY 0) O rfl (W := W)
    (Entails.of_eq (payload_sY' m ρ c 0).symm)
    (Entails.of_eq (by rw [payload_rY_nb, landedY]))

/-- A whole face written over whatever the landing buffer held is the face. -/
theorem landedZ (fd : (cc0_scratch5 : Ref sig .tc).ty.Contents (Elt F)) (fs : (cc0_scratch2 : Ref sig .tc).ty.Contents (Elt F)) :
    (hzM : Memref sig .tc .vmem S64x64 .f32).view.write (Elt F) fd ((fzM : Memref sig .tc .vmem S64x64 .f32).view.read (Elt F) fs) Finset.univ = fs := by
  show (View.whole cc0_scratch5).write (Elt F) fd ((View.whole cc0_scratch2).read (Elt F) fs) Finset.univ = fs
  rw [View.read_whole]
  exact View.write_whole_univ _ _ _

/-- The copy of the third-axis face into the neighbour's landing buffer: it pays the device's own send duty with the face
    buffer and the neighbour's receive duty with the landing buffer holding the face; the device then owes that
    neighbour's receive cell nothing and holds its send cell's credit. -/
theorem send_Z (c n : Dev nD) (hn : n = nbZ c)
    {hsc : (hzM : Memref sig (Dev.tc n : Thread nD τ).2.kind .vmem S64x64 .f32).view.ref.isScScratch = false}
    {hsrc : (fzM : Memref sig .tc .vmem S64x64 .f32).view.WordExact} {hdst : (hzM : Memref sig .tc .vmem S64x64 .f32).view.WordExact}
    {hsem : DmaTarget.Typed .vmem (.dma rZ) (.remote (Dev.tc n : Thread nD τ) (hzM : Memref sig .tc .vmem S64x64 .f32) (.dma sZ) hsc)}
    {α : Type} {Q : α → sProp 𝕄} {k : PUnit → Prog (TpuEff nD τ sig (Elt F) Λ₀ .tc) α}
    (fn : Buf (Elt F) ((hzM : Memref sig .tc .vmem S64x64 .f32).view.loc (nbZ c : Thread nD τ))) (O : CellTallies nD τ sig Unit) (W : Waits sig Unit) :
    iprop(cellInv ER (sched m ρ) (K (c, 3)) (dCell sZ c) ∗ cellInv ER (sched m ρ) (K (nbZ c, 6)) (dCell rZ (nbZ c))
        ∗ (fzM.view.loc (c : Thread nD τ) ↦[fzM.view.set]{fullShare} fvZ m ρ c) ∗ (hzM.view.loc (nbZ c : Thread nD τ) ↦[hzM.view.set]{fullShare} fn)
        ∗ owes (c : Thread nD τ) (O + tallyAt (dCell rZ (nbZ c)) () N) W
        ∗ dutyTok ER (dCell sZ c) 0 0 ∗ reached ER (dCell sZ c) 0
        ∗ dutyTok ER (dCell rZ (nbZ c)) 0 0 ∗ reached ER (dCell rZ (nbZ c)) 0)
      ⊢ iprop(((cred (tallyAt (dCell sZ c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fzM (.remote (Dev.tc n : Thread nD τ) hzM (.dma sZ) hsc) (.dma rZ) hsrc hdst hsem) k) Q) := by
  subst hn
  exact Rounds.wp_send_pointsTo 𝒱₀ ER (sched m ρ) (c : Thread nD τ) none (κ₁ := K (c, 3)) (κ₂ := K (nbZ c, 6))
    (r₁ := 0) (r₂ := 0) (d₁ := 0) (d₂ := 0) (fd := fn)
    (by rw [duties_sZ]; exact Finset.mem_singleton_self _) (by rw [duties_rZ]; exact Finset.mem_singleton_self _)
    () () N rfl (amount_xfer m ρ c sZ 0) (amount_xfer m ρ (nbZ c) rZ 0) O rfl (W := W)
    (Entails.of_eq (payload_sZ' m ρ c 0).symm)
    (Entails.of_eq (by rw [payload_rZ_nb, landedZ]))

end Cert.KernelIdeal.HaloProof

end
-- ==== Proof.Cover.lean ====
/-
  The two slab stores cover the output block: what the buffer held before them does not matter.
-/
import proofs.«900808_g7700000000000809_dist_halo3d_v7x_xyz2x2x2_s64_f32_1_alg».proof.Proof.Values

noncomputable section

namespace Cert.KernelIdeal.Halo

open Cert.KernelIdeal Cert.KernelIdeal.Gen
open Idealize.ShloMosaic

section Abstract
variable {sig : RefSig} {κ : Kind} {sp : Space} {s : Shape} {e : EltTy} {Val : EltTy → Type}

/-- An unmasked write at an element under the view holds the payload, whatever was there. -/
private theorem write_univ_indep_of_emb (v : View sig κ sp s e) (f f' : v.ty.Contents Val) (w : s.Idx → Val e)
    {i : v.ty.Idx} (x : s.Idx) (hx : v.emb x = i) :
    v.write Val f w Finset.univ i = v.write Val f' w Finset.univ i := by
  subst hx
  rw [View.write_emb_of_mem f w (Finset.mem_univ x), View.write_emb_of_mem f' w (Finset.mem_univ x)]

/-- A write leaves an element that is under none of the view's indices as it was. -/
private theorem write_of_forall_ne (v : View sig κ sp s e) (f : v.ty.Contents Val) (w : s.Idx → Val e) (M : Finset s.Idx)
    {i : v.ty.Idx} (h : ∀ x, v.emb x ≠ i) : v.write Val f w M i = f i := by
  unfold View.write
  rw [preimage?_eq_none h]

end Abstract

/-- Every index within a unit-stride rectangle's bounds is under one of the rectangle's own. -/
private theorem unit_emb_surj {s : Shape} (off size : Fin s.rank → Nat) (inb : ∀ a, off a + size a ≤ s.size a) (i : s.Idx)
    (h : ∀ a, off a ≤ (i a).val ∧ (i a).val < off a + size a) : ∃ y, (Rect.unit off size inb).emb y = i :=
  ⟨fun a => ⟨(i a).val - off a, by have := h a; show (i a).val - off a < size a; omega⟩,
    funext fun a => Fin.ext (by
      show off a + 1 * ((i a).val - off a) = (i a).val
      have := h a; omega)⟩

variable {F : FTy → Type} [FloatOps F]

/-- Two unmasked stores, the second's rectangle or else the first's holding every element, leave nothing of the
    buffer's earlier contents. -/
private theorem stO_stO_indep (r₁ r₂ : Rect S64x64x64) (o o' : OC F) (w₁ : r₁.shape.Idx → Elt F .f32) (w₂ : r₂.shape.Idx → Elt F .f32)
    (hcov : ∀ i : S64x64x64.Idx, (∃ y, r₂.emb y = i) ∨ ((∀ y, r₂.emb y ≠ i) ∧ ∃ y, r₁.emb y = i)) :
    stO r₂ (stO r₁ o w₁) w₂ = stO r₂ (stO r₁ o' w₁) w₂ := by
  funext i
  unfold stO
  rcases hcov i with ⟨y, hy⟩ | ⟨hne, y, hy⟩
  · exact write_univ_indep_of_emb (oM.access r₂) _ _ w₂ y hy
  · rw [write_of_forall_ne (oM.access r₂) _ w₂ Finset.univ hne, write_of_forall_ne (oM.access r₂) _ w₂ Finset.univ hne]
    exact write_univ_indep_of_emb (oM.access r₁) _ _ w₁ y hy

/-- Rows 0 … 31 and rows 32 … 63 are the whole block. -/
theorem slabs_indep (c : Dev nD) (o : OC F) (x : Cube F) : slabs c o x = slabs c o00 x := by
  unfold slabs
  refine stO_stO_indep rLo rHi o o00 _ _ fun i => ?_
  have i0 : (i 0).val < 64 := (i 0).isLt
  have i1 : (i 1).val < 64 := (i 1).isLt
  have i2 : (i 2).val < 64 := (i 2).isLt
  by_cases h : (i 0).val < 32
  · refine Or.inr ⟨fun y hy => ?_, ?_⟩
    · have h0 := congrArg (fun j : S64x64x64.Idx => (j 0).val) hy
      have h1 : (rHi.emb y 0).val = 32 + 1 * (y 0).val := rfl
      simp only at h0
      omega
    · refine unit_emb_surj _ _ _ i fun a => ?_
      match a with
      | ⟨0, _⟩ => exact ⟨Nat.zero_le _, by show (i 0).val < 0 + 32; omega⟩
      | ⟨1, _⟩ => exact ⟨Nat.zero_le _, by show (i 1).val < 0 + 64; omega⟩
      | ⟨2, _⟩ => exact ⟨Nat.zero_le _, by show (i 2).val < 0 + 64; omega⟩
  · refine Or.inl (unit_emb_surj _ _ _ i fun a => ?_)
    match a with
    | ⟨0, _⟩ => exact ⟨by show 32 ≤ (i 0).val; omega, by show (i 0).val < 32 + 32; omega⟩
    | ⟨1, _⟩ => exact ⟨Nat.zero_le _, by show (i 1).val < 0 + 64; omega⟩
    | ⟨2, _⟩ => exact ⟨Nat.zero_le _, by show (i 2).val < 0 + 64; omega⟩

end Cert.KernelIdeal.Halo

end
-- ==== Proof.Body.lean ====
/-
  One device's run of the kernel body, from the protocol's ghost state to the output block named as a pure term of
  the eight input blocks.
-/
import proofs.«900808_g7700000000000809_dist_halo3d_v7x_xyz2x2x2_s64_f32_1_alg».proof.Proof.BodyData
import proofs.«900808_g7700000000000809_dist_halo3d_v7x_xyz2x2x2_s64_f32_1_alg».proof.Proof.Sends
import proofs.«900808_g7700000000000809_dist_halo3d_v7x_xyz2x2x2_s64_f32_1_alg».proof.Proof.Cover

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

theorem fetch_0 (t : Fin cfg0.N) : (cfg0.win (0 : Fin 2)).fetch t = true := fetch0_0 t

/-! ## The printed conditions on the mesh coordinates -/

/-- The body's test "the coordinate word is `k`", as printed: compare, widen, compare with zero. -/
abbrev isW (w k : BitVec 32) : BitVec 1 := Scalar.cmpi .ne (Scalar.extui (Scalar.cmpi .eq w k) : BitVec 32) 0#32

/-- A device's first mesh coordinate is 0 or 1, and the two printed tests on it say which. -/
theorem condX (c : Dev nD) :
    (wx c = 0#32 ∧ isW (wx c) 0#32 = 1#1 ∧ ¬ isW (wx c) 1#32 = 1#1) ∨ (wx c = 1#32 ∧ ¬ isW (wx c) 0#32 = 1#1 ∧ isW (wx c) 1#32 = 1#1) := by
  revert c; decide +kernel
theorem condY (c : Dev nD) :
    (wy c = 0#32 ∧ isW (wy c) 0#32 = 1#1 ∧ ¬ isW (wy c) 1#32 = 1#1) ∨ (wy c = 1#32 ∧ ¬ isW (wy c) 0#32 = 1#1 ∧ isW (wy c) 1#32 = 1#1) := by
  revert c; decide +kernel
theorem condZ (c : Dev nD) :
    (wz c = 0#32 ∧ isW (wz c) 0#32 = 1#1 ∧ ¬ isW (wz c) 1#32 = 1#1) ∨ (wz c = 1#32 ∧ ¬ isW (wz c) 0#32 = 1#1 ∧ isW (wz c) 1#32 = 1#1) := by
  revert c; decide +kernel

/-! ## Between the entry and the copies -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What the barrier wait brings back: each neighbour's landing buffer for the shared axis, and its standing. -/
theorem bar_payloads (c : Dev nD) :
    bigSep Finset.univ (fun d : Fin 3 => (sched (F := F) m ρ).payload (barCell c) 0 d)
      = iprop(((∃ f, (hxM.view.loc (nbX c : Thread nD τ) ↦[hxM.view.set]{fullShare} f)) ∗ reached ER (dCell rX (nbX c)) 0)
          ∗ ((∃ f, (hyM.view.loc (nbY c : Thread nD τ) ↦[hyM.view.set]{fullShare} f)) ∗ reached ER (dCell rY (nbY c)) 0)
          ∗ ((∃ f, (hzM.view.loc (nbZ c : Thread nD τ) ↦[hzM.view.set]{fullShare} f)) ∗ reached ER (dCell rZ (nbZ c)) 0)) := by
  rw [bigSep_fin3, payload_bar0, payload_bar1, payload_bar2]

theorem hz2 : (![0, 0] : Fin 2 → Nat) = fun _ => 0 := funext fun a => by fin_cases a <;> rfl
theorem hz3 : (![0, 0, 0] : Fin 3 → Nat) = fun _ => 0 := funext fun a => by fin_cases a <;> rfl

/-- The staged input block read whole is the block. -/
theorem read_x (f : (cc0_stg0_0 : Ref sig .tc).ty.Contents (Elt F)) :
    View.readAt (Elt F) xM.view (Rect.unit (s := S64x64x64) ![0, 0, 0] S64x64x64.size inb_S64x64x64_S64x64x64_0_0_0).toLoadRect f = f :=
  Memref.readAt_unit_zero (Elt F) cc0_stg0_0 hz3 _ f

/-- A face buffer after one whole store holds the stored face. -/
theorem fx_store (f w : (cc0_scratch0 : Ref sig .tc).ty.Contents (Elt F)) :
    fxM.view.writes (Elt F) f [⟨Rect.unit (s := S64x64) ![0, 0] S64x64.size inb_S64x64_S64x64_0_0, w⟩] = w := by
  show ((fxM.access (Rect.unit (s := S64x64) ![0, 0] S64x64.size inb_S64x64_S64x64_0_0) : View sig .tc _ _ _)).write (Elt F) f w Finset.univ = w
  exact Memref.write_access_unit_zero_univ (Elt F) cc0_scratch0 hz2 _ f w
theorem fy_store (f w : (cc0_scratch1 : Ref sig .tc).ty.Contents (Elt F)) :
    fyM.view.writes (Elt F) f [⟨Rect.unit (s := S64x64) ![0, 0] S64x64.size inb_S64x64_S64x64_0_0, w⟩] = w := by
  show ((fyM.access (Rect.unit (s := S64x64) ![0, 0] S64x64.size inb_S64x64_S64x64_0_0) : View sig .tc _ _ _)).write (Elt F) f w Finset.univ = w
  exact Memref.write_access_unit_zero_univ (Elt F) cc0_scratch1 hz2 _ f w
theorem fz_store (f w : (cc0_scratch2 : Ref sig .tc).ty.Contents (Elt F)) :
    fzM.view.writes (Elt F) f [⟨Rect.unit (s := S64x64) ![0, 0] S64x64.size inb_S64x64_S64x64_0_0, w⟩] = w := by
  show ((fzM.access (Rect.unit (s := S64x64) ![0, 0] S64x64.size inb_S64x64_S64x64_0_0) : View sig .tc _ _ _)).write (Elt F) f w Finset.univ = w
  exact Memref.write_access_unit_zero_univ (Elt F) cc0_scratch2 hz2 _ f w

/-- On a device whose first coordinate is 0 the stored first-axis face is the one the schedule names; likewise at 1,
    and along the other two axes. -/
theorem fx_of_0 (c : Dev nD) (hx : wx c = 0#32) (f : (cc0_scratch0 : Ref sig .tc).ty.Contents (Elt F)) :
    fxM.view.writes (Elt F) f [⟨Rect.unit (s := S64x64) ![0, 0] S64x64.size inb_S64x64_S64x64_0_0,
      k0_pay2 (wy c) (wz c) (View.readAt (Elt F) xM.view (Rect.unit (s := S64x64x64) ![0, 0, 0] S64x64x64.size inb_S64x64x64_S64x64x64_0_0_0).toLoadRect (xstg m ρ c))⟩]
      = fvX m ρ c := by
  rw [fx_store, read_x]; unfold fvX faceX; rw [if_pos hx]
theorem fx_of_1 (c : Dev nD) (hx : wx c = 1#32) (f : (cc0_scratch0 : Ref sig .tc).ty.Contents (Elt F)) :
    fxM.view.writes (Elt F) f [⟨Rect.unit (s := S64x64) ![0, 0] S64x64.size inb_S64x64_S64x64_0_0,
      k0_pay3 (wy c) (wz c) (View.readAt (Elt F) xM.view (Rect.unit (s := S64x64x64) ![0, 0, 0] S64x64x64.size inb_S64x64x64_S64x64x64_0_0_0).toLoadRect (xstg m ρ c))⟩]
      = fvX m ρ c := by
  rw [fx_store, read_x]; unfold fvX faceX; rw [if_neg (by rw [hx]; decide)]
theorem fy_of_0 (c : Dev nD) (hy : wy c = 0#32) (f : (cc0_scratch1 : Ref sig .tc).ty.Contents (Elt F)) :
    fyM.view.writes (Elt F) f [⟨Rect.unit (s := S64x64) ![0, 0] S64x64.size inb_S64x64_S64x64_0_0,
      k0_pay4 (wx c) (wz c) (View.readAt (Elt F) xM.view (Rect.unit (s := S64x64x64) ![0, 0, 0] S64x64x64.size inb_S64x64x64_S64x64x64_0_0_0).toLoadRect (xstg m ρ c))⟩]
      = fvY m ρ c := by
  rw [fy_store, read_x]; unfold fvY faceY; rw [if_pos hy]
theorem fy_of_1 (c : Dev nD) (hy : wy c = 1#32) (f : (cc0_scratch1 : Ref sig .tc).ty.Contents (Elt F)) :
    fyM.view.writes (Elt F) f [⟨Rect.unit (s := S64x64) ![0, 0] S64x64.size inb_S64x64_S64x64_0_0,
      k0_pay5 (wx c) (wz c) (View.readAt (Elt F) xM.view (Rect.unit (s := S64x64x64) ![0, 0, 0] S64x64x64.size inb_S64x64x64_S64x64x64_0_0_0).toLoadRect (xstg m ρ c))⟩]
      = fvY m ρ c := by
  rw [fy_store, read_x]; unfold fvY faceY; rw [if_neg (by rw [hy]; decide)]
theorem fz_of_0 (c : Dev nD) (hz : wz c = 0#32) (f : (cc0_scratch2 : Ref sig .tc).ty.Contents (Elt F)) :
    fzM.view.writes (Elt F) f [⟨Rect.unit (s := S64x64) ![0, 0] S64x64.size inb_S64x64_S64x64_0_0,
      k0_pay6 (wx c) (wy c) (View.readAt (Elt F) xM.view (Rect.unit (s := S64x64x64) ![0, 0, 0] S64x64x64.size inb_S64x64x64_S64x64x64_0_0_0).toLoadRect (xstg m ρ c))⟩]
      = fvZ m ρ c := by
  rw [fz_store, read_x]; unfold fvZ faceZ; rw [if_pos hz]
theorem fz_of_1 (c : Dev nD) (hz : wz c = 1#32) (f : (cc0_scratch2 : Ref sig .tc).ty.Contents (Elt F)) :
    fzM.view.writes (Elt F) f [⟨Rect.unit (s := S64x64) ![0, 0] S64x64.size inb_S64x64_S64x64_0_0,
      k0_pay7 (wx c) (wy c) (View.readAt (Elt F) xM.view (Rect.unit (s := S64x64x64) ![0, 0, 0] S64x64x64.size inb_S64x64x64_S64x64x64_0_0_0).toLoadRect (xstg m ρ c))⟩]
      = fvZ m ρ c := by
  rw [fz_store, read_x]; unfold fvZ faceZ; rw [if_neg (by rw [hz]; decide)]

/-- A returned value bound into a continuation is the continuation at it. -/
theorem ret_bind {E : Type → Type} {α β : Type} (a : α) (k : α → Prog E β) : (Prog.ret a).bind k = k a := rfl

/-- What a device owes restated at an equal tally. -/
theorem owes_congr (t : Thread nD τ) {O O' : CellTallies nD τ sig Unit} (W : Waits sig Unit) (h : O = O') :
    (owes t O W : sProp 𝕄) ⊢ owes t O' W := by subst h; exact BI.Entails.refl _

/-! ## The output buffer as a list of writes -/

/-- A store through `r` of a value computed from the load through `r`, over a buffer that is itself a list of writes
    covering `r`: one more write on the list, its value computed from what the list's writes put there. -/
theorem add_cov (r : Rect S64x64x64) (pay : (r.toLoadRect.shape.Idx → Elt F .f32) → Face F → (r.shape.Idx → Elt F .f32))
    (g : OC F) (L : List (View.Piece (Elt F) S64x64x64 .f32)) (t : LoadRect.Cov)
    (hc : LoadRect.covChk (L.map Sigma.fst) r.toLoadRect t = true) (h : Face F) :
    stO r (oM.view.writes (Elt F) g L) (pay (ldO r (oM.view.writes (Elt F) g L)) h)
      = oM.view.writes (Elt F) g (⟨r, pay (oM.view.readCov L r.toLoadRect) h⟩ :: L) := by
  unfold stO ldO
  rw [readAt_writes_eq_readCov (c := ((0 : Dev nD) : Thread nD τ)) (m := oM) g L r.toLoadRect t hc]
  rfl

/-- The rows a face update reads lie inside the earlier stores: a first-axis face row inside one half-slab, a second- or
    third-axis face split at row 32 between the two half-slabs. -/
theorem covX63 : LoadRect.covChk [rHi, rLo] rX63.toLoadRect (.leaf 0) = true := by decide
theorem covX0 : LoadRect.covChk [rHi, rLo] rX0.toLoadRect (.leaf 1) = true := by decide
theorem covY63 (rx : Rect S64x64x64) : LoadRect.covChk [rx, rHi, rLo] rY63.toLoadRect (.split 0 32 (.leaf 2) (.leaf 1)) = true := by rfl
theorem covY0 (rx : Rect S64x64x64) : LoadRect.covChk [rx, rHi, rLo] rY0.toLoadRect (.split 0 32 (.leaf 2) (.leaf 1)) = true := by rfl
theorem covZ63 (ry rx : Rect S64x64x64) : LoadRect.covChk [ry, rx, rHi, rLo] rZ63.toLoadRect (.split 0 32 (.leaf 3) (.leaf 2)) = true := by rfl
theorem covZ0 (ry rx : Rect S64x64x64) : LoadRect.covChk [ry, rx, rHi, rLo] rZ0.toLoadRect (.split 0 32 (.leaf 3) (.leaf 2)) = true := by rfl

/-- The two slab stores, as a list of writes. -/
theorem slabs_writes (c : Dev nD) (g : OC F) (x : Cube F) :
    slabs c g x = oM.view.writes (Elt F) g [⟨rHi, slabHi c x⟩, ⟨rLo, slabLo c x⟩] := rfl

/-- A landing buffer read whole is what it holds. -/
theorem read_hx (f : (cc0_scratch3 : Ref sig .tc).ty.Contents (Elt F)) :
    View.readAt (Elt F) (Memref.whole cc0_scratch3 : Memref sig .tc .vmem S64x64 .f32).view (Rect.unit (s := S64x64) ![0, 0] S64x64.size inb_S64x64_S64x64_0_0).toLoadRect f = f :=
  Memref.readAt_unit_zero (Elt F) cc0_scratch3 hz2 _ f
theorem read_hy (f : (cc0_scratch4 : Ref sig .tc).ty.Contents (Elt F)) :
    View.readAt (Elt F) (Memref.whole cc0_scratch4 : Memref sig .tc .vmem S64x64 .f32).view (Rect.unit (s := S64x64) ![0, 0] S64x64.size inb_S64x64_S64x64_0_0).toLoadRect f = f :=
  Memref.readAt_unit_zero (Elt F) cc0_scratch4 hz2 _ f
theorem read_hz (f : (cc0_scratch5 : Ref sig .tc).ty.Contents (Elt F)) :
    View.readAt (Elt F) (Memref.whole cc0_scratch5 : Memref sig .tc .vmem S64x64 .f32).view (Rect.unit (s := S64x64) ![0, 0] S64x64.size inb_S64x64_S64x64_0_0).toLoadRect f = f :=
  Memref.readAt_unit_zero (Elt F) cc0_scratch5 hz2 _ f

/-- A buffer's points-to restated at equal contents. -/
theorem held_congr {s : Shape} {e : EltTy} (M : Memref sig .tc .vmem s e) (c : Dev nD) {f g : Buf (Elt F) (M.view.loc (c : Thread nD τ))} (h : f = g) :
    (M.view.loc (c : Thread nD τ) ↦[M.view.set]{fullShare} f : sProp 𝕄) ⊢ (M.view.loc (c : Thread nD τ) ↦[M.view.set]{fullShare} g) := by
  subst h; exact BI.Entails.refl _

/-- A whole buffer held through its memref's view is the buffer held. -/
theorem held_fx (c : Dev nD) (f : Buf (Elt F) ((c : Thread nD τ).loc cc0_scratch0)) :
    (fxM.view.loc (c : Thread nD τ) ↦[fxM.view.set]{fullShare} f : sProp 𝕄) = (((c : Thread nD τ).loc cc0_scratch0) ↦{fullShare} f) := by rw [View.set_whole]
theorem held_fy (c : Dev nD) (f : Buf (Elt F) ((c : Thread nD τ).loc cc0_scratch1)) :
    (fyM.view.loc (c : Thread nD τ) ↦[fyM.view.set]{fullShare} f : sProp 𝕄) = (((c : Thread nD τ).loc cc0_scratch1) ↦{fullShare} f) := by rw [View.set_whole]
theorem held_fz (c : Dev nD) (f : Buf (Elt F) ((c : Thread nD τ).loc cc0_scratch2)) :
    (fzM.view.loc (c : Thread nD τ) ↦[fzM.view.set]{fullShare} f : sProp 𝕄) = (((c : Thread nD τ).loc cc0_scratch2) ↦{fullShare} f) := by rw [View.set_whole]
theorem held_hx (c : Dev nD) (f : Buf (Elt F) ((c : Thread nD τ).loc cc0_scratch3)) :
    (hxM.view.loc (c : Thread nD τ) ↦[hxM.view.set]{fullShare} f : sProp 𝕄) = (((c : Thread nD τ).loc cc0_scratch3) ↦{fullShare} f) := by rw [View.set_whole]
theorem held_hy (c : Dev nD) (f : Buf (Elt F) ((c : Thread nD τ).loc cc0_scratch4)) :
    (hyM.view.loc (c : Thread nD τ) ↦[hyM.view.set]{fullShare} f : sProp 𝕄) = (((c : Thread nD τ).loc cc0_scratch4) ↦{fullShare} f) := by rw [View.set_whole]
theorem held_hz (c : Dev nD) (f : Buf (Elt F) ((c : Thread nD τ).loc cc0_scratch5)) :
    (hzM.view.loc (c : Thread nD τ) ↦[hzM.view.set]{fullShare} f : sProp 𝕄) = (((c : Thread nD τ).loc cc0_scratch5) ↦{fullShare} f) := by rw [View.set_whole]
theorem held_x (c : Dev nD) (f : Buf (Elt F) ((c : Thread nD τ).loc cc0_stg0_0)) :
    (xM.view.loc (c : Thread nD τ) ↦[xM.view.set]{fullShare} f : sProp 𝕄) = (((c : Thread nD τ).loc cc0_stg0_0) ↦{fullShare} f) := by rw [View.set_whole]
theorem held_o (c : Dev nD) (f : Buf (Elt F) ((c : Thread nD τ).loc cc0_stg1_0)) :
    (oM.view.loc (c : Thread nD τ) ↦[oM.view.set]{fullShare} f : sProp 𝕄) = (((c : Thread nD τ).loc cc0_stg1_0) ↦{fullShare} f) := by rw [View.set_whole]

/-! ## The transfers' payloads in the spelling a whole-buffer copy leaves them in -/

theorem pay_rX_nb (c : Dev nD) (d : Fin 3) : (sched (F := F) m ρ).payload (dCell rX (nbX c)) 0 d = (View.loc ((nbX c : Dev nD) : Thread nD τ) (Memref.whole cc0_scratch3 : Memref sig .tc .vmem S64x64 .f32).view ↦{fullShare} fvX m ρ c : sProp 𝕄) := by
  rw [payload_rX_nb, View.set_whole]
theorem pay_rY_nb (c : Dev nD) (d : Fin 3) : (sched (F := F) m ρ).payload (dCell rY (nbY c)) 0 d = (View.loc ((nbY c : Dev nD) : Thread nD τ) (Memref.whole cc0_scratch4 : Memref sig .tc .vmem S64x64 .f32).view ↦{fullShare} fvY m ρ c : sProp 𝕄) := by
  rw [payload_rY_nb, View.set_whole]
theorem pay_rZ_nb (c : Dev nD) (d : Fin 3) : (sched (F := F) m ρ).payload (dCell rZ (nbZ c)) 0 d = (View.loc ((nbZ c : Dev nD) : Thread nD τ) (Memref.whole cc0_scratch5 : Memref sig .tc .vmem S64x64 .f32).view ↦{fullShare} fvZ m ρ c : sProp 𝕄) := by
  rw [payload_rZ_nb, View.set_whole]
theorem pay_rX (c : Dev nD) (d : Fin 3) : (sched (F := F) m ρ).payload (dCell rX c) 0 d = (View.loc ((c : Dev nD) : Thread nD τ) (Memref.whole cc0_scratch3 : Memref sig .tc .vmem S64x64 .f32).view ↦{fullShare} fvX m ρ (nbX c) : sProp 𝕄) := by
  rw [payload_rX', View.set_whole]
theorem pay_rY (c : Dev nD) (d : Fin 3) : (sched (F := F) m ρ).payload (dCell rY c) 0 d = (View.loc ((c : Dev nD) : Thread nD τ) (Memref.whole cc0_scratch4 : Memref sig .tc .vmem S64x64 .f32).view ↦{fullShare} fvY m ρ (nbY c) : sProp 𝕄) := by
  rw [payload_rY', View.set_whole]
theorem pay_rZ (c : Dev nD) (d : Fin 3) : (sched (F := F) m ρ).payload (dCell rZ c) 0 d = (View.loc ((c : Dev nD) : Thread nD τ) (Memref.whole cc0_scratch5 : Memref sig .tc .vmem S64x64 .f32).view ↦{fullShare} fvZ m ρ (nbZ c) : sProp 𝕄) := by
  rw [payload_rZ', View.set_whole]
theorem pay_sX (c : Dev nD) (d : Fin 3) : (sched (F := F) m ρ).payload (dCell sX c) 0 d = (View.loc ((c : Dev nD) : Thread nD τ) (Memref.whole cc0_scratch0 : Memref sig .tc .vmem S64x64 .f32).view ↦{fullShare} fvX m ρ c : sProp 𝕄) := by
  rw [payload_sX', View.set_whole]
theorem pay_sY (c : Dev nD) (d : Fin 3) : (sched (F := F) m ρ).payload (dCell sY c) 0 d = (View.loc ((c : Dev nD) : Thread nD τ) (Memref.whole cc0_scratch1 : Memref sig .tc .vmem S64x64 .f32).view ↦{fullShare} fvY m ρ c : sProp 𝕄) := by
  rw [payload_sY', View.set_whole]
theorem pay_sZ (c : Dev nD) (d : Fin 3) : (sched (F := F) m ρ).payload (dCell sZ c) 0 d = (View.loc ((c : Dev nD) : Thread nD τ) (Memref.whole cc0_scratch2 : Memref sig .tc .vmem S64x64 .f32).view ↦{fullShare} fvZ m ρ c : sProp 𝕄) := by
  rw [payload_sZ', View.set_whole]

attribute [local sl_rounds] duties_bar duties_sX duties_sY duties_sZ duties_rX duties_rY duties_rZ amount_bar amount_xfer
  expect_bar expect_sX expect_sY expect_sZ expect_rX expect_rY expect_rZ
  payload_bar0 payload_bar1 payload_bar2 pay_rX pay_rY pay_rZ pay_sX pay_sY pay_sZ
attribute [local sl_rounds 1100] payload_bar_nbX payload_bar_nbY payload_bar_nbZ pay_rX_nb pay_rY_nb pay_rZ_nb

attribute [local sl_canon] dev1_eq dev2_eq dev3_eq dev4_eq dev5_eq dev6_eq

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7) Kt := by
  unfold bodyPre ghost invs scratch
  iintro ⟨⟨⟨⟨⟨#I0, #I1, #I2, #I3, #I4, #I5, #I6, #IbX, #IbY, #IbZ, #IrX, #IrY, #IrZ⟩,
      Hat0, HatsX, HatsY, HatsZ, HatrX, HatrY, HatrZ,
      #RbX, #RbY, #RbZ, #RrXn, #RrYn, #RrZn, #RsX, #RsY, #RsZ, #RrX, #RrY, #RrZ,
      TbX, TbY, TbZ, TrX, TrY, TrZ, TsX, TsY, TsZ⟩,
      Hc0, HcX, HcY, HcZ, #Hlev, ⟨%f0, Hfx⟩, ⟨%f1, Hfy⟩, ⟨%f2, Hfz⟩, ⟨%f3, Hhx⟩, ⟨%f4, Hhy⟩, ⟨%f5, Hhz⟩⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  unfold O₀ O₃
  have hmwb := mayWait_bar (F := F) c
  ihave Hfx := (Entails.of_eq (held_fx c f0).symm) $$ Hfx
  ihave Hfy := (Entails.of_eq (held_fy c f1).symm) $$ Hfy
  ihave Hfz := (Entails.of_eq (held_fz c f2).symm) $$ Hfz
  ihave Hhx := (Entails.of_eq (held_hx c f3).symm) $$ Hhx
  ihave Hhy := (Entails.of_eq (held_hy c f4).symm) $$ Hhy
  ihave Hhz := (Entails.of_eq (held_hz c f5).symm) $$ Hhz
  ihave Hx := (Entails.of_eq (held_x c (xstg m ρ c)).symm) $$ Hx
  ihave Hout := (Entails.of_eq (held_o c g1).symm) $$ Hout
  sl_unfold [cc0_body]
  rcases condX c with ⟨hx, hx0, hx1⟩ | ⟨hx, hx0, hx1⟩ <;> rcases condY c with ⟨hy, hy0, hy1⟩ | ⟨hy, hy0, hy1⟩ <;>
    rcases condZ c with ⟨hz, hz0, hz1⟩ | ⟨hz, hz0, hz1⟩
  all_goals
    sl_exec (disch := (first | exact dev4_eq c | exact dev5_eq c | exact dev6_eq c | (sl_unfold_words; first | exact hx0 | exact hx1 | exact hy0 | exact hy1 | exact hz0 | exact hz1)))
    -- the three neighbours' landing buffers, handed over with their units on the barrier cell
    ihave Hp := (Entails.of_eq (bar_payloads m ρ c)) $$ Hat0_pay1
    icases Hp with ⟨⟨⟨%fnx, HhxN⟩, -⟩, ⟨⟨%fny, HhyN⟩, -⟩, ⟨%fnz, HhzN⟩, -⟩
    -- the three face buffers hold the faces the schedule names
    ihave Hfx := (held_congr fxM c (g := fvX m ρ c) (by first | exact fx_of_0 m ρ c hx f0 | exact fx_of_1 m ρ c hx f0)) $$ Hfx
    ihave Hfy := (held_congr fyM c (g := fvY m ρ c) (by first | exact fy_of_0 m ρ c hy f1 | exact fy_of_1 m ρ c hy f1)) $$ Hfy
    ihave Hfz := (held_congr fzM c (g := fvZ m ρ c) (by first | exact fz_of_0 m ρ c hz f2 | exact fz_of_1 m ρ c hz f2)) $$ Hfz
    -- the first-axis copy, its tally put last among what the device owes
    ihave HO := (owes_congr (c : Thread nD τ) _ (add_rotate _ _ _)) $$ HO
    iapply (send_X m ρ K c _ (dev4_eq c) fnx (tallyAt (dCell rY (nbY c)) () N + tallyAt (dCell rZ (nbZ c)) () N) _) $$ [Hfx HhxN HO TsX TrX]
    · isplitr; · iexact I1
      isplitr; · iexact IrX
      isplitl [Hfx]; · iexact Hfx
      isplitl [HhxN]; · iexact HhxN
      isplitl [HO]; · iexact HO
      isplitl [TsX]; · iexact TsX
      isplitr; · iexact RsX
      isplitl [TrX]; · iexact TrX
      iexact RrXn
    iintro ⟨HcsX, HO⟩
    -- the second-axis copy
    ihave HO := (owes_congr (c : Thread nD τ) _ (add_comm _ _)) $$ HO
    iapply (send_Y m ρ K c _ (dev5_eq c) fny (tallyAt (dCell rZ (nbZ c)) () N) _) $$ [Hfy HhyN HO TsY TrY]
    · isplitr; · iexact I2
      isplitr; · iexact IrY
      isplitl [Hfy]; · iexact Hfy
      isplitl [HhyN]; · iexact HhyN
      isplitl [HO]; · iexact HO
      isplitl [TsY]; · iexact TsY
      isplitr; · iexact RsY
      isplitl [TrY]; · iexact TrY
      iexact RrYn
    iintro ⟨HcsY, HO⟩
    -- the third-axis copy: after it the device owes nothing
    ihave HO := (owes_congr (c : Thread nD τ) _ (zero_add _).symm) $$ HO
    iapply (send_Z m ρ K c _ (dev6_eq c) fnz 0 _) $$ [Hfz HhzN HO TsZ TrZ]
    · isplitr; · iexact I3
      isplitr; · iexact IrZ
      isplitl [Hfz]; · iexact Hfz
      isplitl [HhzN]; · iexact HhzN
      isplitl [HO]; · iexact HO
      isplitl [TsZ]; · iexact TsZ
      isplitr; · iexact RsZ
      isplitl [TrZ]; · iexact TrZ
      iexact RrZn
    iintro ⟨HcsZ, HO⟩
    rw [ret_bind]
    sl_exec (disch := (first | exact dev4_eq c | exact dev5_eq c | exact dev6_eq c | (sl_unfold_words; first | exact hx0 | exact hx1 | exact hy0 | exact hy1 | exact hz0 | exact hz1)))
    -- the six own cells close: their counters at zero are the core's again
    imod (Rounds.cell_close ER (sched m ρ) (Set.mem_univ (K (c, 1))) (fun h => h) (R := 0 + 1) (duties_later m ρ (dCell sX c))) $$ [HatsX] with HzsX
    · isplitr; · iexact I1
      iexact HatsX
    imod (Rounds.cell_close ER (sched m ρ) (Set.mem_univ (K (c, 2))) (fun h => h) (R := 0 + 1) (duties_later m ρ (dCell sY c))) $$ [HatsY] with HzsY
    · isplitr; · iexact I2
      iexact HatsY
    imod (Rounds.cell_close ER (sched m ρ) (Set.mem_univ (K (c, 3))) (fun h => h) (R := 0 + 1) (duties_later m ρ (dCell sZ c))) $$ [HatsZ] with HzsZ
    · isplitr; · iexact I3
      iexact HatsZ
    imod (Rounds.cell_close ER (sched m ρ) (Set.mem_univ (K (c, 4))) (fun h => h) (R := 0 + 1) (duties_later m ρ (dCell rX c))) $$ [HatrX] with HzrX
    · isplitr; · iexact I4
      iexact HatrX
    imod (Rounds.cell_close ER (sched m ρ) (Set.mem_univ (K (c, 5))) (fun h => h) (R := 0 + 1) (duties_later m ρ (dCell rY c))) $$ [HatrY] with HzrY
    · isplitr; · iexact I5
      iexact HatrY
    imod (Rounds.cell_close ER (sched m ρ) (Set.mem_univ (K (c, 6))) (fun h => h) (R := 0 + 1) (duties_later m ρ (dCell rZ c))) $$ [HatrZ] with HzrZ
    · isplitr; · iexact I6
      iexact HatrZ
    rw [wp_ret]; imodintro
    iapply Hk
    unfold bodyPost Φ₁ scratch Dat.owesAt Pipeline.owesWithin
    rw [show (dats m ρ 0 c).owed t0_0.succ = 0 from rfl]
    ihave Hx := (Entails.of_eq (held_x c _)) $$ Hx
    ihave Hout := (Entails.of_eq (held_o c _)) $$ Hout
    isplitl [HatsX_pay1 HatsY_pay1 HatsZ_pay1 HatrX_pay1 HatrY_pay1 HatrZ_pay1 HzsX HzsY HzsZ HzrX HzrY HzrZ]
    · isplitl [HatsX_pay1 HatsY_pay1 HatsZ_pay1 HatrX_pay1 HatrY_pay1 HatrZ_pay1]
      · isplitl [HatsX_pay1]; · iexists _; iexact HatsX_pay1
        isplitl [HatsY_pay1]; · iexists _; iexact HatsY_pay1
        isplitl [HatsZ_pay1]; · iexists _; iexact HatsZ_pay1
        isplitl [HatrX_pay1]; · iexists _; iexact HatrX_pay1
        isplitl [HatrY_pay1]; · iexists _; iexact HatrY_pay1
        iexists _; iexact HatrZ_pay1
      isplitl [HzsX]; · iexact HzsX
      isplitl [HzsY]; · iexact HzsY
      isplitl [HzsZ]; · iexact HzsZ
      isplitl [HzrX]; · iexact HzrX
      isplitl [HzrY]; · iexact HzrY
      iexact HzrZ
    isplitl [HO]
    · iexists _
      isplitr
      rotate_left
      · iexact HO
      · ipureintro; exact fun _ _ => Or.inl trivial
    isplitl [Hx]
    · iexists _; isplitr; · (ipureintro; rfl)
      iexact Hx
    iexists _; isplitr
    rotate_left
    · iexact Hout
    · ipureintro
      sl_unfold_run_names
      unfold outAt
      rw [← slabs_indep c g1 (X m ρ c), slabs_writes]
      unfold addX
      first
        | rw [if_pos hx, add_cov rX63 k0_pay17 g1 _ (.leaf 0) (by exact covX63)]
        | rw [if_neg (by rw [hx]; decide), add_cov rX0 k0_pay18 g1 _ (.leaf 1) (by exact covX0)]
      unfold addY
      first
        | rw [if_pos hy, add_cov rY63 k0_pay19 g1 _ (.split 0 32 (.leaf 2) (.leaf 1)) (by exact covY63 _)]
        | rw [if_neg (by rw [hy]; decide), add_cov rY0 k0_pay20 g1 _ (.split 0 32 (.leaf 2) (.leaf 1)) (by exact covY0 _)]
      unfold addZ
      first
        | rw [if_pos hz, add_cov rZ63 k0_pay21 g1 _ (.split 0 32 (.leaf 3) (.leaf 2)) (by exact covZ63 _ _)]
        | rw [if_neg (by rw [hz]; decide), add_cov rZ0 k0_pay22 g1 _ (.split 0 32 (.leaf 3) (.leaf 2)) (by exact covZ0 _ _)]
      rw [read_x, read_hx, read_hy, read_hz]
      simp only [slabHi, slabLo, X, fvX, fvY, fvZ, wx, wy, wz]
      try rfl

/-! ## The body obligation -/

set_option maxRecDepth 4000 in
/-- The obligation's precondition at the one point, named. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

set_option maxRecDepth 4000 in
/-- The pipeline library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H0, H1, H2, H3, H4⟩
      isplitl [H0]; · iexact H0
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.KernelIdeal.HaloProof

end
-- ==== Proof.Alloc.lean ====
/-
  The protocol's ghost state as the launch deals it: the cells and duty tokens minted for every device, a device's
  semaphores at zero turned into its cells' invariants, and one device's starting ghost state assembled from the
  invariants and marks of all devices and the tokens of the duties it pays.
-/
import proofs.«900808_g7700000000000809_dist_halo3d_v7x_xyz2x2x2_s64_f32_1_alg».proof.Proof.BodyData

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def haloCells : Finset (GSem nD τ sig) := Finset.univ.map ⟨kcell, kcell_injective⟩

/-- A device's own cells' duty tokens as minted: its barrier's three, and one for each send and receive cell. -/
abbrev tokSem : Fin 9 → SemLoc sig × Fin 3 := fun
  | 0 => (.reg barS, 0) | 1 => (.reg barS, 1) | 2 => (.reg barS, 2)
  | 3 => (.dma sX, 0) | 4 => (.dma sY, 0) | 5 => (.dma sZ, 0)
  | 6 => (.dma rX, 0) | 7 => (.dma rY, 0) | 8 => (.dma rZ, 0)
theorem tokSem_injective : Function.Injective tokSem := by decide
abbrev tokOf (cj : Dev nD × Fin 9) : GSem nD τ sig × ℕ × Fin 3 := (((cj.1 : Thread nD τ), (tokSem cj.2).1), 0, (tokSem cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective h2]
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (dCell sX c) 0 0 ∗ dutyTok ER (dCell sY c) 0 0 ∗ dutyTok ER (dCell sZ c) 0 0
    ∗ dutyTok ER (dCell rX c) 0 0 ∗ dutyTok ER (dCell rY c) 0 0 ∗ dutyTok ER (dCell rZ c) 0 0)

/-- What the launch element deals device `c`. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (dCell sX c) 0 ∗ semVal (dCell sY c) 0 ∗ semVal (dCell sZ c) 0 ∗ semVal (dCell rX c) 0 ∗ semVal (dCell rY c) 0 ∗ semVal (dCell rZ c) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (nbX c)) 0 0 ∗ dutyTok ER (barCell (nbY c)) 0 1 ∗ dutyTok ER (barCell (nbZ c)) 0 2
    ∗ dutyTok ER (dCell rX (nbX c)) 0 0 ∗ dutyTok ER (dCell rY (nbY c)) 0 0 ∗ dutyTok ER (dCell rZ (nbZ c)) 0 0
    ∗ dutyTok ER (dCell sX c) 0 0 ∗ dutyTok ER (dCell sY c) 0 0 ∗ dutyTok ER (dCell sZ c) 0 0)
def linear (c : Dev nD) : sProp 𝕄 :=
  iprop((atPos ER (barCell c) 0 ∅ 0 ∗ atPos ER (dCell sX c) 0 ∅ 0 ∗ atPos ER (dCell sY c) 0 ∅ 0 ∗ atPos ER (dCell sZ c) 0 ∅ 0
      ∗ atPos ER (dCell rX c) 0 ∅ 0 ∗ atPos ER (dCell rY c) 0 ∅ 0 ∗ atPos ER (dCell rZ c) 0 ∅ 0) ∗ payToks c)

theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, T1, T2, T3, T4, T5, T6, T7, T8, T9⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nbX c, 0)); iexact HI
    isplitr; · iapply (inv_at m ρ K (nbY c, 0)); iexact HI
    isplitr; · iapply (inv_at m ρ K (nbZ c, 0)); iexact HI
    isplitr; · iapply (inv_at m ρ K (nbX c, 4)); iexact HI
    isplitr; · iapply (inv_at m ρ K (nbY c, 5)); iexact HI
    iapply (inv_at m ρ K (nbZ c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (nbX c, 0)); iexact HR
  isplitr; · iapply (reached_at (F := F) (nbY c, 0)); iexact HR
  isplitr; · iapply (reached_at (F := F) (nbZ c, 0)); iexact HR
  isplitr; · iapply (reached_at (F := F) (nbX c, 4)); iexact HR
  isplitr; · iapply (reached_at (F := F) (nbY c, 5)); iexact HR
  isplitr; · iapply (reached_at (F := F) (nbZ c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  iexact T9

end Cert.KernelIdeal.HaloProof

end
-- ==== Proof.Glob.lean ====
/-
  The global allocation step: every device's own and barrier semaphores at zero, with the ghost state the launch
  dealt, become every device's starting ghost state — the cells' invariants under names chosen once for all devices,
  and each duty token handed to the device that pays the duty (a barrier duty's token to the neighbour across its axis,
  a receive duty's token likewise, a send duty's token to the device itself).
-/
import proofs.«900808_g7700000000000809_dist_halo3d_v7x_xyz2x2x2_s64_f32_1_alg».proof.Proof.Alloc

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens dealt across the mesh: a barrier cell's token for axis `d` goes to the neighbour across `d`, a receive
    cell's token likewise; the send cells' tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv flipX (fun c : Dev nD => (dutyTok ER (barCell c) 0 0 : sProp 𝕄)),
    bigSep_univ_equiv flipY (fun c : Dev nD => (dutyTok ER (barCell c) 0 1 : sProp 𝕄)),
    bigSep_univ_equiv flipZ (fun c : Dev nD => (dutyTok ER (barCell c) 0 2 : sProp 𝕄)),
    bigSep_univ_equiv flipX (fun c : Dev nD => (dutyTok ER (dCell rX c) 0 0 : sProp 𝕄)),
    bigSep_univ_equiv flipY (fun c : Dev nD => (dutyTok ER (dCell rY c) 0 0 : sProp 𝕄)),
    bigSep_univ_equiv flipZ (fun c : Dev nD => (dutyTok ER (dCell rZ c) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

/-- A persistent assertion beside a family turns the family, summand by summand, into what it yields with each. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  exact ((bigSep_mono fun c _ => core_alloc m ρ c).trans (bigSep_fupd _ _)).trans (BI.fupd_mono (regroup m ρ))

end Cert.KernelIdeal.HaloProof

end
-- ==== Proof.Credit.lean ====
/-
  The credit the protocol's cells are launched with: summed over the eight devices, what they owe a device's barrier
  cell is three units (one from each neighbour), and what they owe each of its receive cells is one face's credit
  (from the neighbour across that axis).
-/
import proofs.«900808_g7700000000000809_dist_halo3d_v7x_xyz2x2x2_s64_f32_1_alg».proof.Proof.Schedule

noncomputable section

namespace Cert.KernelIdeal.HaloProof

open Cert.KernelIdeal Cert.KernelIdeal.Gen Cert.KernelIdeal.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells of one kind are equal when their devices are; a neighbour map is its own inverse -/

private theorem bar_eq_iff {a b : Dev nD} : Iff (barCell a = barCell b) (a = b) :=
  ⟨fun h => Fin.ext (congrArg (fun g : GSem nD τ sig => g.1.1.val) h), fun h => h ▸ rfl⟩
private theorem d_eq_iff (q : DmaSem sig) {a b : Dev nD} : Iff (dCell q a = dCell q b) (a = b) :=
  ⟨fun h => Fin.ext (congrArg (fun g : GSem nD τ sig => g.1.1.val) h), fun h => h ▸ rfl⟩

/-- A tally on the barrier cell of `d`'s neighbour, read at `c`'s barrier cell: `k` when `d` is `c`'s neighbour. -/
private theorem tally_bar (nb : Dev nD → Dev nD) (hnb : ∀ a, nb (nb a) = a) (d c : Dev nD) (k : ℕ) :
    (tallyAt (barCell (nb d)) () k : CellTallies nD τ sig Unit) (barCell c) () = if d = nb c then k else 0 := by
  rw [tallyAt_apply]
  by_cases h : d = nb c
  · subst h; rw [hnb, if_pos ⟨rfl, rfl⟩, if_pos rfl]
  · rw [if_neg (fun ⟨h1, _⟩ => h (by rw [← hnb d]; exact congrArg nb (bar_eq_iff.mp h1).symm)), if_neg h]
/-- The same on a DMA semaphore's cell. -/
private theorem tally_d (q : DmaSem sig) (nb : Dev nD → Dev nD) (hnb : ∀ a, nb (nb a) = a) (d c : Dev nD) (k : ℕ) :
    (tallyAt (dCell q (nb d)) () k : CellTallies nD τ sig Unit) (dCell q c) () = if d = nb c then k else 0 := by
  rw [tallyAt_apply]
  by_cases h : d = nb c
  · subst h; rw [hnb, if_pos ⟨rfl, rfl⟩, if_pos rfl]
  · rw [if_neg (fun ⟨h1, _⟩ => h (by rw [← hnb d]; exact congrArg nb ((d_eq_iff q).mp h1).symm)), if_neg h]
/-- A tally on one cell reads zero at a cell of another semaphore. -/
private theorem tally_other {g g' : GSem nD τ sig} (h : g'.2 ≠ g.2) (k : ℕ) :
    (tallyAt g () k : CellTallies nD τ sig Unit) g' () = 0 := by
  rw [tallyAt_ne_cell (fun e => h (congrArg Prod.snd e)), Finsupp.zero_apply]

/-- What device `d` owes device `c`'s barrier cell: a unit for each axis along which `d` is `c`'s neighbour. -/
theorem owed_bar (d c : Dev nD) :
    O₀ d (barCell c) () = (if d = nbX c then 1 else 0) + (if d = nbY c then 1 else 0) + (if d = nbZ c then 1 else 0) := by
  unfold O₀ O₃
  simp only [Pi.add_apply, Finsupp.add_apply]
  rw [tally_other (g := dCell rX (nbX d)) (g' := barCell c) (fun h => ne_bar rX h.symm),
    tally_other (g := dCell rY (nbY d)) (g' := barCell c) (fun h => ne_bar rY h.symm),
    tally_other (g := dCell rZ (nbZ d)) (g' := barCell c) (fun h => ne_bar rZ h.symm),
    tally_bar nbZ nbZ_nbZ, tally_bar nbY nbY_nbY, tally_bar nbX nbX_nbX]
  generalize (if d = nbX c then 1 else 0) = a
  generalize (if d = nbY c then 1 else 0) = b
  generalize (if d = nbZ c then 1 else 0) = e
  omega

theorem owed_rX (d c : Dev nD) : O₀ d (dCell rX c) () = if d = nbX c then N else 0 := by
  unfold O₀ O₃
  simp only [Pi.add_apply, Finsupp.add_apply]
  rw [tally_d rX nbX nbX_nbX,
    tally_other (g := dCell rY (nbY d)) (g' := dCell rX c) (show (SemLoc.dma rX : SemLoc sig) ≠ .dma rY by decide),
    tally_other (g := dCell rZ (nbZ d)) (g' := dCell rX c) (show (SemLoc.dma rX : SemLoc sig) ≠ .dma rZ by decide),
    tally_other (g := barCell (nbZ d)) (g' := dCell rX c) (ne_bar rX),
    tally_other (g := barCell (nbY d)) (g' := dCell rX c) (ne_bar rX),
    tally_other (g := barCell (nbX d)) (g' := dCell rX c) (ne_bar rX)]
  simp only [Nat.add_zero, Nat.zero_add]
theorem owed_rY (d c : Dev nD) : O₀ d (dCell rY c) () = if d = nbY c then N else 0 := by
  unfold O₀ O₃
  simp only [Pi.add_apply, Finsupp.add_apply]
  rw [tally_d rY nbY nbY_nbY,
    tally_other (g := dCell rX (nbX d)) (g' := dCell rY c) (show (SemLoc.dma rY : SemLoc sig) ≠ .dma rX by decide),
    tally_other (g := dCell rZ (nbZ d)) (g' := dCell rY c) (show (SemLoc.dma rY : SemLoc sig) ≠ .dma rZ by decide),
    tally_other (g := barCell (nbZ d)) (g' := dCell rY c) (ne_bar rY),
    tally_other (g := barCell (nbY d)) (g' := dCell rY c) (ne_bar rY),
    tally_other (g := barCell (nbX d)) (g' := dCell rY c) (ne_bar rY)]
  simp only [Nat.add_zero, Nat.zero_add]
theorem owed_rZ (d c : Dev nD) : O₀ d (dCell rZ c) () = if d = nbZ c then N else 0 := by
  unfold O₀ O₃
  simp only [Pi.add_apply, Finsupp.add_apply]
  rw [tally_d rZ nbZ nbZ_nbZ,
    tally_other (g := dCell rX (nbX d)) (g' := dCell rZ c) (show (SemLoc.dma rZ : SemLoc sig) ≠ .dma rX by decide),
    tally_other (g := dCell rY (nbY d)) (g' := dCell rZ c) (show (SemLoc.dma rZ : SemLoc sig) ≠ .dma rY by decide),
    tally_other (g := barCell (nbZ d)) (g' := dCell rZ c) (ne_bar rZ),
    tally_other (g := barCell (nbY d)) (g' := dCell rZ c) (ne_bar rZ),
    tally_other (g := barCell (nbX d)) (g' := dCell rZ c) (ne_bar rZ)]
  simp only [Nat.add_zero, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (nbX c) fun _ => 1, Finset.sum_ite_eq' Finset.univ (nbY c) fun _ => 1,
    Finset.sum_ite_eq' Finset.univ (nbZ c) fun _ => 1, if_pos (Finset.mem_univ _), if_pos (Finset.mem_univ _), if_pos (Finset.mem_univ _)]
theorem launch_rX (c : Dev nD) :
    tallyOn (dCell rX c) (launchCredit (Pipeline.owing O₀) 0 (dCell rX c)) = (tallyAt (dCell rX c) () N : CellTallies nD τ sig Unit) := by
  unfold tallyAt; refine congrArg _ (Finsupp.ext fun u => ?_); cases u
  rw [Pipeline.launchCredit_owing, Finsupp.single_eq_same, Finset.sum_congr rfl fun d _ => owed_rX d c,
    Finset.sum_ite_eq' Finset.univ (nbX c) fun _ => N, if_pos (Finset.mem_univ _)]
theorem launch_rY (c : Dev nD) :
    tallyOn (dCell rY c) (launchCredit (Pipeline.owing O₀) 0 (dCell rY c)) = (tallyAt (dCell rY c) () N : CellTallies nD τ sig Unit) := by
  unfold tallyAt; refine congrArg _ (Finsupp.ext fun u => ?_); cases u
  rw [Pipeline.launchCredit_owing, Finsupp.single_eq_same, Finset.sum_congr rfl fun d _ => owed_rY d c,
    Finset.sum_ite_eq' Finset.univ (nbY c) fun _ => N, if_pos (Finset.mem_univ _)]
theorem launch_rZ (c : Dev nD) :
    tallyOn (dCell rZ c) (launchCredit (Pipeline.owing O₀) 0 (dCell rZ c)) = (tallyAt (dCell rZ c) () N : CellTallies nD τ sig Unit) := by
  unfold tallyAt; refine congrArg _ (Finsupp.ext fun u => ?_); cases u
  rw [Pipeline.launchCredit_owing, Finsupp.single_eq_same, Finset.sum_congr rfl fun d _ => owed_rZ d c,
    Finset.sum_ite_eq' Finset.univ (nbZ c) fun _ => N, if_pos (Finset.mem_univ _)]

/-- The credit device `c` is launched with holds its barrier cell's three units and each receive cell's face credit. -/
theorem creds (c : Dev nD) :
    (Pipeline.launchCred O₀ c : sProp 𝕄)
      ⊢ iprop(cred (tallyAt (barCell c) () 3) ∗ cred (tallyAt (dCell rX c) () N) ∗ cred (tallyAt (dCell rY c) () N) ∗ cred (tallyAt (dCell rZ c) () N)) := by
  unfold Pipeline.launchCred
  rw [bigSep_univ_at _ (SemLoc.reg barS), launch_bar]
  refine sep_mono_right ?_
  rw [bigSep_erase (i := SemLoc.dma rX) (Finset.mem_erase.mpr ⟨ne_bar rX, Finset.mem_univ _⟩), launch_rX]
  refine sep_mono_right ?_
  rw [bigSep_erase (i := SemLoc.dma rY)
    (Finset.mem_erase.mpr ⟨by decide, Finset.mem_erase.mpr ⟨ne_bar rY, Finset.mem_univ _⟩⟩), launch_rY]
  refine sep_mono_right ?_
  rw [← launch_rZ]
  exact bigSep_elim (Finset.mem_erase.mpr ⟨by decide, Finset.mem_erase.mpr ⟨by decide,
    Finset.mem_erase.mpr ⟨ne_bar rZ, Finset.mem_univ _⟩⟩⟩)

end Cert.KernelIdeal.HaloProof

end
-- ==== Proof.Launch.lean ====
/-
  The run of the whole program on the eight devices, from one device's body run: what the launch hands a device becomes
  the body's starting state, what the body leaves gives the launch back its semaphores and scratch buffers, and the
  final arrays are read off the proof data — the input block unchanged, the output block the named term.
-/
import proofs.«900808_g7700000000000809_dist_halo3d_v7x_xyz2x2x2_s64_f32_1_alg».proof.Proof.Body
import proofs.«900808_g7700000000000809_dist_halo3d_v7x_xyz2x2x2_s64_f32_1_alg».proof.Proof.Glob
import proofs.«900808_g7700000000000809_dist_halo3d_v7x_xyz2x2x2_s64_f32_1_alg».proof.Proof.Credit

noncomputable section

namespace Cert.KernelIdeal.HaloProof

open Cert.KernelIdeal Cert.KernelIdeal.Gen Cert.KernelIdeal.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H0, HX, HY, HZ⟩
  imodintro
  unfold start G'
  isplitl
  · isplitl [HG]; · iexact HG
    isplitl [H0]; · iexact H0
    isplitl [HX]; · iexact HX
    isplitl [HY]; · iexact HY
    isplitl [HZ]; · iexact HZ
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, Hs⟩
  isplitr; · iempintro
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the proof data's. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.HaloProof.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.HaloProof

end
-- ==== Proof.FinalOut.lean ====
/-
  The output array after the run: the one point's flush writes the whole staging buffer back, so the array holds what
  the body left in the staging buffer.
-/
import proofs.«900808_g7700000000000809_dist_halo3d_v7x_xyz2x2x2_s64_f32_1_alg».proof.Proof.BodyData

noncomputable section

namespace Cert.KernelIdeal.HaloProof

open Cert.KernelIdeal Cert.KernelIdeal.Gen Cert.KernelIdeal.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The output window's array after the last point is the device's output block. -/
theorem arrAt_out (c : Dev nD) : (dats m ρ 0 c).arrAt (1 : Fin 2) cfg0.N = outAt c (X m ρ) := by
  -- the window is the whole array: its one block sits at offset zero along every axis
  have hz : (fun a => win0_1.index t0_0 a * main_v1.ty.shape.size a) = fun _ => 0 := funext fun a => Nat.zero_mul _
  -- the grid has one point, and that point writes the block back
  show (dats m ρ 0 c).arrAt (1 : Fin 2) ((t0_0 : Fin cfg0.N).val + 1) = _
  rw [(dats m ρ 0 c).arrAt_succ (1 : Fin 2) t0_0, flush0_1 t0_0, if_pos rfl]
  -- a whole array overwritten whole holds what was written: the staging buffer's contents after the body
  exact Memref.write_access_unit_zero_univ (Elt F) main_v1 hz
    (fun a => Nat.le_of_eq (by show 0 * _ + _ = _; rw [Nat.zero_mul, Nat.zero_add])) _ _

/-- The input window's array after the last point is what it was at launch. -/
theorem arrAt_in (c : Dev nD) : (dats m ρ 0 c).arrAt (0 : Fin 2) cfg0.N = m ((c : Thread nD τ).loc main_arg0) :=
  -- an input window's array is never written back
  (dats m ρ 0 c).arrAt_in (0 : Fin 2) rfl _

/-- The staged input block is the device's argument array. -/
theorem xstg_eq (c : Dev nD) : xstg m ρ c = m ((c : Thread nD τ).loc main_arg0) := by
  -- the window is the whole array, so the staged block, a read of the one block at offset zero, is the array
  have hz : (fun a => win0_0.index t0_0 a * main_arg0.ty.shape.size a) = fun _ => 0 := funext fun a => Nat.zero_mul _
  unfold xstg
  exact Memref.read_access_unit_zero (Elt F) main_arg0 hz
    (fun a => Nat.le_of_eq (by show 0 * _ + _ = _; rw [Nat.zero_mul, Nat.zero_add])) _

end Cert.KernelIdeal.HaloProof

end
-- ==== Proof.Spec.lean ====
/-
  The mathematics of the claim over the extended reals: the seven-point stencil on a 128 × 128 × 128 grid,
  `v = W + E + S + N + D + U − 6·u` at the interior points and `0` on the boundary, with the neighbours read through
  natural-number coordinates (an out-of-range coordinate reads as `0`).
-/
import Idealize.ShloMosaic.Lib.ValueIdx
import Idealize.ShloMosaic.PureOps.Ideal

noncomputable section

namespace Cert.Halo.Spec

open Idealize.ShloMosaic Idealize.ShloMosaic.ValueIdx

/-- The whole grid and one device's block of it. -/
abbrev SW : Shape := ⟨3, ![128, 128, 128]⟩
abbrev SB : Shape := ⟨3, ![64, 64, 64]⟩

/-- The stencil's centre weight, the float `6.0`: both programs carry the same word, never evaluated. -/
abbrev six : EReal := Ideal.ofBits .f32 0x40C00000#32

/-- An array read at natural-number coordinates: `0` outside its extents. -/
def rd3 {n0 n1 n2 : Nat} (u : (⟨3, ![n0, n1, n2]⟩ : Shape).Idx → EReal) (a b c : ℕ) : EReal :=
  if h : a < n0 ∧ b < n1 ∧ c < n2 then u (ix3 ⟨a, h.1⟩ ⟨b, h.2.1⟩ ⟨c, h.2.2⟩) else 0

theorem rd3_of_lt {n0 n1 n2 : Nat} (u : (⟨3, ![n0, n1, n2]⟩ : Shape).Idx → EReal) {a b c : ℕ} (ha : a < n0) (hb : b < n1) (hc : c < n2) :
    rd3 u a b c = u (ix3 ⟨a, ha⟩ ⟨b, hb⟩ ⟨c, hc⟩) := dif_pos ⟨ha, hb, hc⟩

/-- A function of a coordinate read one step down: `0` below coordinate `0`. -/
def dn (f : ℕ → EReal) (i : ℕ) : EReal := if 0 < i then f (i - 1) else 0

/-- The six neighbours summed in the order low/high along the first, second, third axis, minus six times the centre:
    neighbours outside the array's extents read as `0`. -/
def sten {n0 n1 n2 : Nat} (u : (⟨3, ![n0, n1, n2]⟩ : Shape).Idx → EReal) (i j k : ℕ) : EReal :=
  dn (fun a => rd3 u a j k) i + rd3 u (i + 1) j k + dn (fun b => rd3 u i b k) j + rd3 u i (j + 1) k
    + dn (fun d => rd3 u i j d) k + rd3 u i j (k + 1) - six * rd3 u i j k

/-- A point of the whole grid is interior: no coordinate is `0` or `127`. -/
def interior (i j k : ℕ) : Prop := (1 ≤ i ∧ i ≤ 126) ∧ (1 ≤ j ∧ j ≤ 126) ∧ (1 ≤ k ∧ k ≤ 126)
instance (i j k : ℕ) : Decidable (interior i j k) := by unfold interior; infer_instance

/-- The reference: the stencil at the interior points, `0` on the boundary. -/
def lap (u : SW.Idx → EReal) : SW.Idx → EReal := fun g =>
  if interior (g 0).val (g 1).val (g 2).val then sten u (g 0).val (g 1).val (g 2).val else 0

end Cert.Halo.Spec

end
-- ==== Proof.DevSpec.lean ====
/-
  One device's share of the stencil over the extended reals, from the eight devices' input blocks: the local stencil
  (neighbours outside the block read as `0`), `0` where the point lies on the global boundary, plus — on each of the
  block's three interior faces — the facing entry of the neighbour's block across that face, itself `0` where the
  other two coordinates lie on the global boundary.
-/
import proofs.«900808_g7700000000000809_dist_halo3d_v7x_xyz2x2x2_s64_f32_1_alg».proof.Proof.Values
import proofs.«900808_g7700000000000809_dist_halo3d_v7x_xyz2x2x2_s64_f32_1_alg».proof.Proof.Spec

noncomputable section

namespace Cert.KernelIdeal.Halo

open Cert.KernelIdeal Cert.KernelIdeal.Gen Cert.Halo.Spec
open Idealize.ShloMosaic Idealize.ShloMosaic.ValueIdx

/-- Device `c`'s coordinates on the 2 × 2 × 2 mesh (row-major). -/
def mx (c : Dev nD) : ℕ := c.val / 4
def my (c : Dev nD) : ℕ := c.val / 2 % 2
def mz (c : Dev nD) : ℕ := c.val % 2

/-- The local point `(i, j, k)` of device `c`'s block lies on the boundary of the whole grid. -/
def onBnd (c : Dev nD) (i j k : ℕ) : Prop := i = 63 * mx c ∨ j = 63 * my c ∨ k = 63 * mz c
instance (c : Dev nD) (i j k : ℕ) : Decidable (onBnd c i j k) := by unfold onBnd; infer_instance

/-- The entry the first-axis neighbour contributes at `(j, k)` of the interior face: the facing row of its block (row
    `63 · mx c`: row 0 of the high device for the low one, row 63 of the low device for the high one). -/
def hX (c : Dev nD) (X : Dev nD → SB.Idx → EReal) (j k : ℕ) : EReal :=
  if j = 63 * my c ∨ k = 63 * mz c then 0 else rd3 (X (nbX c)) (63 * mx c) j k
def hY (c : Dev nD) (X : Dev nD → SB.Idx → EReal) (i k : ℕ) : EReal :=
  if i = 63 * mx c ∨ k = 63 * mz c then 0 else rd3 (X (nbY c)) i (63 * my c) k
def hZ (c : Dev nD) (X : Dev nD → SB.Idx → EReal) (i j : ℕ) : EReal :=
  if i = 63 * mx c ∨ j = 63 * my c then 0 else rd3 (X (nbZ c)) i j (63 * mz c)

/-- Device `c`'s output at the local point `(i, j, k)`. The interior face along an axis is row `63 − 63 · m`. -/
def devOut (c : Dev nD) (X : Dev nD → SB.Idx → EReal) (i j k : ℕ) : EReal :=
  (if onBnd c i j k then 0 else sten (X c) i j k)
    + (if i = 63 - 63 * mx c then hX c X j k else 0)
    + (if j = 63 - 63 * my c then hY c X i k else 0)
    + (if k = 63 - 63 * mz c then hZ c X i j else 0)

end Cert.KernelIdeal.Halo

end
-- ==== Proof.SlabValue.lean ====
/-
  The two half-slab stencil values read at an index, over the extended reals.
-/
import proofs.«900808_g7700000000000809_dist_halo3d_v7x_xyz2x2x2_s64_f32_1_alg».proof.Proof.DevSpec
import Idealize.ShloMosaic.Lib.ValueIdx
import Idealize.ShloMosaic.PureOps.Ideal
import Idealize.ShloMosaic.PureOps.Ideal.Laws
import Idealize.ShloMosaic.Lib.Pipeline.Value

noncomputable section

namespace Cert.KernelIdeal.Halo

open Cert.KernelIdeal Cert.KernelIdeal.Gen Cert.Halo.Spec
open Idealize.ShloMosaic Idealize.ShloMosaic.ValueIdx

namespace Slab

section Reads
variable {α : Type}

/-- A unit-stride slice of a rank-3 array read at coordinates: the operand at the shifted coordinates. -/
theorem slice3_apply {m0 m1 m2 n0 n1 n2 : Nat} (o0 o1 o2 : Nat) (x : (⟨3, ![m0, m1, m2]⟩ : Shape).Idx → α)
    (h : (⟨3, ![m0, m1, m2]⟩ : Shape).Slices ![o0, o1, o2] ⟨3, ![n0, n1, n2]⟩) (i : Fin n0) (j : Fin n1) (k : Fin n2)
    (i' : Fin m0) (j' : Fin m1) (k' : Fin m2) (hi : i'.val = o0 + i.val) (hj : j'.val = o1 + j.val)
    (hk : k'.val = o2 + k.val) :
    extractStridedSlice ⟨3, ![n0, n1, n2]⟩ ![o0, o1, o2] x h (ix3 i j k) = x (ix3 i' j' k') :=
  extractStridedSlice_apply _ x h _ _ (fun a => by
    match a with
    | ⟨0, _⟩ => exact hi
    | ⟨1, _⟩ => exact hj
    | ⟨2, _⟩ => exact hk)

/-- A zero row before rows of the operand, along the first axis. -/
theorem cat0_lo (z : S1x64x64.Idx → α) (v : S31x64x64.Idx → α)
    (h : Shape.Concatenates [S1x64x64, S31x64x64] S32x64x64 0) (i : Fin 32) (j k : Fin 64) :
    concatenate S32x64x64 0 [⟨S1x64x64, z⟩, ⟨S31x64x64, v⟩] h (ix3 i j k)
      = if hi : 0 < i.val then v (ix3 ⟨i.val - 1, by omega⟩ j k) else z (ix3 ⟨0, by omega⟩ j k) := by
  split
  · next hi =>
    exact concatenate_pair_apply_right 0 z v h _ rfl rfl _
      (fun b hb => by
        match b with
        | ⟨0, _⟩ => exact absurd rfl hb
        | ⟨1, _⟩ => rfl
        | ⟨2, _⟩ => rfl)
      (by show i.val - 1 + 1 = i.val; omega)
  · next hi =>
    exact concatenate_pair_apply_left 0 z v h _ rfl _ (fun b => by
      match b with
      | ⟨0, _⟩ => show 0 = i.val; omega
      | ⟨1, _⟩ => rfl
      | ⟨2, _⟩ => rfl)

/-- Rows of the operand before a zero row, along the first axis. -/
theorem cat0_hi (v : S31x64x64.Idx → α) (z : S1x64x64.Idx → α)
    (h : Shape.Concatenates [S31x64x64, S1x64x64] S32x64x64 0) (i : Fin 32) (j k : Fin 64) :
    concatenate S32x64x64 0 [⟨S31x64x64, v⟩, ⟨S1x64x64, z⟩] h (ix3 i j k)
      = if hi : i.val < 31 then v (ix3 ⟨i.val, hi⟩ j k) else z (ix3 ⟨0, by omega⟩ j k) := by
  split
  · next hi =>
    exact concatenate_pair_apply_left 0 v z h _ rfl _ (fun b => by
      match b with
      | ⟨0, _⟩ => rfl
      | ⟨1, _⟩ => rfl
      | ⟨2, _⟩ => rfl)
  · next hi =>
    exact concatenate_pair_apply_right 0 v z h _ rfl rfl _
      (fun b hb => by
        match b with
        | ⟨0, _⟩ => exact absurd rfl hb
        | ⟨1, _⟩ => rfl
        | ⟨2, _⟩ => rfl)
      (by show 0 + 31 = i.val; omega)

/-- A zero column before columns of the operand, along the second axis. -/
theorem cat1_lo (z : S32x1x64.Idx → α) (v : S32x63x64.Idx → α)
    (h : Shape.Concatenates [S32x1x64, S32x63x64] S32x64x64 1) (i : Fin 32) (j k : Fin 64) :
    concatenate S32x64x64 1 [⟨S32x1x64, z⟩, ⟨S32x63x64, v⟩] h (ix3 i j k)
      = if hj : 0 < j.val then v (ix3 i ⟨j.val - 1, by omega⟩ k) else z (ix3 i ⟨0, by omega⟩ k) := by
  split
  · next hj =>
    exact concatenate_pair_apply_right 1 z v h _ rfl rfl _
      (fun b hb => by
        match b with
        | ⟨0, _⟩ => rfl
        | ⟨1, _⟩ => exact absurd rfl hb
        | ⟨2, _⟩ => rfl)
      (by show j.val - 1 + 1 = j.val; omega)
  · next hj =>
    exact concatenate_pair_apply_left 1 z v h _ rfl _ (fun b => by
      match b with
      | ⟨0, _⟩ => rfl
      | ⟨1, _⟩ => show 0 = j.val; omega
      | ⟨2, _⟩ => rfl)

/-- Columns of the operand before a zero column, along the second axis. -/
theorem cat1_hi (v : S32x63x64.Idx → α) (z : S32x1x64.Idx → α)
    (h : Shape.Concatenates [S32x63x64, S32x1x64] S32x64x64 1) (i : Fin 32) (j k : Fin 64) :
    concatenate S32x64x64 1 [⟨S32x63x64, v⟩, ⟨S32x1x64, z⟩] h (ix3 i j k)
      = if hj : j.val < 63 then v (ix3 i ⟨j.val, hj⟩ k) else z (ix3 i ⟨0, by omega⟩ k) := by
  split
  · next hj =>
    exact concatenate_pair_apply_left 1 v z h _ rfl _ (fun b => by
      match b with
      | ⟨0, _⟩ => rfl
      | ⟨1, _⟩ => rfl
      | ⟨2, _⟩ => rfl)
  · next hj =>
    exact concatenate_pair_apply_right 1 v z h _ rfl rfl _
      (fun b hb => by
        match b with
        | ⟨0, _⟩ => rfl
        | ⟨1, _⟩ => exact absurd rfl hb
        | ⟨2, _⟩ => rfl)
      (by show 0 + 63 = j.val; omega)

/-- A zero entry before entries of the operand, along the third axis. -/
theorem cat2_lo (z : S32x64x1.Idx → α) (v : S32x64x63.Idx → α)
    (h : Shape.Concatenates [S32x64x1, S32x64x63] S32x64x64 2) (i : Fin 32) (j k : Fin 64) :
    concatenate S32x64x64 2 [⟨S32x64x1, z⟩, ⟨S32x64x63, v⟩] h (ix3 i j k)
      = if hk : 0 < k.val then v (ix3 i j ⟨k.val - 1, by omega⟩) else z (ix3 i j ⟨0, by omega⟩) := by
  split
  · next hk =>
    exact concatenate_pair_apply_right 2 z v h _ rfl rfl _
      (fun b hb => by
        match b with
        | ⟨0, _⟩ => rfl
        | ⟨1, _⟩ => rfl
        | ⟨2, _⟩ => exact absurd rfl hb)
      (by show k.val - 1 + 1 = k.val; omega)
  · next hk =>
    exact concatenate_pair_apply_left 2 z v h _ rfl _ (fun b => by
      match b with
      | ⟨0, _⟩ => rfl
      | ⟨1, _⟩ => rfl
      | ⟨2, _⟩ => show 0 = k.val; omega)

/-- Entries of the operand before a zero entry, along the third axis. -/
theorem cat2_hi (v : S32x64x63.Idx → α) (z : S32x64x1.Idx → α)
    (h : Shape.Concatenates [S32x64x63, S32x64x1] S32x64x64 2) (i : Fin 32) (j k : Fin 64) :
    concatenate S32x64x64 2 [⟨S32x64x63, v⟩, ⟨S32x64x1, z⟩] h (ix3 i j k)
      = if hk : k.val < 63 then v (ix3 i j ⟨k.val, hk⟩) else z (ix3 i j ⟨0, by omega⟩) := by
  split
  · next hk =>
    exact concatenate_pair_apply_left 2 v z h _ rfl _ (fun b => by
      match b with
      | ⟨0, _⟩ => rfl
      | ⟨1, _⟩ => rfl
      | ⟨2, _⟩ => rfl)
  · next hk =>
    exact concatenate_pair_apply_right 2 v z h _ rfl rfl _
      (fun b hb => by
        match b with
        | ⟨0, _⟩ => rfl
        | ⟨1, _⟩ => rfl
        | ⟨2, _⟩ => exact absurd rfl hb)
      (by show 0 + 63 = k.val; omega)

end Reads

/-! ## The boundary mask -/

/-- A one-bit disjunction is set exactly when one of its operands is. -/
theorem ori_eq_one (x y : BitVec 1) : IntOp.ori x y = 1 ↔ x = 1 ∨ y = 1 := by
  rcases BitVec.eq_zero_or_eq_one x with rfl | rfl <;> rcases BitVec.eq_zero_or_eq_one y with rfl | rfl <;> decide

/-- The equality comparison of two words is set exactly when they are equal. -/
theorem cmpi_eq_one (a a' : BitVec 32) : IntOp.cmpi .eq a a' = 1 ↔ a = a' := by
  by_cases h : a = a'
  · simp [IntOp.cmpi, h]
  · have hb : (a == a') = false := beq_false_of_ne h
    simp [IntOp.cmpi, h, hb]

/-- A select on the disjunction of three word equalities is the `if` on the disjunction. -/
theorem select_or3 {β : Type} (a a' b b' c c' : BitVec 32) (p q : β) :
    Scalar.select (IntOp.ori (IntOp.ori (IntOp.cmpi .eq a a') (IntOp.cmpi .eq b b')) (IntOp.cmpi .eq c c')) p q
      = if a = a' ∨ b = b' ∨ c = c' then p else q := by
  have e : (IntOp.ori (IntOp.ori (IntOp.cmpi .eq a a') (IntOp.cmpi .eq b b')) (IntOp.cmpi .eq c c') = 1)
      ↔ (a = a' ∨ b = b' ∨ c = c') := by
    rw [ori_eq_one, ori_eq_one, cmpi_eq_one, cmpi_eq_one, cmpi_eq_one, or_assoc]
  unfold Scalar.select
  by_cases h : a = a' ∨ b = b' ∨ c = c'
  · rw [if_pos h, if_pos (e.2 h)]
  · rw [if_neg h, if_neg (fun h' => h (e.1 h'))]

/-- Two words of naturals below `2 ^ 32` are equal exactly when the naturals are. -/
theorem ofNat32_eq_iff {a b : Nat} (ha : a < 2 ^ 32) (hb : b < 2 ^ 32) :
    BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · intro h; rw [h]

/-- The three mask words of a device are the words of sixty-three times its mesh coordinates. -/
theorem wx63 (c : Dev nD) : Scalar.muli (wx c) 63#32 = BitVec.ofNat 32 (63 * mx c) := by
  revert c; decide
theorem wy63 (c : Dev nD) : Scalar.muli (wy c) 63#32 = BitVec.ofNat 32 (63 * my c) := by
  revert c; decide
theorem wz63 (c : Dev nD) : Scalar.muli (wz c) 63#32 = BitVec.ofNat 32 (63 * mz c) := by
  revert c; decide
theorem mx_le (c : Dev nD) : mx c ≤ 1 := by revert c; decide
theorem my_le (c : Dev nD) : my c ≤ 1 := by revert c; decide
theorem mz_le (c : Dev nD) : mz c ≤ 1 := by revert c; decide

/-! ## The mask's coordinate words -/

theorem iota0_apply (h : S32x64x64.Iotas .tc 32 [0]) (i : Fin 32) (j k : Fin 64) :
    iota .tc S32x64x64 32 [0] h (ix3 i j k) = BitVec.ofNat 32 i.val := iota_single_apply .tc S32x64x64 32 0 h _
theorem iota1_apply (h : S32x64x64.Iotas .tc 32 [1]) (i : Fin 32) (j k : Fin 64) :
    iota .tc S32x64x64 32 [1] h (ix3 i j k) = BitVec.ofNat 32 j.val := iota_single_apply .tc S32x64x64 32 1 h _
theorem iota2_apply (h : S32x64x64.Iotas .tc 32 [2]) (i : Fin 32) (j k : Fin 64) :
    iota .tc S32x64x64 32 [2] h (ix3 i j k) = BitVec.ofNat 32 k.val := iota_single_apply .tc S32x64x64 32 2 h _

theorem addi_apply {s : Shape} {w : Nat} (x y : IVec s w) (i : s.Idx) : addi x y i = IntOp.addi (x i) (y i) := rfl
theorem ori_apply {s : Shape} {w : Nat} (x y : IVec s w) (i : s.Idx) : ori x y i = IntOp.ori (x i) (y i) := rfl
theorem cmpi_apply {s : Shape} {w : Nat} (p : CmpIPredicate) (x y : IVec s w) (i : s.Idx) :
    cmpi p x y i = IntOp.cmpi p (x i) (y i) := rfl

theorem addi_zero_ofNat (n : Nat) : IntOp.addi 0#32 (BitVec.ofNat 32 n) = BitVec.ofNat 32 n := by
  simp [IntOp.addi]
theorem addi_32_ofNat (n : Nat) : IntOp.addi 32#32 (BitVec.ofNat 32 n) = BitVec.ofNat 32 (n + 32) := by
  unfold IntOp.addi
  rw [Nat.add_comm n 32, BitVec.ofNat_add]

/-- The zero word is the extended real `0`, and the centre weight's word is `six`. -/
theorem zero_word : (FloatOps.ofBits .f32 0x00000000#32 : Ideal .f32) = (0 : EReal) := Ideal.ofBits_zero_f32
theorem six_word : (FloatOps.ofBits .f32 0x40C00000#32 : Ideal .f32) = six := rfl

/-! ## The in-slab neighbours: a slice shifted against a zero pad, read through `rd3` -/

section Nb
variable (xs : S32x64x64.Idx → EReal) (i : Fin 32) (j k : Fin 64)

theorem rd3_slab : rd3 xs i.val j.val k.val = xs (ix3 i j k) := rd3_of_lt xs i.isLt j.isLt k.isLt

theorem nbW (z : S32x1x64.Idx → EReal) (hs : S32x64x64.Slices ![0, 0, 0] S32x63x64)
    (h : Shape.Concatenates [S32x1x64, S32x63x64] S32x64x64 1) :
    concatenate S32x64x64 1 [⟨S32x1x64, z⟩, ⟨S32x63x64, extractStridedSlice S32x63x64 ![0, 0, 0] xs hs⟩] h (ix3 i j k)
      = if 0 < j.val then rd3 xs i.val (j.val - 1) k.val else z (ix3 i ⟨0, by omega⟩ k) := by
  rw [cat1_lo]
  split
  · next hj =>
    rw [slice3_apply 0 0 0 xs hs i ⟨j.val - 1, by omega⟩ k i ⟨j.val - 1, by omega⟩ k (by omega) (by omega) (by omega)]
    exact (rd3_of_lt xs i.isLt (by omega) k.isLt).symm
  · rfl

theorem nbE (z : S32x1x64.Idx → EReal) (hs : S32x64x64.Slices ![0, 1, 0] S32x63x64)
    (h : Shape.Concatenates [S32x63x64, S32x1x64] S32x64x64 1) :
    concatenate S32x64x64 1 [⟨S32x63x64, extractStridedSlice S32x63x64 ![0, 1, 0] xs hs⟩, ⟨S32x1x64, z⟩] h (ix3 i j k)
      = if j.val < 63 then rd3 xs i.val (j.val + 1) k.val else z (ix3 i ⟨0, by omega⟩ k) := by
  rw [cat1_hi]
  split
  · next hj =>
    rw [slice3_apply 0 1 0 xs hs i ⟨j.val, hj⟩ k i ⟨j.val + 1, by omega⟩ k (by omega) (by simp; omega) (by omega)]
    exact (rd3_of_lt xs i.isLt (by omega) k.isLt).symm
  · rfl

theorem nbS (z : S32x64x1.Idx → EReal) (hs : S32x64x64.Slices ![0, 0, 0] S32x64x63)
    (h : Shape.Concatenates [S32x64x1, S32x64x63] S32x64x64 2) :
    concatenate S32x64x64 2 [⟨S32x64x1, z⟩, ⟨S32x64x63, extractStridedSlice S32x64x63 ![0, 0, 0] xs hs⟩] h (ix3 i j k)
      = if 0 < k.val then rd3 xs i.val j.val (k.val - 1) else z (ix3 i j ⟨0, by omega⟩) := by
  rw [cat2_lo]
  split
  · next hk =>
    rw [slice3_apply 0 0 0 xs hs i j ⟨k.val - 1, by omega⟩ i j ⟨k.val - 1, by omega⟩ (by omega) (by omega) (by omega)]
    exact (rd3_of_lt xs i.isLt j.isLt (by omega)).symm
  · rfl

theorem nbN (z : S32x64x1.Idx → EReal) (hs : S32x64x64.Slices ![0, 0, 1] S32x64x63)
    (h : Shape.Concatenates [S32x64x63, S32x64x1] S32x64x64 2) :
    concatenate S32x64x64 2 [⟨S32x64x63, extractStridedSlice S32x64x63 ![0, 0, 1] xs hs⟩, ⟨S32x64x1, z⟩] h (ix3 i j k)
      = if k.val < 63 then rd3 xs i.val j.val (k.val + 1) else z (ix3 i j ⟨0, by omega⟩) := by
  rw [cat2_hi]
  split
  · next hk =>
    rw [slice3_apply 0 0 1 xs hs i j ⟨k.val, hk⟩ i j ⟨k.val + 1, by omega⟩ (by omega) (by omega) (by simp; omega)]
    exact (rd3_of_lt xs i.isLt j.isLt (by omega)).symm
  · rfl

/-- Past the last coordinate `rd3` reads `0`, so the guard on the high neighbour may be dropped. -/
theorem ite_hi1 : (if j.val < 63 then rd3 xs i.val (j.val + 1) k.val else 0) = rd3 xs i.val (j.val + 1) k.val := by
  split
  · rfl
  · next hj => symm; unfold rd3; exact dif_neg (fun h => hj (by omega))
theorem ite_hi2 : (if k.val < 63 then rd3 xs i.val j.val (k.val + 1) else 0) = rd3 xs i.val j.val (k.val + 1) := by
  split
  · rfl
  · next hk => symm; unfold rd3; exact dif_neg (fun h => hk (by omega))

end Nb

/-! ## The payload of the low slab at coordinates -/

theorem pay12_apply (a b c : BitVec 32) (xs lo hi : S32x64x64.Idx → EReal) (i : Fin 32) (j k : Fin 64) :
    k0_pay12 (F := Ideal) a b c xs lo hi k0_pay11 (ix3 i j k) =
      if BitVec.ofNat 32 i.val = a ∨ BitVec.ofNat 32 j.val = b ∨ BitVec.ofNat 32 k.val = c then 0
      else lo (ix3 i j k) + hi (ix3 i j k) + dn (fun q => rd3 xs i.val q k.val) j.val + rd3 xs i.val (j.val + 1) k.val
        + dn (fun q => rd3 xs i.val j.val q) k.val + rd3 xs i.val j.val (k.val + 1) - six * rd3 xs i.val j.val k.val := by
  unfold k0_pay12 k0_pay11
  simp only [select_apply, subf_apply, addf_apply, mulf_apply, broadcast_apply, ori_apply, cmpi_apply, addi_apply,
    select_or3, nbW, nbE, nbS, nbN]
  rw [iota0_apply, iota1_apply, iota2_apply, addi_zero_ofNat]
  simp only [zero_word, six_word, ite_hi1, ite_hi2, dn, rd3_slab]

/-! ## The three row payloads of the low slab, and the slab's own rows, through `rd3` -/

section Lo
variable (x : Cube Ideal)

theorem rd3_pay8 (i q r : ℕ) (hi : i < 32) :
    rd3 (n0 := 32) (n1 := 64) (n2 := 64) (k0_pay8 x) i q r = rd3 (n0 := 64) (n1 := 64) (n2 := 64) x i q r := by
  unfold rd3
  by_cases h : q < 64 ∧ r < 64
  · rw [dif_pos ⟨hi, h⟩, dif_pos ⟨by omega, h⟩]
    unfold k0_pay8 k0_pay1
    rw [shapeCast_self]
    exact slice3_apply 0 0 0 x _ _ _ _ _ _ _ (by simp) (by simp) (by simp)
  · rw [dif_neg (fun h' => h h'.2), dif_neg (fun h' => h h'.2)]

theorem pay9_apply (i : Fin 32) (j k : Fin 64) :
    k0_pay9 x (ix3 i j k) = dn (fun a => rd3 (n0 := 64) (n1 := 64) (n2 := 64) x a j.val k.val) i.val := by
  unfold k0_pay9 k0_pay1 dn
  rw [shapeCast_self, cat0_lo]
  split
  · next hi =>
    rw [slice3_apply 0 0 0 x _ ⟨i.val - 1, by omega⟩ j k ⟨i.val - 1, by omega⟩ j k (by simp) (by simp) (by simp)]
    exact (rd3_of_lt x (by omega) j.isLt k.isLt).symm
  · exact zero_word

theorem pay10_apply (i : Fin 32) (j k : Fin 64) :
    k0_pay10 x (ix3 i j k) = rd3 (n0 := 64) (n1 := 64) (n2 := 64) x (i.val + 1) j.val k.val := by
  unfold k0_pay10 k0_pay1
  rw [shapeCast_self, slice3_apply 1 0 0 x _ i j k ⟨i.val + 1, by omega⟩ j k (by simp; omega) (by simp) (by simp)]
  exact (rd3_of_lt x (by omega) j.isLt k.isLt).symm

end Lo

/-! ## The mask is the boundary predicate -/

theorem mask_iff (c : Dev nD) (i j k : ℕ) (hi : i < 64) (hj : j < 64) (hk : k < 64) :
    (BitVec.ofNat 32 i = Scalar.muli (wx c) 63#32 ∨ BitVec.ofNat 32 j = Scalar.muli (wy c) 63#32
      ∨ BitVec.ofNat 32 k = Scalar.muli (wz c) 63#32) ↔ onBnd c i j k := by
  have hx := mx_le c; have hy := my_le c; have hz := mz_le c
  rw [wx63, wy63, wz63, ofNat32_eq_iff (by omega) (by omega), ofNat32_eq_iff (by omega) (by omega),
    ofNat32_eq_iff (by omega) (by omega)]
  rfl

/-! ## The high slab -/

section Hi
variable (x : Cube Ideal)

theorem rd3_pay13 (i q r : ℕ) (hi : i < 32) :
    rd3 (n0 := 32) (n1 := 64) (n2 := 64) (k0_pay13 (F := Ideal) x) i q r
      = rd3 (n0 := 64) (n1 := 64) (n2 := 64) x (i + 32) q r := by
  unfold rd3
  by_cases h : q < 64 ∧ r < 64
  · rw [dif_pos ⟨hi, h⟩, dif_pos ⟨by omega, h⟩]
    unfold k0_pay13
    exact slice3_apply 32 0 0 x _ _ _ _ _ _ _ (by simp; omega) (by simp) (by simp)
  · rw [dif_neg (fun h' => h h'.2), dif_neg (fun h' => h h'.2)]

theorem pay14_apply (i : Fin 32) (j k : Fin 64) :
    k0_pay14 (F := Ideal) x (ix3 i j k)
      = dn (fun a => rd3 (n0 := 64) (n1 := 64) (n2 := 64) x a j.val k.val) (i.val + 32)
        + rd3 (n0 := 64) (n1 := 64) (n2 := 64) x (i.val + 32 + 1) j.val k.val
        + dn (fun q => rd3 (n0 := 64) (n1 := 64) (n2 := 64) x (i.val + 32) q k.val) j.val
        + rd3 (n0 := 64) (n1 := 64) (n2 := 64) x (i.val + 32) (j.val + 1) k.val
        + dn (fun q => rd3 (n0 := 64) (n1 := 64) (n2 := 64) x (i.val + 32) j.val q) k.val
        + rd3 (n0 := 64) (n1 := 64) (n2 := 64) x (i.val + 32) j.val (k.val + 1) := by
  have e1 : extractStridedSlice S32x64x64 ![31, 0, 0] x slices_S64x64x64_o31_0_0_S32x64x64 (ix3 i j k)
      = dn (fun a => rd3 (n0 := 64) (n1 := 64) (n2 := 64) x a j.val k.val) (i.val + 32) := by
    unfold dn
    rw [if_pos (by omega),
      slice3_apply 31 0 0 x _ i j k ⟨i.val + 32 - 1, by omega⟩ j k (by simp; omega) (by simp) (by simp)]
    exact (rd3_of_lt x (by omega) j.isLt k.isLt).symm
  have e2 : concatenate S32x64x64 0 [⟨S31x64x64, extractStridedSlice S31x64x64 ![33, 0, 0] x slices_S64x64x64_o33_0_0_S31x64x64⟩,
        ⟨S1x64x64, broadcast S1x64x64 (FloatOps.ofBits .f32 0x00000000#32 : Ideal .f32)⟩]
        concatenates_S31x64x64_S1x64x64_S32x64x64_d0 (ix3 i j k)
      = rd3 (n0 := 64) (n1 := 64) (n2 := 64) x (i.val + 32 + 1) j.val k.val := by
    rw [cat0_hi]
    split
    · next hi =>
      rw [slice3_apply 33 0 0 x _ ⟨i.val, hi⟩ j k ⟨i.val + 32 + 1, by omega⟩ j k (by simp; omega) (by simp) (by simp)]
      exact (rd3_of_lt x (by omega) j.isLt k.isLt).symm
    · next hi =>
      rw [broadcast_apply, zero_word]
      symm; unfold rd3; exact dif_neg (fun h => hi (by omega))
  unfold k0_pay14
  simp only [addf_apply, nbW, nbE, nbS, nbN, broadcast_apply]
  rw [e1, e2]
  simp only [zero_word, ite_hi1, ite_hi2]
  simp only [dn, rd3_pay13 x _ _ _ i.isLt]

end Hi

theorem pay16_apply (a b c : BitVec 32) (xs sum : S32x64x64.Idx → EReal) (i : Fin 32) (j k : Fin 64) :
    k0_pay16 (F := Ideal) a b c xs sum k0_pay15 (ix3 i j k) =
      if BitVec.ofNat 32 (i.val + 32) = a ∨ BitVec.ofNat 32 j.val = b ∨ BitVec.ofNat 32 k.val = c then 0
      else sum (ix3 i j k) - six * rd3 xs i.val j.val k.val := by
  unfold k0_pay16 k0_pay15
  simp only [select_apply, subf_apply, mulf_apply, broadcast_apply, ori_apply, cmpi_apply, addi_apply, select_or3]
  rw [iota0_apply, iota1_apply, iota2_apply, addi_32_ofNat]
  simp only [zero_word, six_word, rd3_slab]

end Slab

open Slab

/-- Rows 0 … 31: the local stencil at the point, zero on the global boundary. -/
theorem slabLo_apply (c : Dev nD) (x : Cube Ideal) (i : Fin 32) (j k : Fin 64) :
    slabLo (F := Ideal) c x (ix3 i j k) = if onBnd c i.val j.val k.val then 0 else sten (n0 := 64) (n1 := 64) (n2 := 64) x i.val j.val k.val := by
  unfold slabLo
  rw [pay12_apply]
  by_cases hb : onBnd c i.val j.val k.val
  · rw [if_pos hb, if_pos ((mask_iff c _ _ _ (by omega) j.isLt k.isLt).2 hb)]
  · rw [if_neg hb, if_neg (fun h => hb ((mask_iff c _ _ _ (by omega) j.isLt k.isLt).1 h))]
    unfold sten
    simp only [pay9_apply, pay10_apply, rd3_pay8 x _ _ _ i.isLt]

/-- Rows 32 … 63. -/
theorem slabHi_apply (c : Dev nD) (x : Cube Ideal) (i : Fin 32) (j k : Fin 64) :
    slabHi (F := Ideal) c x (ix3 i j k) = if onBnd c (i.val + 32) j.val k.val then 0 else sten (n0 := 64) (n1 := 64) (n2 := 64) x (i.val + 32) j.val k.val := by
  have e : k0_pay1 (F := Ideal) x = x := shapeCast_self x _
  unfold slabHi
  rw [e, pay16_apply]
  by_cases hb : onBnd c (i.val + 32) j.val k.val
  · rw [if_pos hb, if_pos ((mask_iff c _ _ _ (by omega) j.isLt k.isLt).2 hb)]
  · rw [if_neg hb, if_neg (fun h => hb ((mask_iff c _ _ _ (by omega) j.isLt k.isLt).1 h))]
    unfold sten
    rw [pay14_apply, rd3_pay13 x _ _ _ i.isLt]

end Cert.KernelIdeal.Halo

end
-- ==== Proof.FaceValue.lean ====
/-
  The three sent faces and the six face-update values read at an index, over the extended reals.
-/
import proofs.«900808_g7700000000000809_dist_halo3d_v7x_xyz2x2x2_s64_f32_1_alg».proof.Proof.DevSpec
import Idealize.ShloMosaic.Lib.ValueIdx
import Idealize.ShloMosaic.PureOps.Ideal
import Idealize.ShloMosaic.Lib.ValueLayout
import Idealize.ShloMosaic.PureOps.Ideal.Laws

noncomputable section

namespace Cert.KernelIdeal.Halo

open Cert.KernelIdeal Cert.KernelIdeal.Gen Cert.Halo.Spec
open Idealize.ShloMosaic Idealize.ShloMosaic.ValueIdx

/-! ## Shape casts and slices that drop or add one unit axis, read at coordinates -/

section Layout
variable {α : Type}

/-- An `[a, 1, b]` array cast to `[a, b]` reads, at `(i, j)`, the operand at `(i, 0, j)`. -/
private theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array cast to `[a, b]` reads, at `(i, j)`, the operand at `(i, j, 0)`. -/
private theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A rank-3 array's row `o` along axis 0, kept as a `[1, n1, n2]` array, reads at `(u, j, k)` the source at `(o, j, k)`. -/
private theorem slice3_row0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (j : Fin n1) (k : Fin n2) (r : Fin n0) (hr : r.val = o) :
    extractStridedSlice ⟨3, ![1, n1, n2]⟩ ![o, 0, 0] X h (ix3 u j k) = X (ix3 r j k) :=
  extractStridedSlice_apply _ _ _ _ _ (fun ax => by
    match ax with
    | ⟨0, _⟩ => show r.val = o + u.val; omega
    | ⟨1, _⟩ => exact (Nat.zero_add _).symm
    | ⟨2, _⟩ => exact (Nat.zero_add _).symm)

/-- The same along axis 1. -/
private theorem slice3_row1_apply {n0 n1 n2 : ℕ} (o : ℕ) (X : (⟨3, ![n0, n1, n2]⟩ : Shape).Idx → α)
    (h : (⟨3, ![n0, n1, n2]⟩ : Shape).Slices ![0, o, 0] ⟨3, ![n0, 1, n2]⟩)
    (i : Fin n0) (u : Fin 1) (k : Fin n2) (r : Fin n1) (hr : r.val = o) :
    extractStridedSlice ⟨3, ![n0, 1, n2]⟩ ![0, o, 0] X h (ix3 i u k) = X (ix3 i r k) :=
  extractStridedSlice_apply _ _ _ _ _ (fun ax => by
    match ax with
    | ⟨0, _⟩ => exact (Nat.zero_add _).symm
    | ⟨1, _⟩ => show r.val = o + u.val; omega
    | ⟨2, _⟩ => exact (Nat.zero_add _).symm)

/-- The same along axis 2. -/
private theorem slice3_row2_apply {n0 n1 n2 : ℕ} (o : ℕ) (X : (⟨3, ![n0, n1, n2]⟩ : Shape).Idx → α)
    (h : (⟨3, ![n0, n1, n2]⟩ : Shape).Slices ![0, 0, o] ⟨3, ![n0, n1, 1]⟩)
    (i : Fin n0) (j : Fin n1) (u : Fin 1) (r : Fin n2) (hr : r.val = o) :
    extractStridedSlice ⟨3, ![n0, n1, 1]⟩ ![0, 0, o] X h (ix3 i j u) = X (ix3 i j r) :=
  extractStridedSlice_apply _ _ _ _ _ (fun ax => by
    match ax with
    | ⟨0, _⟩ => exact (Nat.zero_add _).symm
    | ⟨1, _⟩ => exact (Nat.zero_add _).symm
    | ⟨2, _⟩ => show r.val = o + u.val; omega)

end Layout

/-! ## The device's mesh coordinates as words -/

/-- The body's coordinate words are the mesh coordinates. -/
private theorem wx_eq (c : Dev nD) : wx c = BitVec.ofNat 32 (mx c) := by revert c; decide
private theorem wy_eq (c : Dev nD) : wy c = BitVec.ofNat 32 (my c) := by revert c; decide
private theorem wz_eq (c : Dev nD) : wz c = BitVec.ofNat 32 (mz c) := by revert c; decide
/-- Each mesh coordinate is `0` or `1`. -/
private theorem mx_lt (c : Dev nD) : mx c < 2 := by revert c; decide
private theorem my_lt (c : Dev nD) : my c < 2 := by revert c; decide
private theorem mz_lt (c : Dev nD) : mz c < 2 := by revert c; decide
/-- A coordinate word is the zero word exactly on the low device of its axis. -/
private theorem mx_of_wx (c : Dev nD) : mx c = if wx c = 0#32 then 0 else 1 := by revert c; decide
private theorem my_of_wy (c : Dev nD) : my c = if wy c = 0#32 then 0 else 1 := by revert c; decide
private theorem mz_of_wz (c : Dev nD) : mz c = if wz c = 0#32 then 0 else 1 := by revert c; decide

/-! ## The boundary mask -/

/-- The comparison of a coordinate below 64 with `63 · m`, `m` a mesh coordinate, as words: the bit of the equation of naturals. -/
private theorem bnd_bit (m : ℕ) (hm : m < 2) (j : Fin 64) :
    IntOp.cmpi .eq (BitVec.ofNat 32 j.val) (Scalar.muli (BitVec.ofNat 32 m) 63#32) = if j.val = 63 * m then 1#1 else 0#1 := by
  interval_cases m <;> revert j <;> decide

/-- Either mask bit set: zero; neither: the value. -/
private def msk (p q : BitVec 1) (v : EReal) : EReal := Scalar.select (IntOp.ori p q) (0 : EReal) v

/-- The mask of two such comparisons is the `if` on the two equations of naturals. -/
private theorem msk_bnd (m n : ℕ) (hm : m < 2) (hn : n < 2) (j k : Fin 64) (v : EReal) :
    msk (IntOp.cmpi .eq (BitVec.ofNat 32 j.val) (Scalar.muli (BitVec.ofNat 32 m) 63#32))
      (IntOp.cmpi .eq (BitVec.ofNat 32 k.val) (Scalar.muli (BitVec.ofNat 32 n) 63#32)) v
      = if j.val = 63 * m ∨ k.val = 63 * n then 0 else v := by
  have h11 : IntOp.ori 1#1 1#1 = 1#1 := by decide
  have h10 : IntOp.ori 1#1 0#1 = 1#1 := by decide
  have h01 : IntOp.ori 0#1 1#1 = 1#1 := by decide
  have h00 : IntOp.ori 0#1 0#1 = 0#1 := by decide
  rw [bnd_bit m hm j, bnd_bit n hn k]
  unfold msk
  by_cases h1 : j.val = 63 * m
  · rw [if_pos h1, if_pos (Or.inl h1)]
    by_cases h2 : k.val = 63 * n
    · rw [if_pos h2, h11, select_one]
    · rw [if_neg h2, h10, select_one]
  · rw [if_neg h1]
    by_cases h2 : k.val = 63 * n
    · rw [if_pos h2, if_pos (Or.inr h2), h01, select_one]
    · rw [if_neg h2, if_neg (not_or.2 ⟨h1, h2⟩), h00, select_zero]

/-- The block read at natural-number coordinates that are a row's and two coordinates' values. -/
private theorem rd3_at (x : Cube Ideal) (a b d : Fin 64) (n : ℕ) (hn : n = a.val) :
    rd3 (n0 := 64) (n1 := 64) (n2 := 64) x n b.val d.val = x (ix3 a b d) := by
  subst hn
  exact rd3_of_lt x a.isLt b.isLt d.isLt
private theorem rd3_at1 (x : Cube Ideal) (a b d : Fin 64) (n : ℕ) (hn : n = b.val) :
    rd3 (n0 := 64) (n1 := 64) (n2 := 64) x a.val n d.val = x (ix3 a b d) := by
  subst hn
  exact rd3_of_lt x a.isLt b.isLt d.isLt
private theorem rd3_at2 (x : Cube Ideal) (a b d : Fin 64) (n : ℕ) (hn : n = d.val) :
    rd3 (n0 := 64) (n1 := 64) (n2 := 64) x a.val b.val n = x (ix3 a b d) := by
  subst hn
  exact rd3_of_lt x a.isLt b.isLt d.isLt

/-! ## The six face payloads at an index, for any coordinate words -/

/-- Row 63 along the first axis, masked. -/
private theorem pay2_apply (va vb : BitVec 32) (x : Cube Ideal) (p q : Fin 64) :
    k0_pay2 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 (63 : Fin 64) p q)) := by
  unfold k0_pay2 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S1x64x64 ![63, 0, 0] x slices_S64x64x64_o63_0_0_S1x64x64)
        shapeCasts_S1x64x64_S64x64 (ix2 p q)) = _
  rw [iota_single_apply, iota_single_apply, Ideal.ofBits_zero_f32, shapeCast_1ab_ab_apply,
    slice3_row0_apply 63 x _ 0 p q 63 rfl]

/-- Row 0 along the first axis, masked. -/
private theorem pay3_apply (va vb : BitVec 32) (x : Cube Ideal) (p q : Fin 64) :
    k0_pay3 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 (0 : Fin 64) p q)) := by
  unfold k0_pay3 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S1x64x64 ![0, 0, 0] x slices_S64x64x64_o0_0_0_S1x64x64)
        shapeCasts_S1x64x64_S64x64 (ix2 p q)) = _
  rw [iota_single_apply, iota_single_apply, Ideal.ofBits_zero_f32, shapeCast_1ab_ab_apply,
    slice3_row0_apply 0 x _ 0 p q 0 rfl]

/-- Row 63 along the second axis, masked. -/
private theorem pay4_apply (va vb : BitVec 32) (x : Cube Ideal) (p q : Fin 64) :
    k0_pay4 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 p (63 : Fin 64) q)) := by
  unfold k0_pay4 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S64x1x64 ![0, 63, 0] x slices_S64x64x64_o0_63_0_S64x1x64)
        shapeCasts_S64x1x64_S64x64 (ix2 p q)) = _
  rw [iota_single_apply, iota_single_apply, Ideal.ofBits_zero_f32, shapeCast_a1b_ab_apply,
    slice3_row1_apply 63 x _ p 0 q 63 rfl]

/-- Row 0 along the second axis, masked. -/
private theorem pay5_apply (va vb : BitVec 32) (x : Cube Ideal) (p q : Fin 64) :
    k0_pay5 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 p (0 : Fin 64) q)) := by
  unfold k0_pay5 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S64x1x64 ![0, 0, 0] x slices_S64x64x64_o0_0_0_S64x1x64)
        shapeCasts_S64x1x64_S64x64 (ix2 p q)) = _
  rw [iota_single_apply, iota_single_apply, Ideal.ofBits_zero_f32, shapeCast_a1b_ab_apply,
    slice3_row1_apply 0 x _ p 0 q 0 rfl]

/-- Row 63 along the third axis, masked. -/
private theorem pay6_apply (va vb : BitVec 32) (x : Cube Ideal) (p q : Fin 64) :
    k0_pay6 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 p q (63 : Fin 64))) := by
  unfold k0_pay6 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S64x64x1 ![0, 0, 63] x slices_S64x64x64_o0_0_63_S64x64x1)
        shapeCasts_S64x64x1_S64x64 (ix2 p q)) = _
  rw [iota_single_apply, iota_single_apply, Ideal.ofBits_zero_f32, shapeCast_ab1_ab_apply,
    slice3_row2_apply 63 x _ p q 0 63 rfl]

/-- Row 0 along the third axis, masked. -/
private theorem pay7_apply (va vb : BitVec 32) (x : Cube Ideal) (p q : Fin 64) :
    k0_pay7 (F := Ideal) va vb x (ix2 p q)
      = msk (IntOp.cmpi .eq (BitVec.ofNat 32 p.val) (Scalar.muli va 63#32))
          (IntOp.cmpi .eq (BitVec.ofNat 32 q.val) (Scalar.muli vb 63#32)) (x (ix3 p q (0 : Fin 64))) := by
  unfold k0_pay7 k0_pay1 msk
  simp only [shapeCast_self, select_apply, broadcast_apply]
  show Scalar.select (IntOp.ori
      (IntOp.cmpi .eq (iota .tc S64x64 32 [0] iota_S64x64_d0_w32 (ix2 p q)) (Scalar.muli va 63#32))
      (IntOp.cmpi .eq (iota .tc S64x64 32 [1] iota_S64x64_d1_w32 (ix2 p q)) (Scalar.muli vb 63#32)))
      (Ideal.ofBits .f32 0x00000000#32)
      (shapeCast S64x64 (extractStridedSlice S64x64x1 ![0, 0, 0] x slices_S64x64x64_o0_0_0_S64x64x1)
        shapeCasts_S64x64x1_S64x64 (ix2 p q)) = _
  rw [iota_single_apply, iota_single_apply, Ideal.ofBits_zero_f32, shapeCast_ab1_ab_apply,
    slice3_row2_apply 0 x _ p q 0 0 rfl]

/-! ## The three sent faces and the six face updates -/

/-- The face sent along the first axis: the block's interior row `63 − 63 · mx`, zero where `j` or `k` is on the global boundary. -/
theorem faceX_apply (c : Dev nD) (x : Cube Ideal) (j k : Fin 64) :
    faceX (F := Ideal) c x (ix2 j k) = if j.val = 63 * my c ∨ k.val = 63 * mz c then 0 else rd3 (n0 := 64) (n1 := 64) (n2 := 64) x (63 - 63 * mx c) j.val k.val := by
  unfold faceX
  have hm := mx_of_wx c
  by_cases h0 : wx c = 0#32
  · rw [if_pos h0] at hm ⊢
    rw [pay2_apply, wy_eq, wz_eq, msk_bnd _ _ (my_lt c) (mz_lt c), rd3_at x 63 j k _ (by rw [hm]; rfl)]
  · rw [if_neg h0] at hm ⊢
    rw [pay3_apply, wy_eq, wz_eq, msk_bnd _ _ (my_lt c) (mz_lt c), rd3_at x 0 j k _ (by rw [hm]; rfl)]
theorem faceY_apply (c : Dev nD) (x : Cube Ideal) (i k : Fin 64) :
    faceY (F := Ideal) c x (ix2 i k) = if i.val = 63 * mx c ∨ k.val = 63 * mz c then 0 else rd3 (n0 := 64) (n1 := 64) (n2 := 64) x i.val (63 - 63 * my c) k.val := by
  unfold faceY
  have hm := my_of_wy c
  by_cases h0 : wy c = 0#32
  · rw [if_pos h0] at hm ⊢
    rw [pay4_apply, wx_eq, wz_eq, msk_bnd _ _ (mx_lt c) (mz_lt c), rd3_at1 x i 63 k _ (by rw [hm]; rfl)]
  · rw [if_neg h0] at hm ⊢
    rw [pay5_apply, wx_eq, wz_eq, msk_bnd _ _ (mx_lt c) (mz_lt c), rd3_at1 x i 0 k _ (by rw [hm]; rfl)]
theorem faceZ_apply (c : Dev nD) (x : Cube Ideal) (i j : Fin 64) :
    faceZ (F := Ideal) c x (ix2 i j) = if i.val = 63 * mx c ∨ j.val = 63 * my c then 0 else rd3 (n0 := 64) (n1 := 64) (n2 := 64) x i.val j.val (63 - 63 * mz c) := by
  unfold faceZ
  have hm := mz_of_wz c
  by_cases h0 : wz c = 0#32
  · rw [if_pos h0] at hm ⊢
    rw [pay6_apply, wx_eq, wy_eq, msk_bnd _ _ (mx_lt c) (my_lt c), rd3_at2 x i j 63 _ (by rw [hm]; rfl)]
  · rw [if_neg h0] at hm ⊢
    rw [pay7_apply, wx_eq, wy_eq, msk_bnd _ _ (mx_lt c) (my_lt c), rd3_at2 x i j 0 _ (by rw [hm]; rfl)]

/-- A face update: the row read back plus the received face. -/
theorem pay17_apply (a : Vec Ideal S1x64x64 .f32) (h : Face Ideal) (j k : Fin 64) :
    k0_pay17 (F := Ideal) a h (ix3 (0 : Fin 1) j k) = a (ix3 (0 : Fin 1) j k) + h (ix2 j k) := by
  unfold k0_pay17
  simp only [shapeCast_self, addf_apply]
  rw [shapeCast_ab_1ab_apply]
theorem pay18_apply (a : Vec Ideal S1x64x64 .f32) (h : Face Ideal) (j k : Fin 64) :
    k0_pay18 (F := Ideal) a h (ix3 (0 : Fin 1) j k) = a (ix3 (0 : Fin 1) j k) + h (ix2 j k) := by
  unfold k0_pay18
  simp only [shapeCast_self, addf_apply]
  rw [shapeCast_ab_1ab_apply]
theorem pay19_apply (a : Vec Ideal S64x1x64 .f32) (h : Face Ideal) (i k : Fin 64) :
    k0_pay19 (F := Ideal) a h (ix3 i (0 : Fin 1) k) = a (ix3 i (0 : Fin 1) k) + h (ix2 i k) := by
  unfold k0_pay19
  simp only [shapeCast_self, addf_apply]
  rw [shapeCast_ab_a1b_apply]
theorem pay20_apply (a : Vec Ideal S64x1x64 .f32) (h : Face Ideal) (i k : Fin 64) :
    k0_pay20 (F := Ideal) a h (ix3 i (0 : Fin 1) k) = a (ix3 i (0 : Fin 1) k) + h (ix2 i k) := by
  unfold k0_pay20
  simp only [shapeCast_self, addf_apply]
  rw [shapeCast_ab_a1b_apply]
theorem pay21_apply (a : Vec Ideal S64x64x1 .f32) (h : Face Ideal) (i j : Fin 64) :
    k0_pay21 (F := Ideal) a h (ix3 i j (0 : Fin 1)) = a (ix3 i j (0 : Fin 1)) + h (ix2 i j) := by
  unfold k0_pay21
  simp only [shapeCast_self, addf_apply]
  rw [shapeCast_ab_ab1_apply]
theorem pay22_apply (a : Vec Ideal S64x64x1 .f32) (h : Face Ideal) (i j : Fin 64) :
    k0_pay22 (F := Ideal) a h (ix3 i j (0 : Fin 1)) = a (ix3 i j (0 : Fin 1)) + h (ix2 i j) := by
  unfold k0_pay22
  simp only [shapeCast_self, addf_apply]
  rw [shapeCast_ab_ab1_apply]

end Cert.KernelIdeal.Halo

end
-- ==== Proof.OutValue.lean ====
/-
  The device's output block read at an index, over the extended reals: the slab values, then the three face updates.
-/
import proofs.«900808_g7700000000000809_dist_halo3d_v7x_xyz2x2x2_s64_f32_1_alg».proof.Proof.SlabValue
import proofs.«900808_g7700000000000809_dist_halo3d_v7x_xyz2x2x2_s64_f32_1_alg».proof.Proof.FaceValue

noncomputable section

namespace Cert.KernelIdeal.Halo

open Cert.KernelIdeal Cert.KernelIdeal.Gen Cert.Halo.Spec
open Idealize.ShloMosaic Idealize.ShloMosaic.ValueIdx

/-! ## A store and a load through a unit-stride rectangle of the block, read at an index -/

/-- A point whose coordinates are the rectangle's offsets plus a local index's is that local index placed in the block. -/
theorem unit_emb_eq {off size : Fin 3 → Nat} (inb : ∀ a, off a + size a ≤ S64x64x64.size a)
    (x : (Rect.unit (s := S64x64x64) off size inb).shape.Idx) (p : S64x64x64.Idx)
    (h : ∀ a, (p a).val = off a + (x a).val) : (Rect.unit (s := S64x64x64) off size inb).emb x = p := by
  funext a
  apply Fin.ext
  rw [Rect.emb_apply, h a]
  simp

/-- Inside the rectangle the stored block is read at the local index. -/
theorem stO_unit_mem {off size : Fin 3 → Nat} (inb : ∀ a, off a + size a ≤ S64x64x64.size a) (o : OC Ideal)
    (w : (Rect.unit (s := S64x64x64) off size inb).shape.Idx → Elt Ideal .f32)
    (x : (Rect.unit (s := S64x64x64) off size inb).shape.Idx) (p : S64x64x64.Idx)
    (h : ∀ a, (p a).val = off a + (x a).val) :
    stO (F := Ideal) (Rect.unit (s := S64x64x64) off size inb) o w p = w x := by
  rw [← unit_emb_eq inb x p h]
  unfold stO
  exact View.write_emb_of_mem (v := oM.access (Rect.unit (s := S64x64x64) off size inb)) (Val := Elt Ideal) o w
    (M := Finset.univ) (x := x) (Finset.mem_univ _)

/-- Outside the rectangle the store leaves the buffer as it was. -/
theorem stO_unit_not_mem {off size : Fin 3 → Nat} (inb : ∀ a, off a + size a ≤ S64x64x64.size a) (o : OC Ideal)
    (w : (Rect.unit (s := S64x64x64) off size inb).shape.Idx → Elt Ideal .f32) (p : S64x64x64.Idx)
    (h : ∃ a, (p a).val < off a ∨ off a + size a ≤ (p a).val) :
    stO (F := Ideal) (Rect.unit (s := S64x64x64) off size inb) o w p = o p := by
  unfold stO
  apply View.write_of_not_mem
  rw [View.setOn_univ, View.set_slice_whole, Rect.mem_set_unit]
  intro hall
  obtain ⟨a, ha⟩ := h
  have := hall a
  omega

/-- A load through the rectangle reads the buffer at the offsets plus the local index. -/
theorem ldO_unit {off size : Fin 3 → Nat} (inb : ∀ a, off a + size a ≤ S64x64x64.size a) (o : OC Ideal)
    (x : (Rect.unit (s := S64x64x64) off size inb).shape.Idx) (p : S64x64x64.Idx)
    (h : ∀ a, (p a).val = off a + (x a).val) :
    ldO (F := Ideal) (Rect.unit (s := S64x64x64) off size inb) o x = o p := by
  rw [← unit_emb_eq inb x p h]
  rfl

/-- The three coordinate conditions, one per axis. -/
theorem forall_fin3 {P : Fin 3 → Prop} (h0 : P 0) (h1 : P 1) (h2 : P 2) : ∀ a, P a :=
  fun a => match a with | ⟨0, _⟩ => h0 | ⟨1, _⟩ => h1 | ⟨2, _⟩ => h2

/-! ## The devices of the 2 × 2 × 2 mesh -/

theorem wx_zero_iff (c : Dev nD) : wx c = 0#32 ↔ mx c = 0 := by revert c; decide
theorem wy_zero_iff (c : Dev nD) : wy c = 0#32 ↔ my c = 0 := by revert c; decide
theorem wz_zero_iff (c : Dev nD) : wz c = 0#32 ↔ mz c = 0 := by revert c; decide
theorem mx_cases (c : Dev nD) : mx c = 0 ∨ mx c = 1 := by revert c; decide
theorem my_cases (c : Dev nD) : my c = 0 ∨ my c = 1 := by revert c; decide
theorem mz_cases (c : Dev nD) : mz c = 0 ∨ mz c = 1 := by revert c; decide
/-- The first-axis neighbour keeps the other two coordinates and its facing row is row `63 · mx c`. -/
theorem nbX_facts (c : Dev nD) : my (nbX c) = my c ∧ mz (nbX c) = mz c ∧ 63 - 63 * mx (nbX c) = 63 * mx c := by
  revert c; decide
theorem nbY_facts (c : Dev nD) : mx (nbY c) = mx c ∧ mz (nbY c) = mz c ∧ 63 - 63 * my (nbY c) = 63 * my c := by
  revert c; decide
theorem nbZ_facts (c : Dev nD) : mx (nbZ c) = mx c ∧ my (nbZ c) = my c ∧ 63 - 63 * mz (nbZ c) = 63 * mz c := by
  revert c; decide

/-! ## The two slab stores -/

/-- After the two slab stores the block holds the masked local stencil at every point: rows below 32 come from the
    first store (the second does not reach them), rows from 32 up from the second. -/
theorem slabs_apply (c : Dev nD) (x : Cube Ideal) (i j k : Fin 64) :
    slabs (F := Ideal) c o00 x (ix3 i j k)
      = if onBnd c i.val j.val k.val then 0 else sten (n0 := 64) (n1 := 64) (n2 := 64) x i.val j.val k.val := by
  unfold slabs
  by_cases hi : i.val < 32
  · refine (stO_unit_not_mem inb_S64x64x64_S32x64x64_32_0_0 _ _ (ix3 i j k) ⟨0, Or.inl hi⟩).trans ?_
    refine (stO_unit_mem inb_S64x64x64_S32x64x64_0_0_0 _ _ (ix3 (⟨i.val, hi⟩ : Fin 32) j k) (ix3 i j k)
      (forall_fin3 (Nat.zero_add _).symm (Nat.zero_add _).symm (Nat.zero_add _).symm)).trans ?_
    exact slabLo_apply c x ⟨i.val, hi⟩ j k
  · have hi' : i.val - 32 < 32 := by have := i.isLt; omega
    refine (stO_unit_mem inb_S64x64x64_S32x64x64_32_0_0 _ _ (ix3 (⟨i.val - 32, hi'⟩ : Fin 32) j k) (ix3 i j k)
      (forall_fin3 (show i.val = 32 + (i.val - 32) by omega) (Nat.zero_add _).symm (Nat.zero_add _).symm)).trans ?_
    refine (slabHi_apply c x ⟨i.val - 32, hi'⟩ j k).trans ?_
    have e : i.val - 32 + 32 = i.val := by omega
    show (if onBnd c (i.val - 32 + 32) j.val k.val then (0 : EReal)
      else sten (n0 := 64) (n1 := 64) (n2 := 64) x (i.val - 32 + 32) j.val k.val) = _
    rw [e]

/-! ## The three face updates -/

/-- The first-axis update adds the received face onto the interior face row `63 − 63 · mx c` and leaves every other
    row as it was. -/
theorem addX_apply (c : Dev nD) (o : Cube Ideal) (h : Face Ideal) (i j k : Fin 64) :
    addX (F := Ideal) c o h (ix3 i j k) = o (ix3 i j k) + (if i.val = 63 - 63 * mx c then h (ix2 j k) else 0) := by
  unfold addX
  by_cases hw : wx c = 0#32
  · have hm : mx c = 0 := (wx_zero_iff c).mp hw
    rw [if_pos hw, hm]
    by_cases hi : i.val = 63
    · rw [if_pos (by omega)]
      refine (stO_unit_mem inb_S64x64x64_S1x64x64_63_0_0 _ _ (ix3 (0 : Fin 1) j k) (ix3 i j k)
        (forall_fin3 hi (Nat.zero_add _).symm (Nat.zero_add _).symm)).trans ?_
      refine (pay17_apply _ h j k).trans ?_
      congr 1
      exact ldO_unit inb_S64x64x64_S1x64x64_63_0_0 o (ix3 (0 : Fin 1) j k) (ix3 i j k)
        (forall_fin3 hi (Nat.zero_add _).symm (Nat.zero_add _).symm)
    · rw [if_neg (by omega), add_zero]
      exact stO_unit_not_mem inb_S64x64x64_S1x64x64_63_0_0 _ _ (ix3 i j k)
        ⟨0, Or.inl (by have := i.isLt; show i.val < 63; omega)⟩
  · have hm : mx c = 1 := (mx_cases c).resolve_left (fun h0 => hw ((wx_zero_iff c).mpr h0))
    rw [if_neg hw, hm]
    by_cases hi : i.val = 0
    · rw [if_pos (by omega)]
      refine (stO_unit_mem inb_S64x64x64_S1x64x64_0_0_0 _ _ (ix3 (0 : Fin 1) j k) (ix3 i j k)
        (forall_fin3 hi (Nat.zero_add _).symm (Nat.zero_add _).symm)).trans ?_
      refine (pay18_apply _ h j k).trans ?_
      congr 1
      exact ldO_unit inb_S64x64x64_S1x64x64_0_0_0 o (ix3 (0 : Fin 1) j k) (ix3 i j k)
        (forall_fin3 hi (Nat.zero_add _).symm (Nat.zero_add _).symm)
    · rw [if_neg (by omega), add_zero]
      exact stO_unit_not_mem inb_S64x64x64_S1x64x64_0_0_0 _ _ (ix3 i j k)
        ⟨0, Or.inr (show 0 + 1 ≤ i.val by omega)⟩

/-- The second-axis update adds the received face onto row `63 − 63 · my c` of the second axis. -/
theorem addY_apply (c : Dev nD) (o : Cube Ideal) (h : Face Ideal) (i j k : Fin 64) :
    addY (F := Ideal) c o h (ix3 i j k) = o (ix3 i j k) + (if j.val = 63 - 63 * my c then h (ix2 i k) else 0) := by
  unfold addY
  by_cases hw : wy c = 0#32
  · have hm : my c = 0 := (wy_zero_iff c).mp hw
    rw [if_pos hw, hm]
    by_cases hj : j.val = 63
    · rw [if_pos (by omega)]
      refine (stO_unit_mem inb_S64x64x64_S64x1x64_0_63_0 _ _ (ix3 i (0 : Fin 1) k) (ix3 i j k)
        (forall_fin3 (Nat.zero_add _).symm hj (Nat.zero_add _).symm)).trans ?_
      refine (pay19_apply _ h i k).trans ?_
      congr 1
      exact ldO_unit inb_S64x64x64_S64x1x64_0_63_0 o (ix3 i (0 : Fin 1) k) (ix3 i j k)
        (forall_fin3 (Nat.zero_add _).symm hj (Nat.zero_add _).symm)
    · rw [if_neg (by omega), add_zero]
      exact stO_unit_not_mem inb_S64x64x64_S64x1x64_0_63_0 _ _ (ix3 i j k)
        ⟨1, Or.inl (by have := j.isLt; show j.val < 63; omega)⟩
  · have hm : my c = 1 := (my_cases c).resolve_left (fun h0 => hw ((wy_zero_iff c).mpr h0))
    rw [if_neg hw, hm]
    by_cases hj : j.val = 0
    · rw [if_pos (by omega)]
      refine (stO_unit_mem inb_S64x64x64_S64x1x64_0_0_0 _ _ (ix3 i (0 : Fin 1) k) (ix3 i j k)
        (forall_fin3 (Nat.zero_add _).symm hj (Nat.zero_add _).symm)).trans ?_
      refine (pay20_apply _ h i k).trans ?_
      congr 1
      exact ldO_unit inb_S64x64x64_S64x1x64_0_0_0 o (ix3 i (0 : Fin 1) k) (ix3 i j k)
        (forall_fin3 (Nat.zero_add _).symm hj (Nat.zero_add _).symm)
    · rw [if_neg (by omega), add_zero]
      exact stO_unit_not_mem inb_S64x64x64_S64x1x64_0_0_0 _ _ (ix3 i j k)
        ⟨1, Or.inr (show 0 + 1 ≤ j.val by omega)⟩

/-- The third-axis update adds the received face onto row `63 − 63 · mz c` of the third axis. -/
theorem addZ_apply (c : Dev nD) (o : Cube Ideal) (h : Face Ideal) (i j k : Fin 64) :
    addZ (F := Ideal) c o h (ix3 i j k) = o (ix3 i j k) + (if k.val = 63 - 63 * mz c then h (ix2 i j) else 0) := by
  unfold addZ
  by_cases hw : wz c = 0#32
  · have hm : mz c = 0 := (wz_zero_iff c).mp hw
    rw [if_pos hw, hm]
    by_cases hk : k.val = 63
    · rw [if_pos (by omega)]
      refine (stO_unit_mem inb_S64x64x64_S64x64x1_0_0_63 _ _ (ix3 i j (0 : Fin 1)) (ix3 i j k)
        (forall_fin3 (Nat.zero_add _).symm (Nat.zero_add _).symm hk)).trans ?_
      refine (pay21_apply _ h i j).trans ?_
      congr 1
      exact ldO_unit inb_S64x64x64_S64x64x1_0_0_63 o (ix3 i j (0 : Fin 1)) (ix3 i j k)
        (forall_fin3 (Nat.zero_add _).symm (Nat.zero_add _).symm hk)
    · rw [if_neg (by omega), add_zero]
      exact stO_unit_not_mem inb_S64x64x64_S64x64x1_0_0_63 _ _ (ix3 i j k)
        ⟨2, Or.inl (by have := k.isLt; show k.val < 63; omega)⟩
  · have hm : mz c = 1 := (mz_cases c).resolve_left (fun h0 => hw ((wz_zero_iff c).mpr h0))
    rw [if_neg hw, hm]
    by_cases hk : k.val = 0
    · rw [if_pos (by omega)]
      refine (stO_unit_mem inb_S64x64x64_S64x64x1_0_0_0 _ _ (ix3 i j (0 : Fin 1)) (ix3 i j k)
        (forall_fin3 (Nat.zero_add _).symm (Nat.zero_add _).symm hk)).trans ?_
      refine (pay22_apply _ h i j).trans ?_
      congr 1
      exact ldO_unit inb_S64x64x64_S64x64x1_0_0_0 o (ix3 i j (0 : Fin 1)) (ix3 i j k)
        (forall_fin3 (Nat.zero_add _).symm (Nat.zero_add _).symm hk)
    · rw [if_neg (by omega), add_zero]
      exact stO_unit_not_mem inb_S64x64x64_S64x64x1_0_0_0 _ _ (ix3 i j k)
        ⟨2, Or.inr (show 0 + 1 ≤ k.val by omega)⟩

/-! ## The received faces -/

/-- The face the first-axis neighbour sends is the entry the specification adds on the first-axis interior face. -/
theorem faceX_nb (c : Dev nD) (X : Dev nD → Cube Ideal) (j k : Fin 64) :
    faceX (F := Ideal) (nbX c) (X (nbX c)) (ix2 j k) = hX c X j.val k.val := by
  obtain ⟨e1, e2, e3⟩ := nbX_facts c
  rw [faceX_apply, e1, e2, e3]
  rfl

theorem faceY_nb (c : Dev nD) (X : Dev nD → Cube Ideal) (i k : Fin 64) :
    faceY (F := Ideal) (nbY c) (X (nbY c)) (ix2 i k) = hY c X i.val k.val := by
  obtain ⟨e1, e2, e3⟩ := nbY_facts c
  rw [faceY_apply, e1, e2, e3]
  rfl

theorem faceZ_nb (c : Dev nD) (X : Dev nD → Cube Ideal) (i j : Fin 64) :
    faceZ (F := Ideal) (nbZ c) (X (nbZ c)) (ix2 i j) = hZ c X i.val j.val := by
  obtain ⟨e1, e2, e3⟩ := nbZ_facts c
  rw [faceZ_apply, e1, e2, e3]
  rfl

/-- The output block at `(i, j, k)` is the per-device formula. -/
theorem outAt_apply (c : Dev nD) (X : Dev nD → Cube Ideal) (i j k : Fin 64) :
    outAt (F := Ideal) c X (ix3 i j k) = devOut c X i.val j.val k.val := by
  unfold outAt devOut
  refine (addZ_apply c _ _ i j k).trans ?_
  rw [faceZ_nb]
  congr 1
  refine (addY_apply c _ _ i j k).trans ?_
  rw [faceY_nb]
  congr 1
  refine (addX_apply c _ _ i j k).trans ?_
  rw [faceX_nb]
  congr 1
  exact slabs_apply c (X c) i j k

end Cert.KernelIdeal.Halo

end
-- ==== Proof.Join.lean ====
/-
  The per-device formula over blocks of one whole array is the device's block of the whole-array stencil.
-/
import proofs.«900808_g7700000000000809_dist_halo3d_v7x_xyz2x2x2_s64_f32_1_alg».proof.Proof.DevSpec
import Idealize.ShloMosaic.Lib.Layout

noncomputable section

namespace Cert.KernelIdeal.Halo

open Cert.KernelIdeal Cert.KernelIdeal.Gen Cert.Halo.Spec
open Idealize.ShloMosaic Idealize.ShloMosaic.ValueIdx

namespace Join

/-- Each mesh coordinate of a device is 0 or 1. -/
theorem mx_le (c : Dev nD) : mx c ≤ 1 := by revert c; decide
theorem my_le (c : Dev nD) : my c ≤ 1 := by revert c; decide
theorem mz_le (c : Dev nD) : mz c ≤ 1 := by revert c; decide

/-- The block a device holds along each axis is its mesh coordinate on that axis. -/
theorem mesh0 (c : Dev nD) : Layout.meshLin [2, 2, 2] c.val [0] = mx c := by revert c; decide
theorem mesh1 (c : Dev nD) : Layout.meshLin [2, 2, 2] c.val [1] = my c := by revert c; decide
theorem mesh2 (c : Dev nD) : Layout.meshLin [2, 2, 2] c.val [2] = mz c := by revert c; decide

/-- Device `c`'s block at the local point `(i, j, k)` is the whole array at `(64·mx c + i, 64·my c + j, 64·mz c + k)`. -/
theorem block_at (v : SW.Idx → EReal) (c : Dev nD) (i j k : Fin 64) :
    (Layout.blockN ⟨3, ![64, 64, 64]⟩ ⟨3, ![128, 128, 128]⟩ (Layout.meshBlock [2, 2, 2] ![[0], [1], [2]] c) v) (ix3 i j k)
      = rd3 v (64 * mx c + i.val) (64 * my c + j.val) (64 * mz c + k.val) := by
  have hx := mx_le c
  have hy := my_le c
  have hz := mz_le c
  rw [rd3_of_lt v (by omega) (by omega) (by omega)]
  rw [Layout.blockN_apply]
  congr 1
  funext b
  match b with
  | ⟨0, _⟩ =>
    apply Fin.ext
    rw [Layout.TilesN.idx_val]
    show Layout.meshLin [2, 2, 2] c.val [0] * 64 + i.val = 64 * mx c + i.val
    rw [mesh0]; omega
  | ⟨1, _⟩ =>
    apply Fin.ext
    rw [Layout.TilesN.idx_val]
    show Layout.meshLin [2, 2, 2] c.val [1] * 64 + j.val = 64 * my c + j.val
    rw [mesh1]; omega
  | ⟨2, _⟩ =>
    apply Fin.ext
    rw [Layout.TilesN.idx_val]
    show Layout.meshLin [2, 2, 2] c.val [2] * 64 + k.val = 64 * mz c + k.val
    rw [mesh2]; omega

/-- A block read at natural-number coordinates is the whole array read at the shifted coordinates. -/
theorem rd3_block (u : SW.Idx → EReal) (c : Dev nD) (a b d : ℕ) :
    rd3 (Layout.blockN ⟨3, ![64, 64, 64]⟩ ⟨3, ![128, 128, 128]⟩ (Layout.meshBlock [2, 2, 2] ![[0], [1], [2]] c) u) a b d
      = if a < 64 ∧ b < 64 ∧ d < 64 then rd3 u (64 * mx c + a) (64 * my c + b) (64 * mz c + d) else 0 := by
  by_cases h : a < 64 ∧ b < 64 ∧ d < 64
  · rw [if_pos h, rd3_of_lt _ h.1 h.2.1 h.2.2]
    exact block_at u c ⟨a, h.1⟩ ⟨b, h.2.1⟩ ⟨d, h.2.2⟩
  · rw [if_neg h]; exact dif_neg h

/-- The neighbour across an axis has that mesh coordinate flipped and the other two unchanged. -/
theorem nbX_m (c : Dev nD) : mx (nbX c) = 1 - mx c ∧ my (nbX c) = my c ∧ mz (nbX c) = mz c := by
  revert c; decide +kernel
theorem nbY_m (c : Dev nD) : mx (nbY c) = mx c ∧ my (nbY c) = 1 - my c ∧ mz (nbY c) = mz c := by
  revert c; decide +kernel
theorem nbZ_m (c : Dev nD) : mx (nbZ c) = mx c ∧ my (nbZ c) = my c ∧ mz (nbZ c) = 1 - mz c := by
  revert c; decide +kernel

/-- One axis: the two in-block neighbours (zero outside the block) plus the facing entry of the neighbouring block
    on the interior face are the two neighbours in the whole array. -/
theorem axis_join (f g : ℕ → EReal) (h : EReal) (m i : ℕ) (hm : m ≤ 1) (hi : i < 64) (hb : i ≠ 63 * m)
    (hg : ∀ a, g a = if a < 64 then f (64 * m + a) else 0) (hh : h = f (64 * (1 - m) + 63 * m)) :
    dn g i + g (i + 1) + (if i = 63 - 63 * m then h else 0) = dn f (64 * m + i) + f (64 * m + i + 1) := by
  rcases Nat.le_one_iff_eq_zero_or_eq_one.mp hm with rfl | rfl
  · have hi0 : 0 < i := by omega
    simp only [dn, hg, hh]
    rw [if_pos hi0, if_pos (by omega : 0 < 64 * 0 + i), if_pos (by omega : i - 1 < 64)]
    by_cases h63 : i = 63
    · subst h63
      simp
    · rw [if_pos (by omega : i + 1 < 64), if_neg (by omega)]
      simp
  · simp only [dn, hg, hh]
    rw [if_pos (by omega : 0 < 64 * 1 + i), if_pos (by omega : i + 1 < 64)]
    by_cases h0 : i = 0
    · subst h0
      simp [add_comm]
    · rw [if_pos (by omega : 0 < i), if_pos (by omega : i - 1 < 64), if_neg (by omega)]
      have e : 64 * 1 + (i - 1) = 64 * 1 + i - 1 := by omega
      have e2 : 64 * 1 + (i + 1) = 64 * 1 + i + 1 := by omega
      rw [e, e2, add_zero]

/-- The local stencil sum plus the three face terms, regrouped axis by axis (addition on the extended reals is
    commutative and associative; a difference is the sum with the negative). -/
theorem rearr (a1 a2 a3 a4 a5 a6 s fx fy fz : EReal) :
    a1 + a2 + a3 + a4 + a5 + a6 - s + fx + fy + fz = (a1 + a2 + fx) + (a3 + a4 + fy) + (a5 + a6 + fz) - s := by
  simp only [sub_eq_add_neg]; ac_rfl

/-- The stated equation at natural-number local coordinates below 64: on the global boundary both sides are `0`
    (every face term is masked or off its face); off it, each axis contributes the two global neighbours. -/
theorem devOut_nat (u : SW.Idx → EReal) (X : Dev nD → SB.Idx → EReal)
    (hXb : ∀ c' : Dev nD, X c' = Layout.blockN ⟨3, ![64, 64, 64]⟩ ⟨3, ![128, 128, 128]⟩ (Layout.meshBlock [2, 2, 2] ![[0], [1], [2]] c') u)
    (c : Dev nD) (i j k : ℕ) (hi : i < 64) (hj : j < 64) (hk : k < 64) :
    devOut c X i j k
      = if interior (64 * mx c + i) (64 * my c + j) (64 * mz c + k)
          then sten u (64 * mx c + i) (64 * my c + j) (64 * mz c + k) else 0 := by
  have hmx := mx_le c
  have hmy := my_le c
  have hmz := mz_le c
  have hint : interior (64 * mx c + i) (64 * my c + j) (64 * mz c + k) ↔ ¬ onBnd c i j k := by
    unfold Cert.Halo.Spec.interior onBnd
    omega
  unfold devOut
  by_cases hb : onBnd c i j k
  · have hni : ¬ Cert.Halo.Spec.interior (64 * mx c + i) (64 * my c + j) (64 * mz c + k) := fun h => (hint.mp h) hb
    rw [if_pos hb, if_neg hni]
    unfold onBnd at hb
    have fx : (if i = 63 - 63 * mx c then hX c X j k else 0) = 0 := by
      unfold hX
      by_cases h1 : i = 63 - 63 * mx c
      · rw [if_pos h1, if_pos (by omega)]
      · rw [if_neg h1]
    have fy : (if j = 63 - 63 * my c then hY c X i k else 0) = 0 := by
      unfold hY
      by_cases h1 : j = 63 - 63 * my c
      · rw [if_pos h1, if_pos (by omega)]
      · rw [if_neg h1]
    have fz : (if k = 63 - 63 * mz c then hZ c X i j else 0) = 0 := by
      unfold hZ
      by_cases h1 : k = 63 - 63 * mz c
      · rw [if_pos h1, if_pos (by omega)]
      · rw [if_neg h1]
    rw [fx, fy, fz, add_zero, add_zero, add_zero]
  · rw [if_neg hb, if_pos (hint.mpr hb)]
    unfold onBnd at hb
    have hbi : i ≠ 63 * mx c := fun h => hb (Or.inl h)
    have hbj : j ≠ 63 * my c := fun h => hb (Or.inr (Or.inl h))
    have hbk : k ≠ 63 * mz c := fun h => hb (Or.inr (Or.inr h))
    have e1 : ∀ (c' : Dev nD) (a b d : ℕ), rd3 (X c') a b d
        = if a < 64 ∧ b < 64 ∧ d < 64 then rd3 u (64 * mx c' + a) (64 * my c' + b) (64 * mz c' + d) else 0 := by
      intro c' a b d; rw [hXb c']; exact rd3_block u c' a b d
    have ax := axis_join (fun a => rd3 u a (64 * my c + j) (64 * mz c + k)) (fun a => rd3 (X c) a j k)
      (hX c X j k) (mx c) i hmx hi hbi
      (by
        intro a
        show rd3 (X c) a j k = if a < 64 then rd3 u (64 * mx c + a) (64 * my c + j) (64 * mz c + k) else 0
        rw [e1]
        by_cases ha : a < 64
        · rw [if_pos ⟨ha, hj, hk⟩, if_pos ha]
        · rw [if_neg (fun h => ha h.1), if_neg ha])
      (by
        show hX c X j k = rd3 u (64 * (1 - mx c) + 63 * mx c) (64 * my c + j) (64 * mz c + k)
        unfold hX
        obtain ⟨n1, n2, n3⟩ := nbX_m c
        rw [if_neg (by omega), e1, if_pos ⟨by omega, hj, hk⟩, n1, n2, n3])
    have ay := axis_join (fun b => rd3 u (64 * mx c + i) b (64 * mz c + k)) (fun b => rd3 (X c) i b k)
      (hY c X i k) (my c) j hmy hj hbj
      (by
        intro a
        show rd3 (X c) i a k = if a < 64 then rd3 u (64 * mx c + i) (64 * my c + a) (64 * mz c + k) else 0
        rw [e1]
        by_cases ha : a < 64
        · rw [if_pos ⟨hi, ha, hk⟩, if_pos ha]
        · rw [if_neg (fun h => ha h.2.1), if_neg ha])
      (by
        show hY c X i k = rd3 u (64 * mx c + i) (64 * (1 - my c) + 63 * my c) (64 * mz c + k)
        unfold hY
        obtain ⟨n1, n2, n3⟩ := nbY_m c
        rw [if_neg (by omega), e1, if_pos ⟨hi, by omega, hk⟩, n1, n2, n3])
    have az := axis_join (fun d => rd3 u (64 * mx c + i) (64 * my c + j) d) (fun d => rd3 (X c) i j d)
      (hZ c X i j) (mz c) k hmz hk hbk
      (by
        intro a
        show rd3 (X c) i j a = if a < 64 then rd3 u (64 * mx c + i) (64 * my c + j) (64 * mz c + a) else 0
        rw [e1]
        by_cases ha : a < 64
        · rw [if_pos ⟨hi, hj, ha⟩, if_pos ha]
        · rw [if_neg (fun h => ha h.2.2), if_neg ha])
      (by
        show hZ c X i j = rd3 u (64 * mx c + i) (64 * my c + j) (64 * (1 - mz c) + 63 * mz c)
        unfold hZ
        obtain ⟨n1, n2, n3⟩ := nbZ_m c
        rw [if_neg (by omega), e1, if_pos ⟨hi, hj, by omega⟩, n1, n2, n3])
    have ce : rd3 (X c) i j k = rd3 u (64 * mx c + i) (64 * my c + j) (64 * mz c + k) := by
      rw [e1, if_pos ⟨hi, hj, hk⟩]
    beta_reduce at ax ay az
    unfold sten
    rw [rearr, ax, ay, az, ce]
    simp only [add_assoc]

end Join

/-- With every device's input its block of `u`, device `c`'s formula at a local point is the whole-array stencil at the
    matching global point. -/
theorem devOut_eq_block (u : SW.Idx → EReal) (X : Dev nD → SB.Idx → EReal)
    (hX : ∀ c' : Dev nD, X c' = Layout.blockN ⟨3, ![64, 64, 64]⟩ ⟨3, ![128, 128, 128]⟩ (Layout.meshBlock [2, 2, 2] ![[0], [1], [2]] c') u)
    (c : Dev nD) (i j k : Fin 64) :
    devOut c X i.val j.val k.val
      = (Layout.blockN ⟨3, ![64, 64, 64]⟩ ⟨3, ![128, 128, 128]⟩ (Layout.meshBlock [2, 2, 2] ![[0], [1], [2]] c) (lap u)) (ix3 i j k) := by
  have hmx := Join.mx_le c
  have hmy := Join.my_le c
  have hmz := Join.mz_le c
  have hi := i.isLt
  have hj := j.isLt
  have hk := k.isLt
  rw [Join.block_at (lap u) c i j k, rd3_of_lt (lap u) (by omega) (by omega) (by omega)]
  exact Join.devOut_nat u X hX c i.val j.val k.val hi hj hk

end Cert.KernelIdeal.Halo

end
-- ==== Proof.RefValue.lean ====
/-
  The reference's run: its result array is the whole-array stencil of its argument.
-/
import proofs.«900808_g7700000000000809_dist_halo3d_v7x_xyz2x2x2_s64_f32_1_alg».proof.Defs
import proofs.«900808_g7700000000000809_dist_halo3d_v7x_xyz2x2x2_s64_f32_1_alg».proof.Proof.Gen.ReferenceIdeal
import proofs.«900808_g7700000000000809_dist_halo3d_v7x_xyz2x2x2_s64_f32_1_alg».proof.Proof.Gen.ReferenceIdeal.Run
import proofs.«900808_g7700000000000809_dist_halo3d_v7x_xyz2x2x2_s64_f32_1_alg».proof.Proof.Gen.ReferenceIdeal.Read
import proofs.«900808_g7700000000000809_dist_halo3d_v7x_xyz2x2x2_s64_f32_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.ReferenceIdeal.RefValue

open Cert.ReferenceIdeal Cert.ReferenceIdeal.Gen Cert.Halo.Spec
open Idealize.ShloMosaic Idealize.ShloMosaic.TcCoe Idealize.SL.Sem Idealize.ShloMosaic.ValueIdx

/-- A property of the accumulator that every step of a fold preserves holds at its end. -/
theorem foldl_inv {β κ : Type} (step : β → κ → β) (P : β → Prop) (l : List κ)
    (hP : ∀ r n, n ∈ l → P r → P (step r n)) (x : β) (hx : P x) : P (l.foldl step x) := by
  induction l generalizing x with
  | nil => exact hx
  | cons a l ih =>
    rw [List.foldl_cons]
    exact ih (fun r n hn => hP r n (List.mem_cons_of_mem a hn)) _ (hP x a List.mem_cons_self hx)

/-- A property that every step preserves and that some step of the list establishes holds at the fold's end. -/
theorem foldl_est {β κ : Type} (step : β → κ → β) (P : β → Prop) (l : List κ)
    (hP : ∀ r n, n ∈ l → P r → P (step r n)) (n₀ : κ) (hn₀ : n₀ ∈ l) (h₀ : ∀ r, P (step r n₀)) (x : β) :
    P (l.foldl step x) := by
  induction l generalizing x with
  | nil => exact absurd hn₀ List.not_mem_nil
  | cons a l ih =>
    rw [List.foldl_cons]
    rcases List.mem_cons.1 hn₀ with h | h
    · subst h
      exact foldl_inv step P l (fun r n hn => hP r n (List.mem_cons_of_mem _ hn)) _ (h₀ x)
    · exact ih (fun r n hn => hP r n (List.mem_cons_of_mem a hn)) h _

/-- The reference's scatter: the update's three axes are window axes, its one start index names the operand's three axes. -/
abbrev D := scatter_S128x128x128_S3_S126x126x126_012_n_012_0

theorem window_eq (j : S126x126x126.Idx) (a : Fin 3) : D.window j a = (j a).val := by
  match a with
  | ⟨0, _⟩ => rfl
  | ⟨1, _⟩ => rfl
  | ⟨2, _⟩ => rfl

theorem start_eq (j : S126x126x126.Idx) (idx : IVec S3 32) (hidx : ∀ k, idx k = 1#32) (a : Fin 3) : D.start j idx a = 1 := by
  unfold ScatterDims.start
  split
  · rw [hidx]; rfl
  · rename_i h
    exact absurd (by revert a; decide) h

/-- The start-index vector: the three constants `1` joined. -/
theorem idx_one (k : S3.Idx) :
    (concatenate S3 0 [⟨S1, (broadcastInDim S1 ![] bcast_S_S1 (constantI S_ 32 1#32))⟩, ⟨S1, (broadcastInDim S1 ![] bcast_S_S1 (constantI S_ 32 1#32))⟩, ⟨S1, (broadcastInDim S1 ![] bcast_S_S1 (constantI S_ 32 1#32))⟩] concatenates_S1_S1_S1_S3_d0 : IVec S3 32) k = 1#32 := by
  rw [eq_ix1 k]
  generalize k 0 = c
  revert c
  decide

/-- An update element lands one step up along every axis: always inside the operand. -/
theorem resultIdx_eq (idx : IVec S3 32) (hidx : ∀ k, idx k = 1#32) (a b c : Fin 126) :
    D.resultIdx? (ix3 a b c) idx
      = some (ix3 (⟨a.val + 1, by omega⟩ : Fin 128) (⟨b.val + 1, by omega⟩ : Fin 128) (⟨c.val + 1, by omega⟩ : Fin 128)) := by
  have hs : ∀ x, D.start (ix3 a b c) idx x = 1 := start_eq _ idx hidx
  have hw : ∀ x, D.window (ix3 a b c) x = ((ix3 a b c : S126x126x126.Idx) x).val := window_eq _
  have ha : a.val < 126 := a.isLt
  have hb : b.val < 126 := b.isLt
  have hc : c.val < 126 := c.isLt
  unfold ScatterDims.resultIdx?
  rw [dif_pos (by
    intro x; rw [hs, hw]
    match x with
    | ⟨0, _⟩ => exact ⟨by show (0:Int) ≤ 1 + (a.val : Int); omega, by show (1:Int) + (a.val : Int) < ((128 : Nat) : Int); omega⟩
    | ⟨1, _⟩ => exact ⟨by show (0:Int) ≤ 1 + (b.val : Int); omega, by show (1:Int) + (b.val : Int) < ((128 : Nat) : Int); omega⟩
    | ⟨2, _⟩ => exact ⟨by show (0:Int) ≤ 1 + (c.val : Int); omega, by show (1:Int) + (c.val : Int) < ((128 : Nat) : Int); omega⟩)]
  refine congrArg some (funext fun x => Fin.ext ?_)
  show (D.start (ix3 a b c) idx x + (D.window (ix3 a b c) x : Int)).toNat = _
  rw [hs, hw]
  match x with
  | ⟨0, _⟩ => show ((1:Int) + (a.val : Int)).toNat = a.val + 1; omega
  | ⟨1, _⟩ => show ((1:Int) + (b.val : Int)).toNat = b.val + 1; omega
  | ⟨2, _⟩ => show ((1:Int) + (c.val : Int)).toNat = c.val + 1; omega

theorem ix3_eq_iff {n0 n1 n2 : Nat} (i i' : Fin n0) (j j' : Fin n1) (k k' : Fin n2) :
    ix3 i j k = ix3 i' j' k' ↔ i = i' ∧ j = j' ∧ k = k' :=
  ⟨fun h => ⟨congrFun h 0, congrFun h 1, congrFun h 2⟩, fun ⟨h0, h1, h2⟩ => by rw [h0, h1, h2]⟩

/-- A fold whose every step either overwrites the accumulator's element at the point `p` (step `n` with `C n`, by `v n`) or
    leaves that element alone, read at `p`: the common value `y` of the overwriting steps, or the start's element when
    there is none. -/
theorem foldl_point {ι κ α : Type} (step : (ι → α) → κ → (ι → α)) (p : ι) (C : κ → Prop) [DecidablePred C] (v : κ → α)
    (key : ∀ r n, step r n p = if C n then v n else r p) (l : List κ) (x : ι → α) (y : α)
    (hv : ∀ n ∈ l, C n → v n = y) (hmiss : (∀ n ∈ l, ¬ C n) → x p = y) : l.foldl step x p = y := by
  by_cases hex : ∃ n ∈ l, C n
  · obtain ⟨n₀, hn₀, hC⟩ := hex
    refine foldl_est step (fun r => r p = y) l (fun r n hn hr => ?_) n₀ hn₀ (fun r => ?_) x
    · show step r n p = y
      rw [key]
      split
      · exact hv n hn ‹_›
      · exact hr
    · show step r n₀ p = y
      rw [key, if_pos hC]
      exact hv n₀ hn₀ hC
  · have hm : ∀ n ∈ l, ¬ C n := fun n hn hc => hex ⟨n, hn, hc⟩
    rw [← hmiss hm]
    refine foldl_inv step (fun r => r p = x p) l (fun r n hn hr => ?_) x rfl
    show step r n p = x p
    rw [key, if_neg (hm n hn)]
    exact hr

/-- The scatter read at a point: an interior point holds the update one step down along every axis, a boundary point the
    operand's element. -/
theorem scatter_apply {α : Type} (x : S128x128x128.Idx → α) (idx : IVec S3 32) (hidx : ∀ k, idx k = 1#32)
    (upd : S126x126x126.Idx → α) (i j k : Fin 128) :
    Host.scatter D (fun _ b => b) x idx upd (ix3 i j k)
      = if h : (1 ≤ i.val ∧ i.val ≤ 126) ∧ (1 ≤ j.val ∧ j.val ≤ 126) ∧ (1 ≤ k.val ∧ k.val ≤ 126) then
          upd (ix3 (⟨i.val - 1, by omega⟩ : Fin 126) (⟨j.val - 1, by omega⟩ : Fin 126) (⟨k.val - 1, by omega⟩ : Fin 126))
        else x (ix3 i j k) := by
  unfold Host.scatter
  refine foldl_point _ (ix3 i j k)
    (fun n => i.val = ((S126x126x126.rowMajor.symm n) 0).val + 1 ∧ j.val = ((S126x126x126.rowMajor.symm n) 1).val + 1
      ∧ k.val = ((S126x126x126.rowMajor.symm n) 2).val + 1)
    (fun n => upd (S126x126x126.rowMajor.symm n)) ?key _ x _ ?hv ?hmiss
  case key =>
    intro r n
    dsimp only
    generalize S126x126x126.rowMajor.symm n = J
    obtain ⟨a, b, c, rfl⟩ : ∃ (a b c : Fin 126), J = ix3 a b c := ⟨J 0, J 1, J 2, eq_ix3 J⟩
    rw [resultIdx_eq idx hidx a b c]
    dsimp only
    refine if_congr ?_ rfl rfl
    rw [ix3_eq_iff]
    exact and_congr Fin.ext_iff (and_congr Fin.ext_iff Fin.ext_iff)
  case hv =>
    intro n _ he
    dsimp only at he ⊢
    generalize S126x126x126.rowMajor.symm n = J at he ⊢
    obtain ⟨a, b, c, rfl⟩ : ∃ (a b c : Fin 126), J = ix3 a b c := ⟨J 0, J 1, J 2, eq_ix3 J⟩
    have h0 : i.val = a.val + 1 := he.1
    have h1 : j.val = b.val + 1 := he.2.1
    have h2 : k.val = c.val + 1 := he.2.2
    have ha : a.val < 126 := a.isLt
    have hb : b.val < 126 := b.isLt
    have hc : c.val < 126 := c.isLt
    rw [dif_pos ⟨⟨by omega, by omega⟩, ⟨by omega, by omega⟩, ⟨by omega, by omega⟩⟩]
    refine congrArg upd ((ix3_eq_iff _ _ _ _ _ _).2 ⟨Fin.ext ?_, Fin.ext ?_, Fin.ext ?_⟩)
    · show a.val = i.val - 1; omega
    · show b.val = j.val - 1; omega
    · show c.val = k.val - 1; omega
  case hmiss =>
    intro hm
    by_cases h : (1 ≤ i.val ∧ i.val ≤ 126) ∧ (1 ≤ j.val ∧ j.val ≤ 126) ∧ (1 ≤ k.val ∧ k.val ≤ 126)
    · exfalso
      refine hm (S126x126x126.rowMajor (ix3 (⟨i.val - 1, by omega⟩ : Fin 126) (⟨j.val - 1, by omega⟩ : Fin 126) (⟨k.val - 1, by omega⟩ : Fin 126)))
        (List.mem_finRange _) ?_
      dsimp only
      rw [Equiv.symm_apply_apply]
      refine ⟨?_, ?_, ?_⟩
      · show i.val = (i.val - 1) + 1; omega
      · show j.val = (j.val - 1) + 1; omega
      · show k.val = (k.val - 1) + 1; omega
    · rw [dif_neg h]

/-- A function of a coordinate read one step down, at a positive coordinate. -/
theorem dn_pos (f : ℕ → EReal) {i : ℕ} (h : 0 < i) : dn f i = f (i - 1) := if_pos h

/-- An element of the whole array is the array read at its natural-number coordinates. -/
theorem read_eq_rd3 (u : S128x128x128.Idx → EReal) (I : S128x128x128.Idx) (a b c : ℕ)
    (h0 : (I 0).val = a) (h1 : (I 1).val = b) (h2 : (I 2).val = c) (ha : a < 128) (hb : b < 128) (hc : c < 128) :
    u I = rd3 u a b c := by
  rw [rd3_of_lt u ha hb hc, eq_ix3 I]
  exact congrArg u ((ix3_eq_iff _ _ _ _ _ _).2 ⟨Fin.ext h0, Fin.ext h1, Fin.ext h2⟩)

/-- The update array at a point is the stencil one step up along every axis. -/
theorem upd_apply (u : (⟨S128x128x128, .f32⟩ : BufTy).Contents (Elt Ideal)) (i j k : Fin 128)
    (h : (1 ≤ i.val ∧ i.val ≤ 126) ∧ (1 ≤ j.val ∧ j.val ≤ 126) ∧ (1 ≤ k.val ∧ k.val ≤ 126)) :
    Read.val_main_v15 (F := Ideal) u
        (ix3 (⟨i.val - 1, by omega⟩ : Fin 126) (⟨j.val - 1, by omega⟩ : Fin 126) (⟨k.val - 1, by omega⟩ : Fin 126))
      = sten u i.val j.val k.val := by
  have hi : i.val < 128 := i.isLt
  have hj : j.val < 128 := j.isLt
  have hk : k.val < 128 := k.isLt
  generalize hJ : (ix3 (⟨i.val - 1, by omega⟩ : Fin 126) (⟨j.val - 1, by omega⟩ : Fin 126) (⟨k.val - 1, by omega⟩ : Fin 126) : S126x126x126.Idx) = J
  have J0 : (J 0).val = i.val - 1 := by rw [← hJ]
  have J1 : (J 1).val = j.val - 1 := by rw [← hJ]
  have J2 : (J 2).val = k.val - 1 := by rw [← hJ]
  have e1 : u (Read.idx_main_v1 J) = rd3 u (i.val - 1) j.val k.val :=
    read_eq_rd3 u _ _ _ _ (by show (J 0).val = _; omega) (by show 1 + (J 1).val = _; omega) (by show 1 + (J 2).val = _; omega)
      (by omega) hj hk
  have e2 : u (Read.idx_main_v2 J) = rd3 u (i.val + 1) j.val k.val :=
    read_eq_rd3 u _ _ _ _ (by show 2 + (J 0).val = _; omega) (by show 1 + (J 1).val = _; omega) (by show 1 + (J 2).val = _; omega)
      (by omega) hj hk
  have e4 : u (Read.idx_main_v4 J) = rd3 u i.val (j.val - 1) k.val :=
    read_eq_rd3 u _ _ _ _ (by show 1 + (J 0).val = _; omega) (by show (J 1).val = _; omega) (by show 1 + (J 2).val = _; omega)
      hi (by omega) hk
  have e6 : u (Read.idx_main_v6 J) = rd3 u i.val (j.val + 1) k.val :=
    read_eq_rd3 u _ _ _ _ (by show 1 + (J 0).val = _; omega) (by show 2 + (J 1).val = _; omega) (by show 1 + (J 2).val = _; omega)
      hi (by omega) hk
  have e8 : u (Read.idx_main_v8 J) = rd3 u i.val j.val (k.val - 1) :=
    read_eq_rd3 u _ _ _ _ (by show 1 + (J 0).val = _; omega) (by show 1 + (J 1).val = _; omega) (by show (J 2).val = _; omega)
      hi hj (by omega)
  have e10 : u (Read.idx_main_v10 J) = rd3 u i.val j.val (k.val + 1) :=
    read_eq_rd3 u _ _ _ _ (by show 1 + (J 0).val = _; omega) (by show 1 + (J 1).val = _; omega) (by show 2 + (J 2).val = _; omega)
      hi hj (by omega)
  have e12 : u (Read.idx_main_v12 J) = rd3 u i.val j.val k.val :=
    read_eq_rd3 u _ _ _ _ (by show 1 + (J 0).val = _; omega) (by show 1 + (J 1).val = _; omega) (by show 1 + (J 2).val = _; omega)
      hi hj hk
  rw [Read.val_main_v15_apply, Read.val_main_v11_apply, Read.val_main_v9_apply, Read.val_main_v7_apply, Read.val_main_v5_apply,
    Read.val_main_v3_apply, Read.val_main_v14_apply, Read.val_main_v13_apply, Read.val_main_cst_0_apply,
    Read.val_main_v1_apply, Read.val_main_v2_apply, Read.val_main_v4_apply, Read.val_main_v6_apply, Read.val_main_v8_apply,
    Read.val_main_v10_apply, Read.val_main_v12_apply, e1, e2, e4, e6, e8, e10, e12]
  unfold sten
  rw [dn_pos _ (show 0 < i.val by omega), dn_pos _ (show 0 < j.val by omega), dn_pos _ (show 0 < k.val by omega)]
  rfl

/-- The reference's result array, as the operations compose it, is the stencil of its argument. -/
theorem val_lap (u : (⟨S128x128x128, .f32⟩ : BufTy).Contents (Elt Ideal)) : Read.val_main_v20 (F := Ideal) u = lap u := by
  funext g
  obtain ⟨i, j, k, rfl⟩ : ∃ (i j k : Fin 128), g = ix3 i j k := ⟨g 0, g 1, g 2, eq_ix3 g⟩
  unfold Read.val_main_v20
  refine (scatter_apply _ _ idx_one _ i j k).trans ?_
  show _ = if interior i.val j.val k.val then sten u i.val j.val k.val else 0
  by_cases h : (1 ≤ i.val ∧ i.val ≤ 126) ∧ (1 ≤ j.val ∧ j.val ≤ 126) ∧ (1 ≤ k.val ∧ k.val ≤ 126)
  · rw [dif_pos h, if_pos (show interior i.val j.val k.val from h)]
    exact upd_apply u i j k h
  · rw [dif_neg h, if_neg (show ¬ interior i.val j.val k.val from h), Read.val_main_v0_apply, Read.val_main_cst_apply, Ideal.ofBits_def]
    exact Ideal.ofBits_zero_f32
/-- Every weakly fair execution of the reference terminates with its result the stencil of its argument, the argument
    unchanged. -/
theorem run_lap (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v20) = lap (m (((0 : Dev nD).tc : Thread nD τ).loc main_arg0))
      ∧ r.2.mem (((0 : Dev nD).tc : Thread nD τ).loc main_arg0) = m (((0 : Dev nD).tc : Thread nD τ).loc main_arg0)) :=
  (θ_run (defs (F := Ideal)) _ _).mono
    (fun r h => ⟨((h 0).1.trans (Read.val_main_v20_eq _)).trans (val_lap _), (h 0).2⟩)
    (Value.run (F := Ideal) m g)

end Cert.ReferenceIdeal.RefValue

end
-- ==== Proof.Claims.lean ====
/-
  The claims over the idealized programs: the idealized kernel's frame and the reference's from their runs, and the
  algebraic claim — each device's output block is its block of the whole-array stencil — from the kernel's run with its
  output named, the per-device formula at an index, the join of the blocks, and the reference's run.
-/
import proofs.«900808_g7700000000000809_dist_halo3d_v7x_xyz2x2x2_s64_f32_1_alg».proof.Defs
import proofs.«900808_g7700000000000809_dist_halo3d_v7x_xyz2x2x2_s64_f32_1_alg».proof.Proof.Gen.KernelIdeal
import proofs.«900808_g7700000000000809_dist_halo3d_v7x_xyz2x2x2_s64_f32_1_alg».proof.Proof.Gen.ReferenceIdeal
import proofs.«900808_g7700000000000809_dist_halo3d_v7x_xyz2x2x2_s64_f32_1_alg».proof.Proof.Gen.Pre_finite_inputs_Kernel
import proofs.«900808_g7700000000000809_dist_halo3d_v7x_xyz2x2x2_s64_f32_1_alg».proof.Proof.Gen.Pre_finite_inputs_ReferenceIdeal
import proofs.«900808_g7700000000000809_dist_halo3d_v7x_xyz2x2x2_s64_f32_1_alg».proof.Proof.Launch
import proofs.«900808_g7700000000000809_dist_halo3d_v7x_xyz2x2x2_s64_f32_1_alg».proof.Proof.FinalOut
import proofs.«900808_g7700000000000809_dist_halo3d_v7x_xyz2x2x2_s64_f32_1_alg».proof.Proof.OutValue
import proofs.«900808_g7700000000000809_dist_halo3d_v7x_xyz2x2x2_s64_f32_1_alg».proof.Proof.Join
import proofs.«900808_g7700000000000809_dist_halo3d_v7x_xyz2x2x2_s64_f32_1_alg».proof.Proof.RefValue

noncomputable section

namespace Cert.Proof.HaloClaims

open Cert.KernelIdeal Cert.KernelIdeal.Gen Cert.KernelIdeal.Halo Cert.KernelIdeal.HaloProof Cert.Halo.Spec
open Idealize.ShloMosaic Idealize.ShloMosaic.TcCoe Idealize.SL.Sem Idealize.ShloMosaic.ValueIdx

/-- With every device's argument its block of `u`, a device's output block is its block of the stencil of `u`. -/
theorem out_eq_block (m : (ℓ : Loc nD τ sig) → Buf (Elt Ideal) ℓ) (ρ : Dev nD → PrngReg) (u : SW.Idx → EReal)
    (hu : ∀ c : Dev nD, m ((c.tc : Thread nD τ).loc main_arg0)
      = Layout.blockN ⟨3, ![64, 64, 64]⟩ ⟨3, ![128, 128, 128]⟩ (Layout.meshBlock [2, 2, 2] ![[0], [1], [2]] c) u)
    (c : Dev nD) :
    outAt (F := Ideal) c (X m ρ)
      = Layout.blockN ⟨3, ![64, 64, 64]⟩ ⟨3, ![128, 128, 128]⟩ (Layout.meshBlock [2, 2, 2] ![[0], [1], [2]] c) (lap u) := by
  funext y
  obtain ⟨i, j, k, rfl⟩ : ∃ (i j k : Fin 64), y = ix3 i j k := ⟨y 0, y 1, y 2, eq_ix3 y⟩
  have hXb : ∀ c' : Dev nD, X m ρ c'
      = Layout.blockN ⟨3, ![64, 64, 64]⟩ ⟨3, ![128, 128, 128]⟩ (Layout.meshBlock [2, 2, 2] ![[0], [1], [2]] c') u :=
    fun c' => (xstg_eq m ρ c').trans (hu c')
  exact (outAt_apply c (X m ρ) i j k).trans (devOut_eq_block u (X m ρ) hXb c i j k)

theorem frame_pi : Cert.frame_KernelIdeal := by
  intro m g _
  exact (θ_run (defs (F := Ideal)) _ _).mono (fun r h c => (h c 0).trans (arrAt_in m g c)) (run_main (F := Ideal) m g)

theorem frame_ri : Cert.frame_ReferenceIdeal := by
  intro m g _
  refine (θ_run (Cert.ReferenceIdeal.defs (F := Ideal)) _ _).mono (fun r h c => ?_) (Cert.ReferenceIdeal.RefValue.run_lap m g)
  have hlt : c.val < 1 := c.isLt
  have hc : c = 0 := Fin.ext (by show c.val = 0; omega)
  subst hc
  exact h.2

theorem preserves : Cert.preserves_Kernel_KernelIdeal := trivial

theorem algebraic : Cert.algebraic_KernelIdeal_ReferenceIdeal := by
  intro m g m' g' _ hagree
  refine ⟨lap (m' (((0 : Dev Cert.ReferenceIdeal.nD).tc : Thread Cert.ReferenceIdeal.nD Cert.ReferenceIdeal.τ).loc Cert.ReferenceIdeal.main_arg0)),
    ?_, Cert.ReferenceIdeal.RefValue.run_lap m' g'⟩
  exact (θ_run (defs (F := Ideal)) _ _).mono
    (fun r h c => ⟨(h c 1).trans ((arrAt_out m g c).trans (out_eq_block m g _ hagree c)), (h c 0).trans (arrAt_in m g c)⟩)
    (run_main (F := Ideal) m g)

end Cert.Proof.HaloClaims

end
-- ==== Proof.Word.Values.lean ====
/-
  The data a device's kernel instance computes, as pure terms of the devices' input blocks, generic in the float
  instance: the device's mesh coordinates as the words the body computes, its three face neighbours, the face it sends
  along each axis, the two half-slabs of the local stencil, and the output block after the three received faces have
  been added onto its interior faces.
-/
import proofs.«900808_g7700000000000809_dist_halo3d_v7x_xyz2x2x2_s64_f32_1_alg».proof.Proof.Gen.Kernel.Skeleton

noncomputable section

namespace Cert.Kernel.Halo

open Cert.Kernel Cert.Kernel.Gen
open Idealize.ShloMosaic Idealize.ShloMosaic.TcCoe Idealize.SL.Sem

variable {F : FTy → Type} [FloatOps F]

/-! ## The device's place on the 2 × 2 × 2 mesh -/

/-- The device's coordinate along the first mesh axis, as the body computes it from the device id. -/
def wx (c : Dev nD) : BitVec 32 := Scalar.remsi (Scalar.divsi (Dev.word c) 4#32) 2#32
/-- Its coordinate along the second axis. -/
def wy (c : Dev nD) : BitVec 32 := Scalar.remsi (Scalar.divsi (Dev.word c) 2#32) 2#32
/-- Its coordinate along the third axis. -/
def wz (c : Dev nD) : BitVec 32 := Scalar.remsi (Scalar.divsi (Dev.word c) 1#32) 2#32

/-- The neighbour across the face orthogonal to the first axis: the first coordinate flipped. -/
def nbX (c : Dev nD) : Dev nD := ⟨k0_dev1 c, k0_dev1_lt c⟩
/-- The neighbour with the second coordinate flipped. -/
def nbY (c : Dev nD) : Dev nD := ⟨k0_dev2 c, k0_dev2_lt c⟩
/-- The neighbour with the third coordinate flipped. -/
def nbZ (c : Dev nD) : Dev nD := ⟨k0_dev3 c, k0_dev3_lt c⟩

/-! ## Faces and slabs -/

/-- A device's input block. -/
abbrev Cube (F : FTy → Type) : Type := Vec F S64x64x64 .f32
/-- A face of it. -/
abbrev Face (F : FTy → Type) : Type := Vec F S64x64 .f32

/-- The face a device sends to its first-axis neighbour: its interior face orthogonal to that axis (row 63 on the
    low device, row 0 on the high one), zeroed where the other two coordinates lie on the global boundary. -/
def faceX (c : Dev nD) (x : Cube F) : FVec F S64x64 .f32 :=
  if wx c = 0#32 then k0_pay2 (wy c) (wz c) x else k0_pay3 (wy c) (wz c) x
def faceY (c : Dev nD) (x : Cube F) : FVec F S64x64 .f32 :=
  if wy c = 0#32 then k0_pay4 (wx c) (wz c) x else k0_pay5 (wx c) (wz c) x
def faceZ (c : Dev nD) (x : Cube F) : FVec F S64x64 .f32 :=
  if wz c = 0#32 then k0_pay6 (wx c) (wy c) x else k0_pay7 (wx c) (wy c) x

/-- The local stencil on rows 0 … 31 of the block (neighbours outside the block read as zero), zeroed on the global
    boundary. -/
def slabLo (c : Dev nD) (x : Cube F) : FVec F S32x64x64 .f32 :=
  k0_pay12 (Scalar.muli (wx c) 63#32) (Scalar.muli (wy c) 63#32) (Scalar.muli (wz c) 63#32)
    (k0_pay8 x) (k0_pay9 x) (k0_pay10 x) (k0_pay11 (F := F))
/-- The same on rows 32 … 63. -/
def slabHi (c : Dev nD) (x : Cube F) : FVec F S32x64x64 .f32 :=
  k0_pay16 (Scalar.muli (wx c) 63#32) (Scalar.muli (wy c) 63#32) (Scalar.muli (wz c) 63#32)
    (k0_pay13 (k0_pay1 x)) (k0_pay14 (k0_pay1 x)) (k0_pay15 (F := F))

/-! ## The output block -/

/-- The output block's staging buffer, and what it holds. -/
abbrev oM : Memref sig .tc .vmem S64x64x64 .f32 := Memref.whole cc0_stg1_0
abbrev OC (F : FTy → Type) : Type := (cc0_stg1_0 : Ref sig .tc).ty.Contents (Elt F)

abbrev rLo : Rect S64x64x64 := Rect.unit (s := S64x64x64) ![0, 0, 0] S32x64x64.size inb_S64x64x64_S32x64x64_0_0_0
abbrev rHi : Rect S64x64x64 := Rect.unit (s := S64x64x64) ![32, 0, 0] S32x64x64.size inb_S64x64x64_S32x64x64_32_0_0
abbrev rX63 : Rect S64x64x64 := Rect.unit (s := S64x64x64) ![63, 0, 0] S1x64x64.size inb_S64x64x64_S1x64x64_63_0_0
abbrev rX0 : Rect S64x64x64 := Rect.unit (s := S64x64x64) ![0, 0, 0] S1x64x64.size inb_S64x64x64_S1x64x64_0_0_0
abbrev rY63 : Rect S64x64x64 := Rect.unit (s := S64x64x64) ![0, 63, 0] S64x1x64.size inb_S64x64x64_S64x1x64_0_63_0
abbrev rY0 : Rect S64x64x64 := Rect.unit (s := S64x64x64) ![0, 0, 0] S64x1x64.size inb_S64x64x64_S64x1x64_0_0_0
abbrev rZ63 : Rect S64x64x64 := Rect.unit (s := S64x64x64) ![0, 0, 63] S64x64x1.size inb_S64x64x64_S64x64x1_0_0_63
abbrev rZ0 : Rect S64x64x64 := Rect.unit (s := S64x64x64) ![0, 0, 0] S64x64x1.size inb_S64x64x64_S64x64x1_0_0_0

/-- The buffer after a store of `w` through the rectangle `r`. -/
def stO (r : Rect S64x64x64) (o : OC F) (w : r.shape.Idx → Elt F .f32) : OC F :=
  (oM.access r).write (Elt F) o w Finset.univ
/-- What a load through the rectangle `r` reads of it. -/
def ldO (r : Rect S64x64x64) (o : OC F) : r.toLoadRect.shape.Idx → Elt F .f32 :=
  oM.view.readAt (Elt F) r.toLoadRect o

/-- The received first-axis face added onto the interior face orthogonal to that axis. -/
def addX (c : Dev nD) (o : OC F) (h : Face F) : OC F :=
  if wx c = 0#32 then stO rX63 o (k0_pay17 (ldO rX63 o) h) else stO rX0 o (k0_pay18 (ldO rX0 o) h)
def addY (c : Dev nD) (o : OC F) (h : Face F) : OC F :=
  if wy c = 0#32 then stO rY63 o (k0_pay19 (ldO rY63 o) h) else stO rY0 o (k0_pay20 (ldO rY0 o) h)
def addZ (c : Dev nD) (o : OC F) (h : Face F) : OC F :=
  if wz c = 0#32 then stO rZ63 o (k0_pay21 (ldO rZ63 o) h) else stO rZ0 o (k0_pay22 (ldO rZ0 o) h)

/-- A buffer of zeros: the contents the two slab stores overwrite (any would do: the slabs cover the block). -/
def o00 : OC F := fun _ => (Scalar.ofBits .f32 0x00000000#32 : F .f32)

/-- The block after the two slab stores. -/
def slabs (c : Dev nD) (o : OC F) (x : Cube F) : OC F := stO rHi (stO rLo o (slabLo c x)) (slabHi c x)

/-- The device's output block, from every device's input block: the local stencil, then the three neighbours' faces
    added in the order first, second, third axis. -/
def outAt (c : Dev nD) (X : Dev nD → Cube F) : OC F :=
  addZ c (addY c (addX c (slabs c o00 (X c)) (faceX (nbX c) (X (nbX c)))) (faceY (nbY c) (X (nbY c))))
    (faceZ (nbZ c) (X (nbZ c)))

end Cert.Kernel.Halo

end
-- ==== Proof.Word.Protocol.lean ====
/-
  The cross-device protocol of the halo exchange, under the rounds discipline.

  Each device owns seven semaphore cells: the runtime's barrier semaphore and, per mesh axis, a send and a receive
  DMA semaphore. One round each. The barrier cell's round has three duties of one unit, one per axis, paid by the
  neighbour across that axis on entry; what the neighbour's unit hands over is the neighbour's landing buffer for
  that axis and the fact that the neighbour stands at round 0 of its receive cell — exactly what a copy into that
  buffer needs. A receive cell's one duty is the neighbour's copy: it hands the owner its landing buffer holding the
  face the neighbour sent. A send cell's one duty is the device's own copy: it hands back the face buffer.

  A device waits on its barrier cell while it still owes the three copies: barrier cells sit at level 1, receive
  cells at level 2, everything else at level 0, so every wait is below what the waiter owes.
-/
import proofs.«900808_g7700000000000809_dist_halo3d_v7x_xyz2x2x2_s64_f32_1_alg».proof.Proof.Word.Values
import proofs.«900808_g7700000000000809_dist_halo3d_v7x_xyz2x2x2_s64_f32_1_alg».proof.Proof.Gen.Kernel.Launch
import proofs.«900808_g7700000000000809_dist_halo3d_v7x_xyz2x2x2_s64_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.HaloProof

open Cert.Kernel Cert.Kernel.Gen Cert.Kernel.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the mesh axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The neighbours -/

theorem nbX_nbX (c : Dev nD) : nbX (nbX c) = c := by revert c; decide +kernel
theorem nbY_nbY (c : Dev nD) : nbY (nbY c) = c := by revert c; decide +kernel
theorem nbZ_nbZ (c : Dev nD) : nbZ (nbZ c) = c := by revert c; decide +kernel

/-- The body's device chains: the three signals and the three copies address the three neighbours (the copies' chains are
    the signals', operation for operation). -/
theorem dev1_eq (c : Dev nD) : (⟨k0_dev1 c, k0_dev1_lt c⟩ : Dev nD) = nbX c := rfl
theorem dev2_eq (c : Dev nD) : (⟨k0_dev2 c, k0_dev2_lt c⟩ : Dev nD) = nbY c := rfl
theorem dev3_eq (c : Dev nD) : (⟨k0_dev3 c, k0_dev3_lt c⟩ : Dev nD) = nbZ c := rfl
theorem dev4_eq (c : Dev nD) : (⟨k0_dev4 c, k0_dev4_lt c⟩ : Dev nD) = nbX c := rfl
theorem dev5_eq (c : Dev nD) : (⟨k0_dev5 c, k0_dev5_lt c⟩ : Dev nD) = nbY c := rfl
theorem dev6_eq (c : Dev nD) : (⟨k0_dev6 c, k0_dev6_lt c⟩ : Dev nD) = nbZ c := rfl

def flipX : Dev nD ≃ Dev nD := ⟨nbX, nbX, nbX_nbX, nbX_nbX⟩
def flipY : Dev nD ≃ Dev nD := ⟨nbY, nbY, nbY_nbY, nbY_nbY⟩
def flipZ : Dev nD ≃ Dev nD := ⟨nbZ, nbZ, nbZ_nbZ, nbZ_nbZ⟩

/-! ## The buffers and the cells -/

abbrev xM : Memref sig .tc .vmem S64x64x64 .f32 := Memref.whole cc0_stg0_0
abbrev fxM : Memref sig .tc .vmem S64x64 .f32 := Memref.whole cc0_scratch0
abbrev fyM : Memref sig .tc .vmem S64x64 .f32 := Memref.whole cc0_scratch1
abbrev fzM : Memref sig .tc .vmem S64x64 .f32 := Memref.whole cc0_scratch2
abbrev hxM : Memref sig .tc .vmem S64x64 .f32 := Memref.whole cc0_scratch3
abbrev hyM : Memref sig .tc .vmem S64x64 .f32 := Memref.whole cc0_scratch4
abbrev hzM : Memref sig .tc .vmem S64x64 .f32 := Memref.whole cc0_scratch5

/-- The runtime's barrier semaphore of collective id 0, and the six DMA semaphores of the two scratch arrays. -/
abbrev barS : Sem sig := (SemArray.scalar (sig.barrier 0 rfl) : Sems sig S_).sem
abbrev sX : DmaSem sig := ((cc0_scratch6.slice (Rect.unit (s := S3) ![0] S1.size inb_S3_S1_0)).squeeze S_ squeezes_S1_S_).sem
abbrev sY : DmaSem sig := ((cc0_scratch6.slice (Rect.unit (s := S3) ![1] S1.size inb_S3_S1_1)).squeeze S_ squeezes_S1_S_).sem
abbrev sZ : DmaSem sig := ((cc0_scratch6.slice (Rect.unit (s := S3) ![2] S1.size inb_S3_S1_2)).squeeze S_ squeezes_S1_S_).sem
abbrev rX : DmaSem sig := ((cc0_scratch7.slice (Rect.unit (s := S3) ![0] S1.size inb_S3_S1_0)).squeeze S_ squeezes_S1_S_).sem
abbrev rY : DmaSem sig := ((cc0_scratch7.slice (Rect.unit (s := S3) ![1] S1.size inb_S3_S1_1)).squeeze S_ squeezes_S1_S_).sem
abbrev rZ : DmaSem sig := ((cc0_scratch7.slice (Rect.unit (s := S3) ![2] S1.size inb_S3_S1_2)).squeeze S_ squeezes_S1_S_).sem

abbrev barCell (c : Dev nD) : GSem nD τ sig := ((c : Thread nD τ), .reg barS)
abbrev dCell (q : DmaSem sig) (c : Dev nD) : GSem nD τ sig := ((c : Thread nD τ), .dma q)

/-- The kernel's own (scoped) semaphores, as the launch indexes them; -/
abbrev osem : Fin 6 → SemLoc sig := fun | 0 => .dma sX | 1 => .dma sY | 2 => .dma sZ | 3 => .dma rX | 4 => .dma rY | 5 => .dma rZ
/-- all seven of the protocol's. -/
abbrev csem : Fin 7 → SemLoc sig := fun | 0 => .reg barS | 1 => .dma sX | 2 => .dma sY | 3 => .dma sZ | 4 => .dma rX | 5 => .dma rY | 6 => .dma rZ
abbrev kcell (ck : Dev nD × Fin 7) : GSem nD τ sig := ((ck.1 : Thread nD τ), csem ck.2)

/-- A face's credit: the units a copy of one 64 × 64 face pays. -/
abbrev N : ℕ := (hxM : Memref sig .tc .vmem S64x64 .f32).view.dmaCredit
theorem N_pos : 0 < N := View.dmaCredit_pos _ (by decide)

/-! ## Contents -/

/-- Device `c`'s input block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The faces device `c` sends. -/
def fvX (c : Dev nD) : (cc0_scratch0 : Ref sig .tc).ty.Contents (Elt F) := faceX c (xstg m ρ c)
def fvY (c : Dev nD) : (cc0_scratch1 : Ref sig .tc).ty.Contents (Elt F) := faceY c (xstg m ρ c)
def fvZ (c : Dev nD) : (cc0_scratch2 : Ref sig .tc).ty.Contents (Elt F) := faceZ c (xstg m ρ c)

end Cert.Kernel.HaloProof

end
-- ==== Proof.Word.Schedule.lean ====
/-
  The schedule of the halo exchange's seven cells per device, its tables, what a device owes when the kernel is
  launched, and the levels that order the waits.
-/
import proofs.«900808_g7700000000000809_dist_halo3d_v7x_xyz2x2x2_s64_f32_1_alg».proof.Proof.Word.Protocol

noncomputable section

namespace Cert.Kernel.HaloProof

open Cert.Kernel Cert.Kernel.Gen Cert.Kernel.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- What the neighbour across axis `d` hands device `c` with its unit on `c`'s barrier cell: the neighbour's landing
    buffer for that axis, and that the neighbour stands at round 0 of its receive cell for that axis. -/
def barPay (c : Dev nD) (d : Fin 3) : sProp 𝕄 :=
  match d with
  | 0 => iprop((∃ f, (hxM.view.loc (nbX c : Thread nD τ) ↦[hxM.view.set]{fullShare} f)) ∗ reached ER (dCell rX (nbX c)) 0)
  | 1 => iprop((∃ f, (hyM.view.loc (nbY c : Thread nD τ) ↦[hyM.view.set]{fullShare} f)) ∗ reached ER (dCell rY (nbY c)) 0)
  | 2 => iprop((∃ f, (hzM.view.loc (nbZ c : Thread nD τ) ↦[hzM.view.set]{fullShare} f)) ∗ reached ER (dCell rZ (nbZ c)) 0)

/-- A landing: the landing buffer holds the face the neighbour sent. -/
def recvPayX (c : Dev nD) : sProp 𝕄 := (hxM.view.loc (c : Thread nD τ) ↦[hxM.view.set]{fullShare} fvX m ρ (nbX c))
def recvPayY (c : Dev nD) : sProp 𝕄 := (hyM.view.loc (c : Thread nD τ) ↦[hyM.view.set]{fullShare} fvY m ρ (nbY c))
def recvPayZ (c : Dev nD) : sProp 𝕄 := (hzM.view.loc (c : Thread nD τ) ↦[hzM.view.set]{fullShare} fvZ m ρ (nbZ c))
/-- A departure: the face buffer is the device's again, unchanged. -/
def sendPayX (c : Dev nD) : sProp 𝕄 := (fxM.view.loc (c : Thread nD τ) ↦[fxM.view.set]{fullShare} fvX m ρ c)
def sendPayY (c : Dev nD) : sProp 𝕄 := (fyM.view.loc (c : Thread nD τ) ↦[fyM.view.set]{fullShare} fvY m ρ c)
def sendPayZ (c : Dev nD) : sProp 𝕄 := (fzM.view.loc (c : Thread nD τ) ↦[fzM.view.set]{fullShare} fvZ m ρ c)

abbrev IsBar (g : GSem nD τ sig) : Prop := g.1.2 = .tc ∧ g.2 = .reg barS
abbrev IsXfer (g : GSem nD τ sig) : Prop :=
  g.1.2 = .tc ∧ (g.2 = .dma sX ∨ g.2 = .dma sY ∨ g.2 = .dma sZ ∨ g.2 = .dma rX ∨ g.2 = .dma rY ∨ g.2 = .dma rZ)

/-- One round, round 0: a barrier cell has three duties of one unit, a send or receive cell the duty `0` of a face's
    credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma rX then recvPayX m ρ g.1.1
    else if g.2 = .dma rY then recvPayY m ρ g.1.1
    else if g.2 = .dma rZ then recvPayZ m ρ g.1.1
    else if g.2 = .dma sX then sendPayX m ρ g.1.1
    else if g.2 = .dma sY then sendPayY m ρ g.1.1
    else if g.2 = .dma sZ then sendPayZ m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma rX then recvPayX m ρ g.1.1
    else if g.2 = .dma rY then recvPayY m ρ g.1.1
    else if g.2 = .dma rZ then recvPayZ m ρ g.1.1
    else if g.2 = .dma sX then sendPayX m ρ g.1.1
    else if g.2 = .dma sY then sendPayY m ρ g.1.1
    else if g.2 = .dma sZ then sendPayZ m ρ g.1.1
    else iprop(emp))
  unfold barPay recvPayX recvPayY recvPayZ sendPayX sendPayY sendPayZ
  (repeat' split) <;> infer_instance

/-! ## The schedule's tables -/

section Tables
variable (c : Dev nD)

theorem ne_bar (q : DmaSem sig) : (SemLoc.dma q : SemLoc sig) ≠ .reg barS := fun h => by cases h
theorem not_bar_d (q : DmaSem sig) : ¬ IsBar (dCell q c) := fun h => ne_bar q h.2

theorem duties_bar : (sched (F := F) m ρ).duties (barCell c) 0 = Finset.univ := by dsimp only [sched]; exact if_pos ⟨rfl, rfl, rfl⟩
theorem duties_xfer (q : DmaSem sig)
    (hq : (SemLoc.dma q : SemLoc sig) = .dma sX ∨ (SemLoc.dma q : SemLoc sig) = .dma sY ∨ (SemLoc.dma q : SemLoc sig) = .dma sZ
      ∨ (SemLoc.dma q : SemLoc sig) = .dma rX ∨ (SemLoc.dma q : SemLoc sig) = .dma rY ∨ (SemLoc.dma q : SemLoc sig) = .dma rZ) :
    (sched (F := F) m ρ).duties (dCell q c) 0 = {0} := by
  dsimp only [sched]; rw [if_neg (fun h => not_bar_d c q h.2)]; exact if_pos ⟨rfl, rfl, hq⟩
theorem duties_sX : (sched (F := F) m ρ).duties (dCell sX c) 0 = {0} := duties_xfer m ρ c sX (.inl rfl)
theorem duties_sY : (sched (F := F) m ρ).duties (dCell sY c) 0 = {0} := duties_xfer m ρ c sY (.inr (.inl rfl))
theorem duties_sZ : (sched (F := F) m ρ).duties (dCell sZ c) 0 = {0} := duties_xfer m ρ c sZ (.inr (.inr (.inl rfl)))
theorem duties_rX : (sched (F := F) m ρ).duties (dCell rX c) 0 = {0} := duties_xfer m ρ c rX (.inr (.inr (.inr (.inl rfl))))
theorem duties_rY : (sched (F := F) m ρ).duties (dCell rY c) 0 = {0} := duties_xfer m ρ c rY (.inr (.inr (.inr (.inr (.inl rfl)))))
theorem duties_rZ : (sched (F := F) m ρ).duties (dCell rZ c) 0 = {0} := duties_xfer m ρ c rZ (.inr (.inr (.inr (.inr (.inr rfl)))))
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_xfer (q : DmaSem sig) (d : Fin 3) : (sched (F := F) m ρ).amount (dCell q c) 0 d = N := by
  dsimp only [sched]; exact if_neg (ne_bar q)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_xfer (q : DmaSem sig) (hd : (sched (F := F) m ρ).duties (dCell q c) 0 = {0}) : (sched (F := F) m ρ).expect (dCell q c) 0 = N := by
  unfold Schedule.expect Schedule.amountOf; rw [hd, Finset.sum_singleton, amount_xfer]
theorem expect_sX : (sched (F := F) m ρ).expect (dCell sX c) 0 = N := expect_xfer m ρ c sX (duties_sX m ρ c)
theorem expect_sY : (sched (F := F) m ρ).expect (dCell sY c) 0 = N := expect_xfer m ρ c sY (duties_sY m ρ c)
theorem expect_sZ : (sched (F := F) m ρ).expect (dCell sZ c) 0 = N := expect_xfer m ρ c sZ (duties_sZ m ρ c)
theorem expect_rX : (sched (F := F) m ρ).expect (dCell rX c) 0 = N := expect_xfer m ρ c rX (duties_rX m ρ c)
theorem expect_rY : (sched (F := F) m ρ).expect (dCell rY c) 0 = N := expect_xfer m ρ c rY (duties_rY m ρ c)
theorem expect_rZ : (sched (F := F) m ρ).expect (dCell rZ c) 0 = N := expect_xfer m ρ c rZ (duties_rZ m ρ c)

theorem payload_bar (d : Fin 3) : (sched (F := F) m ρ).payload (barCell c) 0 d = barPay c d := by dsimp only [sched]; exact if_pos rfl
theorem payload_rX (d : Fin 3) : (sched (F := F) m ρ).payload (dCell rX c) 0 d = recvPayX m ρ c := by
  dsimp only [sched]; rw [if_neg (ne_bar _), if_pos rfl]
theorem payload_rY (d : Fin 3) : (sched (F := F) m ρ).payload (dCell rY c) 0 d = recvPayY m ρ c := by
  dsimp only [sched]; rw [if_neg (ne_bar _), if_neg (by decide), if_pos rfl]
theorem payload_rZ (d : Fin 3) : (sched (F := F) m ρ).payload (dCell rZ c) 0 d = recvPayZ m ρ c := by
  dsimp only [sched]; rw [if_neg (ne_bar _), if_neg (by decide), if_neg (by decide), if_pos rfl]
theorem payload_sX (d : Fin 3) : (sched (F := F) m ρ).payload (dCell sX c) 0 d = sendPayX m ρ c := by
  dsimp only [sched]; rw [if_neg (ne_bar _), if_neg (by decide), if_neg (by decide), if_neg (by decide), if_pos rfl]
theorem payload_sY (d : Fin 3) : (sched (F := F) m ρ).payload (dCell sY c) 0 d = sendPayY m ρ c := by
  dsimp only [sched]; rw [if_neg (ne_bar _), if_neg (by decide), if_neg (by decide), if_neg (by decide), if_neg (by decide), if_pos rfl]
theorem payload_sZ (d : Fin 3) : (sched (F := F) m ρ).payload (dCell sZ c) 0 d = sendPayZ m ρ c := by
  dsimp only [sched]; rw [if_neg (ne_bar _), if_neg (by decide), if_neg (by decide), if_neg (by decide), if_neg (by decide), if_neg (by decide), if_pos rfl]

end Tables

/-! ## What each device owes at launch; the levels -/

/-- Device `c` owes each neighbour's receive cell a face's credit and each neighbour's barrier cell one unit. -/
def O₃ (c : Dev nD) : CellTallies nD τ sig Unit :=
  tallyAt (dCell rX (nbX c)) () N + tallyAt (dCell rY (nbY c)) () N + tallyAt (dCell rZ (nbZ c)) () N
def O₀ (c : Dev nD) : CellTallies nD τ sig Unit :=
  O₃ c + tallyAt (barCell (nbZ c)) () 1 + tallyAt (barCell (nbY c)) () 1 + tallyAt (barCell (nbX c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma rX ∨ g.2 = .dma rY ∨ g.2 = .dma rZ then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = dCell rX (nbX c) ∨ g = dCell rY (nbY c) ∨ g = dCell rZ (nbZ c) ∨ g = barCell (nbZ c) ∨ g = barCell (nbY c) ∨ g = barCell (nbX c) := by
  unfold O₀ O₃ at h
  simp only [Pi.add_apply, Finsupp.add_apply, tallyAt_apply] at h
  by_contra hn
  simp only [not_or] at hn
  obtain ⟨h1, h2, h3, h4, h5, h6⟩ := hn
  rw [if_neg (fun h' => h1 h'.1), if_neg (fun h' => h2 h'.1), if_neg (fun h' => h3 h'.1), if_neg (fun h' => h4 h'.1),
    if_neg (fun h' => h5 h'.1), if_neg (fun h' => h6 h'.1)] at h
  exact Nat.lt_irrefl 0 h

theorem O₃_pos {c : Dev nD} {g : GSem nD τ sig} {u : Unit} (h : 0 < O₃ c g u) :
    g = dCell rX (nbX c) ∨ g = dCell rY (nbY c) ∨ g = dCell rZ (nbZ c) := by
  unfold O₃ at h
  simp only [Pi.add_apply, Finsupp.add_apply, tallyAt_apply] at h
  by_contra hn
  simp only [not_or] at hn
  obtain ⟨h1, h2, h3⟩ := hn
  rw [if_neg (fun h' => h1 h'.1), if_neg (fun h' => h2 h'.1), if_neg (fun h' => h3 h'.1)] at h
  exact Nat.lt_irrefl 0 h

theorem lv_bar (c : Dev nD) (u : Unit) : lv (barCell c) u = 1 := by dsimp only [lv]; rw [if_pos rfl]
theorem lv_rX (c : Dev nD) (u : Unit) : lv (dCell rX c) u = 2 := by dsimp only [lv]; rw [if_neg (ne_bar _), if_pos (.inl rfl)]
theorem lv_rY (c : Dev nD) (u : Unit) : lv (dCell rY c) u = 2 := by dsimp only [lv]; rw [if_neg (ne_bar _), if_pos (.inr (.inl rfl))]
theorem lv_rZ (c : Dev nD) (u : Unit) : lv (dCell rZ c) u = 2 := by dsimp only [lv]; rw [if_neg (ne_bar _), if_pos (.inr (.inr rfl))]

/-- A wait on a level-0 cell (a staging semaphore, a send semaphore) while owing what is owed at launch, or nothing. -/
theorem mayWait_stage (c : Dev nD) (q : DmaSem sig)
    (hq : ¬ ((SemLoc.dma q : SemLoc sig) = .dma rX ∨ (SemLoc.dma q : SemLoc sig) = .dma rY ∨ (SemLoc.dma q : SemLoc sig) = .dma rZ))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by rw [Finset.mem_singleton.mp hp]; dsimp only [lv]; rw [if_neg (ne_bar q), if_neg hq])
      (fun g u hg => by
        rcases O₀_pos hg with rfl | rfl | rfl | rfl | rfl | rfl
        · rw [lv_rX]; decide
        · rw [lv_rY]; decide
        · rw [lv_rZ]; decide
        · rw [lv_bar]; decide
        · rw [lv_bar]; decide
        · rw [lv_bar]; decide)
  · rw [MayWait_zero]; iintro -; iempintro

/-- At its barrier wait a device owes the three copies only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_rX]; decide
      · rw [lv_rY]; decide
      · rw [lv_rZ]; decide)

/-! ## The cells' payloads spelt out: the owner's reading, and the payer's (the neighbour of the neighbour resolved) -/

theorem payload_bar0 (c : Dev nD) : (sched (F := F) m ρ).payload (barCell c) 0 0
    = iprop((∃ f, (hxM.view.loc (nbX c : Thread nD τ) ↦[hxM.view.set]{fullShare} f)) ∗ reached ER (dCell rX (nbX c)) 0) := by rw [payload_bar]; rfl
theorem payload_bar1 (c : Dev nD) : (sched (F := F) m ρ).payload (barCell c) 0 1
    = iprop((∃ f, (hyM.view.loc (nbY c : Thread nD τ) ↦[hyM.view.set]{fullShare} f)) ∗ reached ER (dCell rY (nbY c)) 0) := by rw [payload_bar]; rfl
theorem payload_bar2 (c : Dev nD) : (sched (F := F) m ρ).payload (barCell c) 0 2
    = iprop((∃ f, (hzM.view.loc (nbZ c : Thread nD τ) ↦[hzM.view.set]{fullShare} f)) ∗ reached ER (dCell rZ (nbZ c)) 0) := by rw [payload_bar]; rfl

theorem payload_rX' (c : Dev nD) (d : Fin 3) : (sched (F := F) m ρ).payload (dCell rX c) 0 d = (hxM.view.loc (c : Thread nD τ) ↦[hxM.view.set]{fullShare} fvX m ρ (nbX c)) := payload_rX m ρ c d
theorem payload_rY' (c : Dev nD) (d : Fin 3) : (sched (F := F) m ρ).payload (dCell rY c) 0 d = (hyM.view.loc (c : Thread nD τ) ↦[hyM.view.set]{fullShare} fvY m ρ (nbY c)) := payload_rY m ρ c d
theorem payload_rZ' (c : Dev nD) (d : Fin 3) : (sched (F := F) m ρ).payload (dCell rZ c) 0 d = (hzM.view.loc (c : Thread nD τ) ↦[hzM.view.set]{fullShare} fvZ m ρ (nbZ c)) := payload_rZ m ρ c d
theorem payload_sX' (c : Dev nD) (d : Fin 3) : (sched (F := F) m ρ).payload (dCell sX c) 0 d = (fxM.view.loc (c : Thread nD τ) ↦[fxM.view.set]{fullShare} fvX m ρ c) := payload_sX m ρ c d
theorem payload_sY' (c : Dev nD) (d : Fin 3) : (sched (F := F) m ρ).payload (dCell sY c) 0 d = (fyM.view.loc (c : Thread nD τ) ↦[fyM.view.set]{fullShare} fvY m ρ c) := payload_sY m ρ c d
theorem payload_sZ' (c : Dev nD) (d : Fin 3) : (sched (F := F) m ρ).payload (dCell sZ c) 0 d = (fzM.view.loc (c : Thread nD τ) ↦[fzM.view.set]{fullShare} fvZ m ρ c) := payload_sZ m ρ c d

theorem payload_rX_nb (c : Dev nD) (d : Fin 3) :
    (sched (F := F) m ρ).payload (dCell rX (nbX c)) 0 d = (hxM.view.loc (nbX c : Thread nD τ) ↦[hxM.view.set]{fullShare} fvX m ρ c) := by
  rw [payload_rX]; unfold recvPayX; rw [nbX_nbX]
theorem payload_rY_nb (c : Dev nD) (d : Fin 3) :
    (sched (F := F) m ρ).payload (dCell rY (nbY c)) 0 d = (hyM.view.loc (nbY c : Thread nD τ) ↦[hyM.view.set]{fullShare} fvY m ρ c) := by
  rw [payload_rY]; unfold recvPayY; rw [nbY_nbY]
theorem payload_rZ_nb (c : Dev nD) (d : Fin 3) :
    (sched (F := F) m ρ).payload (dCell rZ (nbZ c)) 0 d = (hzM.view.loc (nbZ c : Thread nD τ) ↦[hzM.view.set]{fullShare} fvZ m ρ c) := by
  rw [payload_rZ]; unfold recvPayZ; rw [nbZ_nbZ]

/-- The unit a device pays on a neighbour's barrier cell hands over the device's own landing buffer for that axis and
    its own standing at round 0 of its receive cell. -/
theorem payload_bar_nbX (c : Dev nD) :
    (sched (F := F) m ρ).payload (barCell (nbX c)) 0 0
      = iprop((∃ f, (hxM.view.loc (c : Thread nD τ) ↦[hxM.view.set]{fullShare} f)) ∗ reached ER (dCell rX c) 0) := by
  rw [payload_bar]; unfold barPay; rw [nbX_nbX]
theorem payload_bar_nbY (c : Dev nD) :
    (sched (F := F) m ρ).payload (barCell (nbY c)) 0 1
      = iprop((∃ f, (hyM.view.loc (c : Thread nD τ) ↦[hyM.view.set]{fullShare} f)) ∗ reached ER (dCell rY c) 0) := by
  rw [payload_bar]; unfold barPay; rw [nbY_nbY]
theorem payload_bar_nbZ (c : Dev nD) :
    (sched (F := F) m ρ).payload (barCell (nbZ c)) 0 2
      = iprop((∃ f, (hzM.view.loc (c : Thread nD τ) ↦[hzM.view.set]{fullShare} f)) ∗ reached ER (dCell rZ c) 0) := by
  rw [payload_bar]; unfold barPay; rw [nbZ_nbZ]

end Cert.Kernel.HaloProof

end
-- ==== Proof.Word.BodyData.lean ====
/-
  The proof data of the halo exchange's one pipeline point: what the staging buffers hold after the body, the ghost
  state a device's body starts from and ends in, and the body's pre- and postcondition.
-/
import proofs.«900808_g7700000000000809_dist_halo3d_v7x_xyz2x2x2_s64_f32_1_alg».proof.Proof.Word.Schedule
import proofs.«900808_g7700000000000809_dist_halo3d_v7x_xyz2x2x2_s64_f32_1_alg».proof.Proof.Gen.Kernel.Skeleton

set_option pp.maxSteps 4000
set_option pp.deepTerms false

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- Every device's input block. -/
def X : Dev nD → Cube F := fun c => xstg m ρ c

/-- The six scratch faces, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The cells' invariants device `c`'s body opens, under the names the launch allocated them at: its own seven, its
    three neighbours' barrier cells (its signals), each neighbour's receive cell for the shared axis (its copies). -/
def invs (K : Dev nD × Fin 7 → ℕ) (c : Dev nD) : sProp 𝕄 :=
  iprop(cellInv ER (sched m ρ) (K (c, 0)) (barCell c)
    ∗ cellInv ER (sched m ρ) (K (c, 1)) (dCell sX c) ∗ cellInv ER (sched m ρ) (K (c, 2)) (dCell sY c) ∗ cellInv ER (sched m ρ) (K (c, 3)) (dCell sZ c)
    ∗ cellInv ER (sched m ρ) (K (c, 4)) (dCell rX c) ∗ cellInv ER (sched m ρ) (K (c, 5)) (dCell rY c) ∗ cellInv ER (sched m ρ) (K (c, 6)) (dCell rZ c)
    ∗ cellInv ER (sched m ρ) (K (nbX c, 0)) (barCell (nbX c)) ∗ cellInv ER (sched m ρ) (K (nbY c, 0)) (barCell (nbY c)) ∗ cellInv ER (sched m ρ) (K (nbZ c, 0)) (barCell (nbZ c))
    ∗ cellInv ER (sched m ρ) (K (nbX c, 4)) (dCell rX (nbX c)) ∗ cellInv ER (sched m ρ) (K (nbY c, 5)) (dCell rY (nbY c)) ∗ cellInv ER (sched m ρ) (K (nbZ c, 6)) (dCell rZ (nbZ c)))

instance invs_persistent (K : Dev nD × Fin 7 → ℕ) (c : Dev nD) : BI.Persistent (invs m ρ K c) := by unfold invs; infer_instance

/-- The protocol's ghost state device `c` starts from: the invariants; its positions at round 0 of its seven cells; round
    0 reached on the cells it pays and on its own send and receive cells; the nine duty tokens it pays with. -/
def ghost (K : Dev nD × Fin 7 → ℕ) (c : Dev nD) : sProp 𝕄 :=
  iprop(invs m ρ K c
    ∗ atPos ER (barCell c) 0 ∅ 0
    ∗ atPos ER (dCell sX c) 0 ∅ 0 ∗ atPos ER (dCell sY c) 0 ∅ 0 ∗ atPos ER (dCell sZ c) 0 ∅ 0
    ∗ atPos ER (dCell rX c) 0 ∅ 0 ∗ atPos ER (dCell rY c) 0 ∅ 0 ∗ atPos ER (dCell rZ c) 0 ∅ 0
    ∗ reached ER (barCell (nbX c)) 0 ∗ reached ER (barCell (nbY c)) 0 ∗ reached ER (barCell (nbZ c)) 0
    ∗ reached ER (dCell rX (nbX c)) 0 ∗ reached ER (dCell rY (nbY c)) 0 ∗ reached ER (dCell rZ (nbZ c)) 0
    ∗ reached ER (dCell sX c) 0 ∗ reached ER (dCell sY c) 0 ∗ reached ER (dCell sZ c) 0
    ∗ reached ER (dCell rX c) 0 ∗ reached ER (dCell rY c) 0 ∗ reached ER (dCell rZ c) 0
    ∗ dutyTok ER (barCell (nbX c)) 0 0 ∗ dutyTok ER (barCell (nbY c)) 0 1 ∗ dutyTok ER (barCell (nbZ c)) 0 2
    ∗ dutyTok ER (dCell rX (nbX c)) 0 0 ∗ dutyTok ER (dCell rY (nbY c)) 0 0 ∗ dutyTok ER (dCell rZ (nbZ c)) 0 0
    ∗ dutyTok ER (dCell sX c) 0 0 ∗ dutyTok ER (dCell sY c) 0 0 ∗ dutyTok ER (dCell sZ c) 0 0)

/-- What device `c`'s body starts from: that at some names, its four credit tokens and the level facts. -/
def start (c : Dev nD) : sProp 𝕄 :=
  iprop((∃ K, ghost m ρ K c) ∗ cred (tallyAt (barCell c) () 3)
    ∗ cred (tallyAt (dCell rX c) () N) ∗ cred (tallyAt (dCell rY c) () N) ∗ cred (tallyAt (dCell rZ c) () N) ∗ levAts L lv)

def Φ₀ (c : Dev nD) : sProp 𝕄 := iprop(start m ρ c ∗ scratch c)
/-- After the point: the scratch faces at some contents, the six own cells at zero, closed. -/
def Φ₁ (c : Dev nD) : sProp 𝕄 :=
  iprop(scratch c ∗ semVal (dCell sX c) 0 ∗ semVal (dCell sY c) 0 ∗ semVal (dCell sZ c) 0
    ∗ semVal (dCell rX c) 0 ∗ semVal (dCell rY c) 0 ∗ semVal (dCell rZ c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt c (X m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## The body's pre- and postcondition -/

section Body

variable (K : Dev nD × Fin 7 → ℕ)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m ρ K c ∗ cred (tallyAt (barCell c) () 3)
      ∗ cred (tallyAt (dCell rX c) () N) ∗ cred (tallyAt (dCell rY c) () N) ∗ cred (tallyAt (dCell rZ c) () N) ∗ levAts L lv ∗ scratch c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt c (X m ρ)))

end Body

end Cert.Kernel.HaloProof

end
-- ==== Proof.Word.Sends.lean ====
/-
  The three face copies, each by the rounds discipline's rule for an addressed transfer at this protocol's cells.
-/
import proofs.«900808_g7700000000000809_dist_halo3d_v7x_xyz2x2x2_s64_f32_1_alg».proof.Proof.Word.BodyData

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

/-- A whole face written over whatever the landing buffer held is the face. -/
theorem landedX (fd : (cc0_scratch3 : Ref sig .tc).ty.Contents (Elt F)) (fs : (cc0_scratch0 : Ref sig .tc).ty.Contents (Elt F)) :
    (hxM : Memref sig .tc .vmem S64x64 .f32).view.write (Elt F) fd ((fxM : Memref sig .tc .vmem S64x64 .f32).view.read (Elt F) fs) Finset.univ = fs := by
  show (View.whole cc0_scratch3).write (Elt F) fd ((View.whole cc0_scratch0).read (Elt F) fs) Finset.univ = fs
  rw [View.read_whole]
  exact View.write_whole_univ _ _ _

/-- The copy of the first-axis face into the neighbour's landing buffer: it pays the device's own send duty with the face
    buffer and the neighbour's receive duty with the landing buffer holding the face; the device then owes that
    neighbour's receive cell nothing and holds its send cell's credit. -/
theorem send_X (c n : Dev nD) (hn : n = nbX c)
    {hsc : (hxM : Memref sig (Dev.tc n : Thread nD τ).2.kind .vmem S64x64 .f32).view.ref.isScScratch = false}
    {hsrc : (fxM : Memref sig .tc .vmem S64x64 .f32).view.WordExact} {hdst : (hxM : Memref sig .tc .vmem S64x64 .f32).view.WordExact}
    {hsem : DmaTarget.Typed .vmem (.dma rX) (.remote (Dev.tc n : Thread nD τ) (hxM : Memref sig .tc .vmem S64x64 .f32) (.dma sX) hsc)}
    {α : Type} {Q : α → sProp 𝕄} {k : PUnit → Prog (TpuEff nD τ sig (Elt F) Λ₀ .tc) α}
    (fn : Buf (Elt F) ((hxM : Memref sig .tc .vmem S64x64 .f32).view.loc (nbX c : Thread nD τ))) (O : CellTallies nD τ sig Unit) (W : Waits sig Unit) :
    iprop(cellInv ER (sched m ρ) (K (c, 1)) (dCell sX c) ∗ cellInv ER (sched m ρ) (K (nbX c, 4)) (dCell rX (nbX c))
        ∗ (fxM.view.loc (c : Thread nD τ) ↦[fxM.view.set]{fullShare} fvX m ρ c) ∗ (hxM.view.loc (nbX c : Thread nD τ) ↦[hxM.view.set]{fullShare} fn)
        ∗ owes (c : Thread nD τ) (O + tallyAt (dCell rX (nbX c)) () N) W
        ∗ dutyTok ER (dCell sX c) 0 0 ∗ reached ER (dCell sX c) 0
        ∗ dutyTok ER (dCell rX (nbX c)) 0 0 ∗ reached ER (dCell rX (nbX c)) 0)
      ⊢ iprop(((cred (tallyAt (dCell sX c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fxM (.remote (Dev.tc n : Thread nD τ) hxM (.dma sX) hsc) (.dma rX) hsrc hdst hsem) k) Q) := by
  subst hn
  exact Rounds.wp_send_pointsTo 𝒱₀ ER (sched m ρ) (c : Thread nD τ) none (κ₁ := K (c, 1)) (κ₂ := K (nbX c, 4))
    (r₁ := 0) (r₂ := 0) (d₁ := 0) (d₂ := 0) (fd := fn)
    (by rw [duties_sX]; exact Finset.mem_singleton_self _) (by rw [duties_rX]; exact Finset.mem_singleton_self _)
    () () N rfl (amount_xfer m ρ c sX 0) (amount_xfer m ρ (nbX c) rX 0) O rfl (W := W)
    (Entails.of_eq (payload_sX' m ρ c 0).symm)
    (Entails.of_eq (by rw [payload_rX_nb, landedX]))

/-- A whole face written over whatever the landing buffer held is the face. -/
theorem landedY (fd : (cc0_scratch4 : Ref sig .tc).ty.Contents (Elt F)) (fs : (cc0_scratch1 : Ref sig .tc).ty.Contents (Elt F)) :
    (hyM : Memref sig .tc .vmem S64x64 .f32).view.write (Elt F) fd ((fyM : Memref sig .tc .vmem S64x64 .f32).view.read (Elt F) fs) Finset.univ = fs := by
  show (View.whole cc0_scratch4).write (Elt F) fd ((View.whole cc0_scratch1).read (Elt F) fs) Finset.univ = fs
  rw [View.read_whole]
  exact View.write_whole_univ _ _ _

/-- The copy of the second-axis face into the neighbour's landing buffer: it pays the device's own send duty with the face
    buffer and the neighbour's receive duty with the landing buffer holding the face; the device then owes that
    neighbour's receive cell nothing and holds its send cell's credit. -/
theorem send_Y (c n : Dev nD) (hn : n = nbY c)
    {hsc : (hyM : Memref sig (Dev.tc n : Thread nD τ).2.kind .vmem S64x64 .f32).view.ref.isScScratch = false}
    {hsrc : (fyM : Memref sig .tc .vmem S64x64 .f32).view.WordExact} {hdst : (hyM : Memref sig .tc .vmem S64x64 .f32).view.WordExact}
    {hsem : DmaTarget.Typed .vmem (.dma rY) (.remote (Dev.tc n : Thread nD τ) (hyM : Memref sig .tc .vmem S64x64 .f32) (.dma sY) hsc)}
    {α : Type} {Q : α → sProp 𝕄} {k : PUnit → Prog (TpuEff nD τ sig (Elt F) Λ₀ .tc) α}
    (fn : Buf (Elt F) ((hyM : Memref sig .tc .vmem S64x64 .f32).view.loc (nbY c : Thread nD τ))) (O : CellTallies nD τ sig Unit) (W : Waits sig Unit) :
    iprop(cellInv ER (sched m ρ) (K (c, 2)) (dCell sY c) ∗ cellInv ER (sched m ρ) (K (nbY c, 5)) (dCell rY (nbY c))
        ∗ (fyM.view.loc (c : Thread nD τ) ↦[fyM.view.set]{fullShare} fvY m ρ c) ∗ (hyM.view.loc (nbY c : Thread nD τ) ↦[hyM.view.set]{fullShare} fn)
        ∗ owes (c : Thread nD τ) (O + tallyAt (dCell rY (nbY c)) () N) W
        ∗ dutyTok ER (dCell sY c) 0 0 ∗ reached ER (dCell sY c) 0
        ∗ dutyTok ER (dCell rY (nbY c)) 0 0 ∗ reached ER (dCell rY (nbY c)) 0)
      ⊢ iprop(((cred (tallyAt (dCell sY c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fyM (.remote (Dev.tc n : Thread nD τ) hyM (.dma sY) hsc) (.dma rY) hsrc hdst hsem) k) Q) := by
  subst hn
  exact Rounds.wp_send_pointsTo 𝒱₀ ER (sched m ρ) (c : Thread nD τ) none (κ₁ := K (c, 2)) (κ₂ := K (nbY c, 5))
    (r₁ := 0) (r₂ := 0) (d₁ := 0) (d₂ := 0) (fd := fn)
    (by rw [duties_sY]; exact Finset.mem_singleton_self _) (by rw [duties_rY]; exact Finset.mem_singleton_self _)
    () () N rfl (amount_xfer m ρ c sY 0) (amount_xfer m ρ (nbY c) rY 0) O rfl (W := W)
    (Entails.of_eq (payload_sY' m ρ c 0).symm)
    (Entails.of_eq (by rw [payload_rY_nb, landedY]))

/-- A whole face written over whatever the landing buffer held is the face. -/
theorem landedZ (fd : (cc0_scratch5 : Ref sig .tc).ty.Contents (Elt F)) (fs : (cc0_scratch2 : Ref sig .tc).ty.Contents (Elt F)) :
    (hzM : Memref sig .tc .vmem S64x64 .f32).view.write (Elt F) fd ((fzM : Memref sig .tc .vmem S64x64 .f32).view.read (Elt F) fs) Finset.univ = fs := by
  show (View.whole cc0_scratch5).write (Elt F) fd ((View.whole cc0_scratch2).read (Elt F) fs) Finset.univ = fs
  rw [View.read_whole]
  exact View.write_whole_univ _ _ _

/-- The copy of the third-axis face into the neighbour's landing buffer: it pays the device's own send duty with the face
    buffer and the neighbour's receive duty with the landing buffer holding the face; the device then owes that
    neighbour's receive cell nothing and holds its send cell's credit. -/
theorem send_Z (c n : Dev nD) (hn : n = nbZ c)
    {hsc : (hzM : Memref sig (Dev.tc n : Thread nD τ).2.kind .vmem S64x64 .f32).view.ref.isScScratch = false}
    {hsrc : (fzM : Memref sig .tc .vmem S64x64 .f32).view.WordExact} {hdst : (hzM : Memref sig .tc .vmem S64x64 .f32).view.WordExact}
    {hsem : DmaTarget.Typed .vmem (.dma rZ) (.remote (Dev.tc n : Thread nD τ) (hzM : Memref sig .tc .vmem S64x64 .f32) (.dma sZ) hsc)}
    {α : Type} {Q : α → sProp 𝕄} {k : PUnit → Prog (TpuEff nD τ sig (Elt F) Λ₀ .tc) α}
    (fn : Buf (Elt F) ((hzM : Memref sig .tc .vmem S64x64 .f32).view.loc (nbZ c : Thread nD τ))) (O : CellTallies nD τ sig Unit) (W : Waits sig Unit) :
    iprop(cellInv ER (sched m ρ) (K (c, 3)) (dCell sZ c) ∗ cellInv ER (sched m ρ) (K (nbZ c, 6)) (dCell rZ (nbZ c))
        ∗ (fzM.view.loc (c : Thread nD τ) ↦[fzM.view.set]{fullShare} fvZ m ρ c) ∗ (hzM.view.loc (nbZ c : Thread nD τ) ↦[hzM.view.set]{fullShare} fn)
        ∗ owes (c : Thread nD τ) (O + tallyAt (dCell rZ (nbZ c)) () N) W
        ∗ dutyTok ER (dCell sZ c) 0 0 ∗ reached ER (dCell sZ c) 0
        ∗ dutyTok ER (dCell rZ (nbZ c)) 0 0 ∗ reached ER (dCell rZ (nbZ c)) 0)
      ⊢ iprop(((cred (tallyAt (dCell sZ c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma fzM (.remote (Dev.tc n : Thread nD τ) hzM (.dma sZ) hsc) (.dma rZ) hsrc hdst hsem) k) Q) := by
  subst hn
  exact Rounds.wp_send_pointsTo 𝒱₀ ER (sched m ρ) (c : Thread nD τ) none (κ₁ := K (c, 3)) (κ₂ := K (nbZ c, 6))
    (r₁ := 0) (r₂ := 0) (d₁ := 0) (d₂ := 0) (fd := fn)
    (by rw [duties_sZ]; exact Finset.mem_singleton_self _) (by rw [duties_rZ]; exact Finset.mem_singleton_self _)
    () () N rfl (amount_xfer m ρ c sZ 0) (amount_xfer m ρ (nbZ c) rZ 0) O rfl (W := W)
    (Entails.of_eq (payload_sZ' m ρ c 0).symm)
    (Entails.of_eq (by rw [payload_rZ_nb, landedZ]))

end Cert.Kernel.HaloProof

end
-- ==== Proof.Word.Cover.lean ====
/-
  The two slab stores cover the output block: what the buffer held before them does not matter.
-/
import proofs.«900808_g7700000000000809_dist_halo3d_v7x_xyz2x2x2_s64_f32_1_alg».proof.Proof.Word.Values

noncomputable section

namespace Cert.Kernel.Halo

open Cert.Kernel Cert.Kernel.Gen
open Idealize.ShloMosaic

section Abstract
variable {sig : RefSig} {κ : Kind} {sp : Space} {s : Shape} {e : EltTy} {Val : EltTy → Type}

/-- An unmasked write at an element under the view holds the payload, whatever was there. -/
private theorem write_univ_indep_of_emb (v : View sig κ sp s e) (f f' : v.ty.Contents Val) (w : s.Idx → Val e)
    {i : v.ty.Idx} (x : s.Idx) (hx : v.emb x = i) :
    v.write Val f w Finset.univ i = v.write Val f' w Finset.univ i := by
  subst hx
  rw [View.write_emb_of_mem f w (Finset.mem_univ x), View.write_emb_of_mem f' w (Finset.mem_univ x)]

/-- A write leaves an element that is under none of the view's indices as it was. -/
private theorem write_of_forall_ne (v : View sig κ sp s e) (f : v.ty.Contents Val) (w : s.Idx → Val e) (M : Finset s.Idx)
    {i : v.ty.Idx} (h : ∀ x, v.emb x ≠ i) : v.write Val f w M i = f i := by
  unfold View.write
  rw [preimage?_eq_none h]

end Abstract

/-- Every index within a unit-stride rectangle's bounds is under one of the rectangle's own. -/
private theorem unit_emb_surj {s : Shape} (off size : Fin s.rank → Nat) (inb : ∀ a, off a + size a ≤ s.size a) (i : s.Idx)
    (h : ∀ a, off a ≤ (i a).val ∧ (i a).val < off a + size a) : ∃ y, (Rect.unit off size inb).emb y = i :=
  ⟨fun a => ⟨(i a).val - off a, by have := h a; show (i a).val - off a < size a; omega⟩,
    funext fun a => Fin.ext (by
      show off a + 1 * ((i a).val - off a) = (i a).val
      have := h a; omega)⟩

variable {F : FTy → Type} [FloatOps F]

/-- Two unmasked stores, the second's rectangle or else the first's holding every element, leave nothing of the
    buffer's earlier contents. -/
private theorem stO_stO_indep (r₁ r₂ : Rect S64x64x64) (o o' : OC F) (w₁ : r₁.shape.Idx → Elt F .f32) (w₂ : r₂.shape.Idx → Elt F .f32)
    (hcov : ∀ i : S64x64x64.Idx, (∃ y, r₂.emb y = i) ∨ ((∀ y, r₂.emb y ≠ i) ∧ ∃ y, r₁.emb y = i)) :
    stO r₂ (stO r₁ o w₁) w₂ = stO r₂ (stO r₁ o' w₁) w₂ := by
  funext i
  unfold stO
  rcases hcov i with ⟨y, hy⟩ | ⟨hne, y, hy⟩
  · exact write_univ_indep_of_emb (oM.access r₂) _ _ w₂ y hy
  · rw [write_of_forall_ne (oM.access r₂) _ w₂ Finset.univ hne, write_of_forall_ne (oM.access r₂) _ w₂ Finset.univ hne]
    exact write_univ_indep_of_emb (oM.access r₁) _ _ w₁ y hy

/-- Rows 0 … 31 and rows 32 … 63 are the whole block. -/
theorem slabs_indep (c : Dev nD) (o : OC F) (x : Cube F) : slabs c o x = slabs c o00 x := by
  unfold slabs
  refine stO_stO_indep rLo rHi o o00 _ _ fun i => ?_
  have i0 : (i 0).val < 64 := (i 0).isLt
  have i1 : (i 1).val < 64 := (i 1).isLt
  have i2 : (i 2).val < 64 := (i 2).isLt
  by_cases h : (i 0).val < 32
  · refine Or.inr ⟨fun y hy => ?_, ?_⟩
    · have h0 := congrArg (fun j : S64x64x64.Idx => (j 0).val) hy
      have h1 : (rHi.emb y 0).val = 32 + 1 * (y 0).val := rfl
      simp only at h0
      omega
    · refine unit_emb_surj _ _ _ i fun a => ?_
      match a with
      | ⟨0, _⟩ => exact ⟨Nat.zero_le _, by show (i 0).val < 0 + 32; omega⟩
      | ⟨1, _⟩ => exact ⟨Nat.zero_le _, by show (i 1).val < 0 + 64; omega⟩
      | ⟨2, _⟩ => exact ⟨Nat.zero_le _, by show (i 2).val < 0 + 64; omega⟩
  · refine Or.inl (unit_emb_surj _ _ _ i fun a => ?_)
    match a with
    | ⟨0, _⟩ => exact ⟨by show 32 ≤ (i 0).val; omega, by show (i 0).val < 32 + 32; omega⟩
    | ⟨1, _⟩ => exact ⟨Nat.zero_le _, by show (i 1).val < 0 + 64; omega⟩
    | ⟨2, _⟩ => exact ⟨Nat.zero_le _, by show (i 2).val < 0 + 64; omega⟩

end Cert.Kernel.Halo

end
-- ==== Proof.Word.Body.lean ====
/-
  One device's run of the kernel body, from the protocol's ghost state to the output block named as a pure term of
  the eight input blocks.
-/
import proofs.«900808_g7700000000000809_dist_halo3d_v7x_xyz2x2x2_s64_f32_1_alg».proof.Proof.Word.BodyData
import proofs.«900808_g7700000000000809_dist_halo3d_v7x_xyz2x2x2_s64_f32_1_alg».proof.Proof.Word.Sends
import proofs.«900808_g7700000000000809_dist_halo3d_v7x_xyz2x2x2_s64_f32_1_alg».proof.Proof.Word.Cover

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

theorem fetch_0 (t : Fin cfg0.N) : (cfg0.win (0 : Fin 2)).fetch t = true := fetch0_0 t

/-! ## The printed conditions on the mesh coordinates -/

/-- The body's test "the coordinate word is `k`", as printed: compare, widen, compare with zero. -/
abbrev isW (w k : BitVec 32) : BitVec 1 := Scalar.cmpi .ne (Scalar.extui (Scalar.cmpi .eq w k) : BitVec 32) 0#32

/-- A device's first mesh coordinate is 0 or 1, and the two printed tests on it say which. -/
theorem condX (c : Dev nD) :
    (wx c = 0#32 ∧ isW (wx c) 0#32 = 1#1 ∧ ¬ isW (wx c) 1#32 = 1#1) ∨ (wx c = 1#32 ∧ ¬ isW (wx c) 0#32 = 1#1 ∧ isW (wx c) 1#32 = 1#1) := by
  revert c; decide +kernel
theorem condY (c : Dev nD) :
    (wy c = 0#32 ∧ isW (wy c) 0#32 = 1#1 ∧ ¬ isW (wy c) 1#32 = 1#1) ∨ (wy c = 1#32 ∧ ¬ isW (wy c) 0#32 = 1#1 ∧ isW (wy c) 1#32 = 1#1) := by
  revert c; decide +kernel
theorem condZ (c : Dev nD) :
    (wz c = 0#32 ∧ isW (wz c) 0#32 = 1#1 ∧ ¬ isW (wz c) 1#32 = 1#1) ∨ (wz c = 1#32 ∧ ¬ isW (wz c) 0#32 = 1#1 ∧ isW (wz c) 1#32 = 1#1) := by
  revert c; decide +kernel

/-! ## Between the entry and the copies -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What the barrier wait brings back: each neighbour's landing buffer for the shared axis, and its standing. -/
theorem bar_payloads (c : Dev nD) :
    bigSep Finset.univ (fun d : Fin 3 => (sched (F := F) m ρ).payload (barCell c) 0 d)
      = iprop(((∃ f, (hxM.view.loc (nbX c : Thread nD τ) ↦[hxM.view.set]{fullShare} f)) ∗ reached ER (dCell rX (nbX c)) 0)
          ∗ ((∃ f, (hyM.view.loc (nbY c : Thread nD τ) ↦[hyM.view.set]{fullShare} f)) ∗ reached ER (dCell rY (nbY c)) 0)
          ∗ ((∃ f, (hzM.view.loc (nbZ c : Thread nD τ) ↦[hzM.view.set]{fullShare} f)) ∗ reached ER (dCell rZ (nbZ c)) 0)) := by
  rw [bigSep_fin3, payload_bar0, payload_bar1, payload_bar2]

theorem hz2 : (![0, 0] : Fin 2 → Nat) = fun _ => 0 := funext fun a => by fin_cases a <;> rfl
theorem hz3 : (![0, 0, 0] : Fin 3 → Nat) = fun _ => 0 := funext fun a => by fin_cases a <;> rfl

/-- The staged input block read whole is the block. -/
theorem read_x (f : (cc0_stg0_0 : Ref sig .tc).ty.Contents (Elt F)) :
    View.readAt (Elt F) xM.view (Rect.unit (s := S64x64x64) ![0, 0, 0] S64x64x64.size inb_S64x64x64_S64x64x64_0_0_0).toLoadRect f = f :=
  Memref.readAt_unit_zero (Elt F) cc0_stg0_0 hz3 _ f

/-- A face buffer after one whole store holds the stored face. -/
theorem fx_store (f w : (cc0_scratch0 : Ref sig .tc).ty.Contents (Elt F)) :
    fxM.view.writes (Elt F) f [⟨Rect.unit (s := S64x64) ![0, 0] S64x64.size inb_S64x64_S64x64_0_0, w⟩] = w := by
  show ((fxM.access (Rect.unit (s := S64x64) ![0, 0] S64x64.size inb_S64x64_S64x64_0_0) : View sig .tc _ _ _)).write (Elt F) f w Finset.univ = w
  exact Memref.write_access_unit_zero_univ (Elt F) cc0_scratch0 hz2 _ f w
theorem fy_store (f w : (cc0_scratch1 : Ref sig .tc).ty.Contents (Elt F)) :
    fyM.view.writes (Elt F) f [⟨Rect.unit (s := S64x64) ![0, 0] S64x64.size inb_S64x64_S64x64_0_0, w⟩] = w := by
  show ((fyM.access (Rect.unit (s := S64x64) ![0, 0] S64x64.size inb_S64x64_S64x64_0_0) : View sig .tc _ _ _)).write (Elt F) f w Finset.univ = w
  exact Memref.write_access_unit_zero_univ (Elt F) cc0_scratch1 hz2 _ f w
theorem fz_store (f w : (cc0_scratch2 : Ref sig .tc).ty.Contents (Elt F)) :
    fzM.view.writes (Elt F) f [⟨Rect.unit (s := S64x64) ![0, 0] S64x64.size inb_S64x64_S64x64_0_0, w⟩] = w := by
  show ((fzM.access (Rect.unit (s := S64x64) ![0, 0] S64x64.size inb_S64x64_S64x64_0_0) : View sig .tc _ _ _)).write (Elt F) f w Finset.univ = w
  exact Memref.write_access_unit_zero_univ (Elt F) cc0_scratch2 hz2 _ f w

/-- On a device whose first coordinate is 0 the stored first-axis face is the one the schedule names; likewise at 1,
    and along the other two axes. -/
theorem fx_of_0 (c : Dev nD) (hx : wx c = 0#32) (f : (cc0_scratch0 : Ref sig .tc).ty.Contents (Elt F)) :
    fxM.view.writes (Elt F) f [⟨Rect.unit (s := S64x64) ![0, 0] S64x64.size inb_S64x64_S64x64_0_0,
      k0_pay2 (wy c) (wz c) (View.readAt (Elt F) xM.view (Rect.unit (s := S64x64x64) ![0, 0, 0] S64x64x64.size inb_S64x64x64_S64x64x64_0_0_0).toLoadRect (xstg m ρ c))⟩]
      = fvX m ρ c := by
  rw [fx_store, read_x]; unfold fvX faceX; rw [if_pos hx]
theorem fx_of_1 (c : Dev nD) (hx : wx c = 1#32) (f : (cc0_scratch0 : Ref sig .tc).ty.Contents (Elt F)) :
    fxM.view.writes (Elt F) f [⟨Rect.unit (s := S64x64) ![0, 0] S64x64.size inb_S64x64_S64x64_0_0,
      k0_pay3 (wy c) (wz c) (View.readAt (Elt F) xM.view (Rect.unit (s := S64x64x64) ![0, 0, 0] S64x64x64.size inb_S64x64x64_S64x64x64_0_0_0).toLoadRect (xstg m ρ c))⟩]
      = fvX m ρ c := by
  rw [fx_store, read_x]; unfold fvX faceX; rw [if_neg (by rw [hx]; decide)]
theorem fy_of_0 (c : Dev nD) (hy : wy c = 0#32) (f : (cc0_scratch1 : Ref sig .tc).ty.Contents (Elt F)) :
    fyM.view.writes (Elt F) f [⟨Rect.unit (s := S64x64) ![0, 0] S64x64.size inb_S64x64_S64x64_0_0,
      k0_pay4 (wx c) (wz c) (View.readAt (Elt F) xM.view (Rect.unit (s := S64x64x64) ![0, 0, 0] S64x64x64.size inb_S64x64x64_S64x64x64_0_0_0).toLoadRect (xstg m ρ c))⟩]
      = fvY m ρ c := by
  rw [fy_store, read_x]; unfold fvY faceY; rw [if_pos hy]
theorem fy_of_1 (c : Dev nD) (hy : wy c = 1#32) (f : (cc0_scratch1 : Ref sig .tc).ty.Contents (Elt F)) :
    fyM.view.writes (Elt F) f [⟨Rect.unit (s := S64x64) ![0, 0] S64x64.size inb_S64x64_S64x64_0_0,
      k0_pay5 (wx c) (wz c) (View.readAt (Elt F) xM.view (Rect.unit (s := S64x64x64) ![0, 0, 0] S64x64x64.size inb_S64x64x64_S64x64x64_0_0_0).toLoadRect (xstg m ρ c))⟩]
      = fvY m ρ c := by
  rw [fy_store, read_x]; unfold fvY faceY; rw [if_neg (by rw [hy]; decide)]
theorem fz_of_0 (c : Dev nD) (hz : wz c = 0#32) (f : (cc0_scratch2 : Ref sig .tc).ty.Contents (Elt F)) :
    fzM.view.writes (Elt F) f [⟨Rect.unit (s := S64x64) ![0, 0] S64x64.size inb_S64x64_S64x64_0_0,
      k0_pay6 (wx c) (wy c) (View.readAt (Elt F) xM.view (Rect.unit (s := S64x64x64) ![0, 0, 0] S64x64x64.size inb_S64x64x64_S64x64x64_0_0_0).toLoadRect (xstg m ρ c))⟩]
      = fvZ m ρ c := by
  rw [fz_store, read_x]; unfold fvZ faceZ; rw [if_pos hz]
theorem fz_of_1 (c : Dev nD) (hz : wz c = 1#32) (f : (cc0_scratch2 : Ref sig .tc).ty.Contents (Elt F)) :
    fzM.view.writes (Elt F) f [⟨Rect.unit (s := S64x64) ![0, 0] S64x64.size inb_S64x64_S64x64_0_0,
      k0_pay7 (wx c) (wy c) (View.readAt (Elt F) xM.view (Rect.unit (s := S64x64x64) ![0, 0, 0] S64x64x64.size inb_S64x64x64_S64x64x64_0_0_0).toLoadRect (xstg m ρ c))⟩]
      = fvZ m ρ c := by
  rw [fz_store, read_x]; unfold fvZ faceZ; rw [if_neg (by rw [hz]; decide)]

/-- A returned value bound into a continuation is the continuation at it. -/
theorem ret_bind {E : Type → Type} {α β : Type} (a : α) (k : α → Prog E β) : (Prog.ret a).bind k = k a := rfl

/-- What a device owes restated at an equal tally. -/
theorem owes_congr (t : Thread nD τ) {O O' : CellTallies nD τ sig Unit} (W : Waits sig Unit) (h : O = O') :
    (owes t O W : sProp 𝕄) ⊢ owes t O' W := by subst h; exact BI.Entails.refl _

/-! ## The output buffer as a list of writes -/

/-- A store through `r` of a value computed from the load through `r`, over a buffer that is itself a list of writes
    covering `r`: one more write on the list, its value computed from what the list's writes put there. -/
theorem add_cov (r : Rect S64x64x64) (pay : (r.toLoadRect.shape.Idx → Elt F .f32) → Face F → (r.shape.Idx → Elt F .f32))
    (g : OC F) (L : List (View.Piece (Elt F) S64x64x64 .f32)) (t : LoadRect.Cov)
    (hc : LoadRect.covChk (L.map Sigma.fst) r.toLoadRect t = true) (h : Face F) :
    stO r (oM.view.writes (Elt F) g L) (pay (ldO r (oM.view.writes (Elt F) g L)) h)
      = oM.view.writes (Elt F) g (⟨r, pay (oM.view.readCov L r.toLoadRect) h⟩ :: L) := by
  unfold stO ldO
  rw [readAt_writes_eq_readCov (c := ((0 : Dev nD) : Thread nD τ)) (m := oM) g L r.toLoadRect t hc]
  rfl

/-- The rows a face update reads lie inside the earlier stores: a first-axis face row inside one half-slab, a second- or
    third-axis face split at row 32 between the two half-slabs. -/
theorem covX63 : LoadRect.covChk [rHi, rLo] rX63.toLoadRect (.leaf 0) = true := by decide
theorem covX0 : LoadRect.covChk [rHi, rLo] rX0.toLoadRect (.leaf 1) = true := by decide
theorem covY63 (rx : Rect S64x64x64) : LoadRect.covChk [rx, rHi, rLo] rY63.toLoadRect (.split 0 32 (.leaf 2) (.leaf 1)) = true := by rfl
theorem covY0 (rx : Rect S64x64x64) : LoadRect.covChk [rx, rHi, rLo] rY0.toLoadRect (.split 0 32 (.leaf 2) (.leaf 1)) = true := by rfl
theorem covZ63 (ry rx : Rect S64x64x64) : LoadRect.covChk [ry, rx, rHi, rLo] rZ63.toLoadRect (.split 0 32 (.leaf 3) (.leaf 2)) = true := by rfl
theorem covZ0 (ry rx : Rect S64x64x64) : LoadRect.covChk [ry, rx, rHi, rLo] rZ0.toLoadRect (.split 0 32 (.leaf 3) (.leaf 2)) = true := by rfl

/-- The two slab stores, as a list of writes. -/
theorem slabs_writes (c : Dev nD) (g : OC F) (x : Cube F) :
    slabs c g x = oM.view.writes (Elt F) g [⟨rHi, slabHi c x⟩, ⟨rLo, slabLo c x⟩] := rfl

/-- A landing buffer read whole is what it holds. -/
theorem read_hx (f : (cc0_scratch3 : Ref sig .tc).ty.Contents (Elt F)) :
    View.readAt (Elt F) (Memref.whole cc0_scratch3 : Memref sig .tc .vmem S64x64 .f32).view (Rect.unit (s := S64x64) ![0, 0] S64x64.size inb_S64x64_S64x64_0_0).toLoadRect f = f :=
  Memref.readAt_unit_zero (Elt F) cc0_scratch3 hz2 _ f
theorem read_hy (f : (cc0_scratch4 : Ref sig .tc).ty.Contents (Elt F)) :
    View.readAt (Elt F) (Memref.whole cc0_scratch4 : Memref sig .tc .vmem S64x64 .f32).view (Rect.unit (s := S64x64) ![0, 0] S64x64.size inb_S64x64_S64x64_0_0).toLoadRect f = f :=
  Memref.readAt_unit_zero (Elt F) cc0_scratch4 hz2 _ f
theorem read_hz (f : (cc0_scratch5 : Ref sig .tc).ty.Contents (Elt F)) :
    View.readAt (Elt F) (Memref.whole cc0_scratch5 : Memref sig .tc .vmem S64x64 .f32).view (Rect.unit (s := S64x64) ![0, 0] S64x64.size inb_S64x64_S64x64_0_0).toLoadRect f = f :=
  Memref.readAt_unit_zero (Elt F) cc0_scratch5 hz2 _ f

/-- A buffer's points-to restated at equal contents. -/
theorem held_congr {s : Shape} {e : EltTy} (M : Memref sig .tc .vmem s e) (c : Dev nD) {f g : Buf (Elt F) (M.view.loc (c : Thread nD τ))} (h : f = g) :
    (M.view.loc (c : Thread nD τ) ↦[M.view.set]{fullShare} f : sProp 𝕄) ⊢ (M.view.loc (c : Thread nD τ) ↦[M.view.set]{fullShare} g) := by
  subst h; exact BI.Entails.refl _

/-- A whole buffer held through its memref's view is the buffer held. -/
theorem held_fx (c : Dev nD) (f : Buf (Elt F) ((c : Thread nD τ).loc cc0_scratch0)) :
    (fxM.view.loc (c : Thread nD τ) ↦[fxM.view.set]{fullShare} f : sProp 𝕄) = (((c : Thread nD τ).loc cc0_scratch0) ↦{fullShare} f) := by rw [View.set_whole]
theorem held_fy (c : Dev nD) (f : Buf (Elt F) ((c : Thread nD τ).loc cc0_scratch1)) :
    (fyM.view.loc (c : Thread nD τ) ↦[fyM.view.set]{fullShare} f : sProp 𝕄) = (((c : Thread nD τ).loc cc0_scratch1) ↦{fullShare} f) := by rw [View.set_whole]
theorem held_fz (c : Dev nD) (f : Buf (Elt F) ((c : Thread nD τ).loc cc0_scratch2)) :
    (fzM.view.loc (c : Thread nD τ) ↦[fzM.view.set]{fullShare} f : sProp 𝕄) = (((c : Thread nD τ).loc cc0_scratch2) ↦{fullShare} f) := by rw [View.set_whole]
theorem held_hx (c : Dev nD) (f : Buf (Elt F) ((c : Thread nD τ).loc cc0_scratch3)) :
    (hxM.view.loc (c : Thread nD τ) ↦[hxM.view.set]{fullShare} f : sProp 𝕄) = (((c : Thread nD τ).loc cc0_scratch3) ↦{fullShare} f) := by rw [View.set_whole]
theorem held_hy (c : Dev nD) (f : Buf (Elt F) ((c : Thread nD τ).loc cc0_scratch4)) :
    (hyM.view.loc (c : Thread nD τ) ↦[hyM.view.set]{fullShare} f : sProp 𝕄) = (((c : Thread nD τ).loc cc0_scratch4) ↦{fullShare} f) := by rw [View.set_whole]
theorem held_hz (c : Dev nD) (f : Buf (Elt F) ((c : Thread nD τ).loc cc0_scratch5)) :
    (hzM.view.loc (c : Thread nD τ) ↦[hzM.view.set]{fullShare} f : sProp 𝕄) = (((c : Thread nD τ).loc cc0_scratch5) ↦{fullShare} f) := by rw [View.set_whole]
theorem held_x (c : Dev nD) (f : Buf (Elt F) ((c : Thread nD τ).loc cc0_stg0_0)) :
    (xM.view.loc (c : Thread nD τ) ↦[xM.view.set]{fullShare} f : sProp 𝕄) = (((c : Thread nD τ).loc cc0_stg0_0) ↦{fullShare} f) := by rw [View.set_whole]
theorem held_o (c : Dev nD) (f : Buf (Elt F) ((c : Thread nD τ).loc cc0_stg1_0)) :
    (oM.view.loc (c : Thread nD τ) ↦[oM.view.set]{fullShare} f : sProp 𝕄) = (((c : Thread nD τ).loc cc0_stg1_0) ↦{fullShare} f) := by rw [View.set_whole]

/-! ## The transfers' payloads in the spelling a whole-buffer copy leaves them in -/

theorem pay_rX_nb (c : Dev nD) (d : Fin 3) : (sched (F := F) m ρ).payload (dCell rX (nbX c)) 0 d = (View.loc ((nbX c : Dev nD) : Thread nD τ) (Memref.whole cc0_scratch3 : Memref sig .tc .vmem S64x64 .f32).view ↦{fullShare} fvX m ρ c : sProp 𝕄) := by
  rw [payload_rX_nb, View.set_whole]
theorem pay_rY_nb (c : Dev nD) (d : Fin 3) : (sched (F := F) m ρ).payload (dCell rY (nbY c)) 0 d = (View.loc ((nbY c : Dev nD) : Thread nD τ) (Memref.whole cc0_scratch4 : Memref sig .tc .vmem S64x64 .f32).view ↦{fullShare} fvY m ρ c : sProp 𝕄) := by
  rw [payload_rY_nb, View.set_whole]
theorem pay_rZ_nb (c : Dev nD) (d : Fin 3) : (sched (F := F) m ρ).payload (dCell rZ (nbZ c)) 0 d = (View.loc ((nbZ c : Dev nD) : Thread nD τ) (Memref.whole cc0_scratch5 : Memref sig .tc .vmem S64x64 .f32).view ↦{fullShare} fvZ m ρ c : sProp 𝕄) := by
  rw [payload_rZ_nb, View.set_whole]
theorem pay_rX (c : Dev nD) (d : Fin 3) : (sched (F := F) m ρ).payload (dCell rX c) 0 d = (View.loc ((c : Dev nD) : Thread nD τ) (Memref.whole cc0_scratch3 : Memref sig .tc .vmem S64x64 .f32).view ↦{fullShare} fvX m ρ (nbX c) : sProp 𝕄) := by
  rw [payload_rX', View.set_whole]
theorem pay_rY (c : Dev nD) (d : Fin 3) : (sched (F := F) m ρ).payload (dCell rY c) 0 d = (View.loc ((c : Dev nD) : Thread nD τ) (Memref.whole cc0_scratch4 : Memref sig .tc .vmem S64x64 .f32).view ↦{fullShare} fvY m ρ (nbY c) : sProp 𝕄) := by
  rw [payload_rY', View.set_whole]
theorem pay_rZ (c : Dev nD) (d : Fin 3) : (sched (F := F) m ρ).payload (dCell rZ c) 0 d = (View.loc ((c : Dev nD) : Thread nD τ) (Memref.whole cc0_scratch5 : Memref sig .tc .vmem S64x64 .f32).view ↦{fullShare} fvZ m ρ (nbZ c) : sProp 𝕄) := by
  rw [payload_rZ', View.set_whole]
theorem pay_sX (c : Dev nD) (d : Fin 3) : (sched (F := F) m ρ).payload (dCell sX c) 0 d = (View.loc ((c : Dev nD) : Thread nD τ) (Memref.whole cc0_scratch0 : Memref sig .tc .vmem S64x64 .f32).view ↦{fullShare} fvX m ρ c : sProp 𝕄) := by
  rw [payload_sX', View.set_whole]
theorem pay_sY (c : Dev nD) (d : Fin 3) : (sched (F := F) m ρ).payload (dCell sY c) 0 d = (View.loc ((c : Dev nD) : Thread nD τ) (Memref.whole cc0_scratch1 : Memref sig .tc .vmem S64x64 .f32).view ↦{fullShare} fvY m ρ c : sProp 𝕄) := by
  rw [payload_sY', View.set_whole]
theorem pay_sZ (c : Dev nD) (d : Fin 3) : (sched (F := F) m ρ).payload (dCell sZ c) 0 d = (View.loc ((c : Dev nD) : Thread nD τ) (Memref.whole cc0_scratch2 : Memref sig .tc .vmem S64x64 .f32).view ↦{fullShare} fvZ m ρ c : sProp 𝕄) := by
  rw [payload_sZ', View.set_whole]

attribute [local sl_rounds] duties_bar duties_sX duties_sY duties_sZ duties_rX duties_rY duties_rZ amount_bar amount_xfer
  expect_bar expect_sX expect_sY expect_sZ expect_rX expect_rY expect_rZ
  payload_bar0 payload_bar1 payload_bar2 pay_rX pay_rY pay_rZ pay_sX pay_sY pay_sZ
attribute [local sl_rounds 1100] payload_bar_nbX payload_bar_nbY payload_bar_nbZ pay_rX_nb pay_rY_nb pay_rZ_nb

attribute [local sl_canon] dev1_eq dev2_eq dev3_eq dev4_eq dev5_eq dev6_eq

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7) Kt := by
  unfold bodyPre ghost invs scratch
  iintro ⟨⟨⟨⟨⟨#I0, #I1, #I2, #I3, #I4, #I5, #I6, #IbX, #IbY, #IbZ, #IrX, #IrY, #IrZ⟩,
      Hat0, HatsX, HatsY, HatsZ, HatrX, HatrY, HatrZ,
      #RbX, #RbY, #RbZ, #RrXn, #RrYn, #RrZn, #RsX, #RsY, #RsZ, #RrX, #RrY, #RrZ,
      TbX, TbY, TbZ, TrX, TrY, TrZ, TsX, TsY, TsZ⟩,
      Hc0, HcX, HcY, HcZ, #Hlev, ⟨%f0, Hfx⟩, ⟨%f1, Hfy⟩, ⟨%f2, Hfz⟩, ⟨%f3, Hhx⟩, ⟨%f4, Hhy⟩, ⟨%f5, Hhz⟩⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  unfold O₀ O₃
  have hmwb := mayWait_bar (F := F) c
  ihave Hfx := (Entails.of_eq (held_fx c f0).symm) $$ Hfx
  ihave Hfy := (Entails.of_eq (held_fy c f1).symm) $$ Hfy
  ihave Hfz := (Entails.of_eq (held_fz c f2).symm) $$ Hfz
  ihave Hhx := (Entails.of_eq (held_hx c f3).symm) $$ Hhx
  ihave Hhy := (Entails.of_eq (held_hy c f4).symm) $$ Hhy
  ihave Hhz := (Entails.of_eq (held_hz c f5).symm) $$ Hhz
  ihave Hx := (Entails.of_eq (held_x c (xstg m ρ c)).symm) $$ Hx
  ihave Hout := (Entails.of_eq (held_o c g1).symm) $$ Hout
  sl_unfold [cc0_body]
  rcases condX c with ⟨hx, hx0, hx1⟩ | ⟨hx, hx0, hx1⟩ <;> rcases condY c with ⟨hy, hy0, hy1⟩ | ⟨hy, hy0, hy1⟩ <;>
    rcases condZ c with ⟨hz, hz0, hz1⟩ | ⟨hz, hz0, hz1⟩
  all_goals
    sl_exec (disch := (first | exact dev4_eq c | exact dev5_eq c | exact dev6_eq c | (sl_unfold_words; first | exact hx0 | exact hx1 | exact hy0 | exact hy1 | exact hz0 | exact hz1)))
    -- the three neighbours' landing buffers, handed over with their units on the barrier cell
    ihave Hp := (Entails.of_eq (bar_payloads m ρ c)) $$ Hat0_pay1
    icases Hp with ⟨⟨⟨%fnx, HhxN⟩, -⟩, ⟨⟨%fny, HhyN⟩, -⟩, ⟨%fnz, HhzN⟩, -⟩
    -- the three face buffers hold the faces the schedule names
    ihave Hfx := (held_congr fxM c (g := fvX m ρ c) (by first | exact fx_of_0 m ρ c hx f0 | exact fx_of_1 m ρ c hx f0)) $$ Hfx
    ihave Hfy := (held_congr fyM c (g := fvY m ρ c) (by first | exact fy_of_0 m ρ c hy f1 | exact fy_of_1 m ρ c hy f1)) $$ Hfy
    ihave Hfz := (held_congr fzM c (g := fvZ m ρ c) (by first | exact fz_of_0 m ρ c hz f2 | exact fz_of_1 m ρ c hz f2)) $$ Hfz
    -- the first-axis copy, its tally put last among what the device owes
    ihave HO := (owes_congr (c : Thread nD τ) _ (add_rotate _ _ _)) $$ HO
    iapply (send_X m ρ K c _ (dev4_eq c) fnx (tallyAt (dCell rY (nbY c)) () N + tallyAt (dCell rZ (nbZ c)) () N) _) $$ [Hfx HhxN HO TsX TrX]
    · isplitr; · iexact I1
      isplitr; · iexact IrX
      isplitl [Hfx]; · iexact Hfx
      isplitl [HhxN]; · iexact HhxN
      isplitl [HO]; · iexact HO
      isplitl [TsX]; · iexact TsX
      isplitr; · iexact RsX
      isplitl [TrX]; · iexact TrX
      iexact RrXn
    iintro ⟨HcsX, HO⟩
    -- the second-axis copy
    ihave HO := (owes_congr (c : Thread nD τ) _ (add_comm _ _)) $$ HO
    iapply (send_Y m ρ K c _ (dev5_eq c) fny (tallyAt (dCell rZ (nbZ c)) () N) _) $$ [Hfy HhyN HO TsY TrY]
    · isplitr; · iexact I2
      isplitr; · iexact IrY
      isplitl [Hfy]; · iexact Hfy
      isplitl [HhyN]; · iexact HhyN
      isplitl [HO]; · iexact HO
      isplitl [TsY]; · iexact TsY
      isplitr; · iexact RsY
      isplitl [TrY]; · iexact TrY
      iexact RrYn
    iintro ⟨HcsY, HO⟩
    -- the third-axis copy: after it the device owes nothing
    ihave HO := (owes_congr (c : Thread nD τ) _ (zero_add _).symm) $$ HO
    iapply (send_Z m ρ K c _ (dev6_eq c) fnz 0 _) $$ [Hfz HhzN HO TsZ TrZ]
    · isplitr; · iexact I3
      isplitr; · iexact IrZ
      isplitl [Hfz]; · iexact Hfz
      isplitl [HhzN]; · iexact HhzN
      isplitl [HO]; · iexact HO
      isplitl [TsZ]; · iexact TsZ
      isplitr; · iexact RsZ
      isplitl [TrZ]; · iexact TrZ
      iexact RrZn
    iintro ⟨HcsZ, HO⟩
    rw [ret_bind]
    sl_exec (disch := (first | exact dev4_eq c | exact dev5_eq c | exact dev6_eq c | (sl_unfold_words; first | exact hx0 | exact hx1 | exact hy0 | exact hy1 | exact hz0 | exact hz1)))
    -- the six own cells close: their counters at zero are the core's again
    imod (Rounds.cell_close ER (sched m ρ) (Set.mem_univ (K (c, 1))) (fun h => h) (R := 0 + 1) (duties_later m ρ (dCell sX c))) $$ [HatsX] with HzsX
    · isplitr; · iexact I1
      iexact HatsX
    imod (Rounds.cell_close ER (sched m ρ) (Set.mem_univ (K (c, 2))) (fun h => h) (R := 0 + 1) (duties_later m ρ (dCell sY c))) $$ [HatsY] with HzsY
    · isplitr; · iexact I2
      iexact HatsY
    imod (Rounds.cell_close ER (sched m ρ) (Set.mem_univ (K (c, 3))) (fun h => h) (R := 0 + 1) (duties_later m ρ (dCell sZ c))) $$ [HatsZ] with HzsZ
    · isplitr; · iexact I3
      iexact HatsZ
    imod (Rounds.cell_close ER (sched m ρ) (Set.mem_univ (K (c, 4))) (fun h => h) (R := 0 + 1) (duties_later m ρ (dCell rX c))) $$ [HatrX] with HzrX
    · isplitr; · iexact I4
      iexact HatrX
    imod (Rounds.cell_close ER (sched m ρ) (Set.mem_univ (K (c, 5))) (fun h => h) (R := 0 + 1) (duties_later m ρ (dCell rY c))) $$ [HatrY] with HzrY
    · isplitr; · iexact I5
      iexact HatrY
    imod (Rounds.cell_close ER (sched m ρ) (Set.mem_univ (K (c, 6))) (fun h => h) (R := 0 + 1) (duties_later m ρ (dCell rZ c))) $$ [HatrZ] with HzrZ
    · isplitr; · iexact I6
      iexact HatrZ
    rw [wp_ret]; imodintro
    iapply Hk
    unfold bodyPost Φ₁ scratch Dat.owesAt Pipeline.owesWithin
    rw [show (dats m ρ 0 c).owed t0_0.succ = 0 from rfl]
    ihave Hx := (Entails.of_eq (held_x c _)) $$ Hx
    ihave Hout := (Entails.of_eq (held_o c _)) $$ Hout
    isplitl [HatsX_pay1 HatsY_pay1 HatsZ_pay1 HatrX_pay1 HatrY_pay1 HatrZ_pay1 HzsX HzsY HzsZ HzrX HzrY HzrZ]
    · isplitl [HatsX_pay1 HatsY_pay1 HatsZ_pay1 HatrX_pay1 HatrY_pay1 HatrZ_pay1]
      · isplitl [HatsX_pay1]; · iexists _; iexact HatsX_pay1
        isplitl [HatsY_pay1]; · iexists _; iexact HatsY_pay1
        isplitl [HatsZ_pay1]; · iexists _; iexact HatsZ_pay1
        isplitl [HatrX_pay1]; · iexists _; iexact HatrX_pay1
        isplitl [HatrY_pay1]; · iexists _; iexact HatrY_pay1
        iexists _; iexact HatrZ_pay1
      isplitl [HzsX]; · iexact HzsX
      isplitl [HzsY]; · iexact HzsY
      isplitl [HzsZ]; · iexact HzsZ
      isplitl [HzrX]; · iexact HzrX
      isplitl [HzrY]; · iexact HzrY
      iexact HzrZ
    isplitl [HO]
    · iexists _
      isplitr
      rotate_left
      · iexact HO
      · ipureintro; exact fun _ _ => Or.inl trivial
    isplitl [Hx]
    · iexists _; isplitr; · (ipureintro; rfl)
      iexact Hx
    iexists _; isplitr
    rotate_left
    · iexact Hout
    · ipureintro
      sl_unfold_run_names
      unfold outAt
      rw [← slabs_indep c g1 (X m ρ c), slabs_writes]
      unfold addX
      first
        | rw [if_pos hx, add_cov rX63 k0_pay17 g1 _ (.leaf 0) (by exact covX63)]
        | rw [if_neg (by rw [hx]; decide), add_cov rX0 k0_pay18 g1 _ (.leaf 1) (by exact covX0)]
      unfold addY
      first
        | rw [if_pos hy, add_cov rY63 k0_pay19 g1 _ (.split 0 32 (.leaf 2) (.leaf 1)) (by exact covY63 _)]
        | rw [if_neg (by rw [hy]; decide), add_cov rY0 k0_pay20 g1 _ (.split 0 32 (.leaf 2) (.leaf 1)) (by exact covY0 _)]
      unfold addZ
      first
        | rw [if_pos hz, add_cov rZ63 k0_pay21 g1 _ (.split 0 32 (.leaf 3) (.leaf 2)) (by exact covZ63 _ _)]
        | rw [if_neg (by rw [hz]; decide), add_cov rZ0 k0_pay22 g1 _ (.split 0 32 (.leaf 3) (.leaf 2)) (by exact covZ0 _ _)]
      rw [read_x, read_hx, read_hy, read_hz]
      simp only [slabHi, slabLo, X, fvX, fvY, fvZ, wx, wy, wz]
      try rfl

/-! ## The body obligation -/

set_option maxRecDepth 4000 in
/-- The obligation's precondition at the one point, named. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

set_option maxRecDepth 4000 in
/-- The pipeline library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H0, H1, H2, H3, H4⟩
      isplitl [H0]; · iexact H0
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

end Cert.Kernel.HaloProof

end
-- ==== Proof.Word.Alloc.lean ====
/-
  The protocol's ghost state as the launch deals it: the cells and duty tokens minted for every device, a device's
  semaphores at zero turned into its cells' invariants, and one device's starting ghost state assembled from the
  invariants and marks of all devices and the tokens of the duties it pays.
-/
import proofs.«900808_g7700000000000809_dist_halo3d_v7x_xyz2x2x2_s64_f32_1_alg».proof.Proof.Word.BodyData

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def haloCells : Finset (GSem nD τ sig) := Finset.univ.map ⟨kcell, kcell_injective⟩

/-- A device's own cells' duty tokens as minted: its barrier's three, and one for each send and receive cell. -/
abbrev tokSem : Fin 9 → SemLoc sig × Fin 3 := fun
  | 0 => (.reg barS, 0) | 1 => (.reg barS, 1) | 2 => (.reg barS, 2)
  | 3 => (.dma sX, 0) | 4 => (.dma sY, 0) | 5 => (.dma sZ, 0)
  | 6 => (.dma rX, 0) | 7 => (.dma rY, 0) | 8 => (.dma rZ, 0)
theorem tokSem_injective : Function.Injective tokSem := by decide
abbrev tokOf (cj : Dev nD × Fin 9) : GSem nD τ sig × ℕ × Fin 3 := (((cj.1 : Thread nD τ), (tokSem cj.2).1), 0, (tokSem cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective h2]
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (dCell sX c) 0 0 ∗ dutyTok ER (dCell sY c) 0 0 ∗ dutyTok ER (dCell sZ c) 0 0
    ∗ dutyTok ER (dCell rX c) 0 0 ∗ dutyTok ER (dCell rY c) 0 0 ∗ dutyTok ER (dCell rZ c) 0 0)

/-- What the launch element deals device `c`. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (dCell sX c) 0 ∗ semVal (dCell sY c) 0 ∗ semVal (dCell sZ c) 0 ∗ semVal (dCell rX c) 0 ∗ semVal (dCell rY c) 0 ∗ semVal (dCell rZ c) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (nbX c)) 0 0 ∗ dutyTok ER (barCell (nbY c)) 0 1 ∗ dutyTok ER (barCell (nbZ c)) 0 2
    ∗ dutyTok ER (dCell rX (nbX c)) 0 0 ∗ dutyTok ER (dCell rY (nbY c)) 0 0 ∗ dutyTok ER (dCell rZ (nbZ c)) 0 0
    ∗ dutyTok ER (dCell sX c) 0 0 ∗ dutyTok ER (dCell sY c) 0 0 ∗ dutyTok ER (dCell sZ c) 0 0)
def linear (c : Dev nD) : sProp 𝕄 :=
  iprop((atPos ER (barCell c) 0 ∅ 0 ∗ atPos ER (dCell sX c) 0 ∅ 0 ∗ atPos ER (dCell sY c) 0 ∅ 0 ∗ atPos ER (dCell sZ c) 0 ∅ 0
      ∗ atPos ER (dCell rX c) 0 ∅ 0 ∗ atPos ER (dCell rY c) 0 ∅ 0 ∗ atPos ER (dCell rZ c) 0 ∅ 0) ∗ payToks c)

theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, T1, T2, T3, T4, T5, T6, T7, T8, T9⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nbX c, 0)); iexact HI
    isplitr; · iapply (inv_at m ρ K (nbY c, 0)); iexact HI
    isplitr; · iapply (inv_at m ρ K (nbZ c, 0)); iexact HI
    isplitr; · iapply (inv_at m ρ K (nbX c, 4)); iexact HI
    isplitr; · iapply (inv_at m ρ K (nbY c, 5)); iexact HI
    iapply (inv_at m ρ K (nbZ c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (nbX c, 0)); iexact HR
  isplitr; · iapply (reached_at (F := F) (nbY c, 0)); iexact HR
  isplitr; · iapply (reached_at (F := F) (nbZ c, 0)); iexact HR
  isplitr; · iapply (reached_at (F := F) (nbX c, 4)); iexact HR
  isplitr; · iapply (reached_at (F := F) (nbY c, 5)); iexact HR
  isplitr; · iapply (reached_at (F := F) (nbZ c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  iexact T9

end Cert.Kernel.HaloProof

end
-- ==== Proof.Word.Glob.lean ====
/-
  The global allocation step: every device's own and barrier semaphores at zero, with the ghost state the launch
  dealt, become every device's starting ghost state — the cells' invariants under names chosen once for all devices,
  and each duty token handed to the device that pays the duty (a barrier duty's token to the neighbour across its axis,
  a receive duty's token likewise, a send duty's token to the device itself).
-/
import proofs.«900808_g7700000000000809_dist_halo3d_v7x_xyz2x2x2_s64_f32_1_alg».proof.Proof.Word.Alloc

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens dealt across the mesh: a barrier cell's token for axis `d` goes to the neighbour across `d`, a receive
    cell's token likewise; the send cells' tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv flipX (fun c : Dev nD => (dutyTok ER (barCell c) 0 0 : sProp 𝕄)),
    bigSep_univ_equiv flipY (fun c : Dev nD => (dutyTok ER (barCell c) 0 1 : sProp 𝕄)),
    bigSep_univ_equiv flipZ (fun c : Dev nD => (dutyTok ER (barCell c) 0 2 : sProp 𝕄)),
    bigSep_univ_equiv flipX (fun c : Dev nD => (dutyTok ER (dCell rX c) 0 0 : sProp 𝕄)),
    bigSep_univ_equiv flipY (fun c : Dev nD => (dutyTok ER (dCell rY c) 0 0 : sProp 𝕄)),
    bigSep_univ_equiv flipZ (fun c : Dev nD => (dutyTok ER (dCell rZ c) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

/-- A persistent assertion beside a family turns the family, summand by summand, into what it yields with each. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  exact ((bigSep_mono fun c _ => core_alloc m ρ c).trans (bigSep_fupd _ _)).trans (BI.fupd_mono (regroup m ρ))

end Cert.Kernel.HaloProof

end
-- ==== Proof.Word.Credit.lean ====
/-
  The credit the protocol's cells are launched with: summed over the eight devices, what they owe a device's barrier
  cell is three units (one from each neighbour), and what they owe each of its receive cells is one face's credit
  (from the neighbour across that axis).
-/
import proofs.«900808_g7700000000000809_dist_halo3d_v7x_xyz2x2x2_s64_f32_1_alg».proof.Proof.Word.Schedule

noncomputable section

namespace Cert.Kernel.HaloProof

open Cert.Kernel Cert.Kernel.Gen Cert.Kernel.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells of one kind are equal when their devices are; a neighbour map is its own inverse -/

private theorem bar_eq_iff {a b : Dev nD} : Iff (barCell a = barCell b) (a = b) :=
  ⟨fun h => Fin.ext (congrArg (fun g : GSem nD τ sig => g.1.1.val) h), fun h => h ▸ rfl⟩
private theorem d_eq_iff (q : DmaSem sig) {a b : Dev nD} : Iff (dCell q a = dCell q b) (a = b) :=
  ⟨fun h => Fin.ext (congrArg (fun g : GSem nD τ sig => g.1.1.val) h), fun h => h ▸ rfl⟩

/-- A tally on the barrier cell of `d`'s neighbour, read at `c`'s barrier cell: `k` when `d` is `c`'s neighbour. -/
private theorem tally_bar (nb : Dev nD → Dev nD) (hnb : ∀ a, nb (nb a) = a) (d c : Dev nD) (k : ℕ) :
    (tallyAt (barCell (nb d)) () k : CellTallies nD τ sig Unit) (barCell c) () = if d = nb c then k else 0 := by
  rw [tallyAt_apply]
  by_cases h : d = nb c
  · subst h; rw [hnb, if_pos ⟨rfl, rfl⟩, if_pos rfl]
  · rw [if_neg (fun ⟨h1, _⟩ => h (by rw [← hnb d]; exact congrArg nb (bar_eq_iff.mp h1).symm)), if_neg h]
/-- The same on a DMA semaphore's cell. -/
private theorem tally_d (q : DmaSem sig) (nb : Dev nD → Dev nD) (hnb : ∀ a, nb (nb a) = a) (d c : Dev nD) (k : ℕ) :
    (tallyAt (dCell q (nb d)) () k : CellTallies nD τ sig Unit) (dCell q c) () = if d = nb c then k else 0 := by
  rw [tallyAt_apply]
  by_cases h : d = nb c
  · subst h; rw [hnb, if_pos ⟨rfl, rfl⟩, if_pos rfl]
  · rw [if_neg (fun ⟨h1, _⟩ => h (by rw [← hnb d]; exact congrArg nb ((d_eq_iff q).mp h1).symm)), if_neg h]
/-- A tally on one cell reads zero at a cell of another semaphore. -/
private theorem tally_other {g g' : GSem nD τ sig} (h : g'.2 ≠ g.2) (k : ℕ) :
    (tallyAt g () k : CellTallies nD τ sig Unit) g' () = 0 := by
  rw [tallyAt_ne_cell (fun e => h (congrArg Prod.snd e)), Finsupp.zero_apply]

/-- What device `d` owes device `c`'s barrier cell: a unit for each axis along which `d` is `c`'s neighbour. -/
theorem owed_bar (d c : Dev nD) :
    O₀ d (barCell c) () = (if d = nbX c then 1 else 0) + (if d = nbY c then 1 else 0) + (if d = nbZ c then 1 else 0) := by
  unfold O₀ O₃
  simp only [Pi.add_apply, Finsupp.add_apply]
  rw [tally_other (g := dCell rX (nbX d)) (g' := barCell c) (fun h => ne_bar rX h.symm),
    tally_other (g := dCell rY (nbY d)) (g' := barCell c) (fun h => ne_bar rY h.symm),
    tally_other (g := dCell rZ (nbZ d)) (g' := barCell c) (fun h => ne_bar rZ h.symm),
    tally_bar nbZ nbZ_nbZ, tally_bar nbY nbY_nbY, tally_bar nbX nbX_nbX]
  generalize (if d = nbX c then 1 else 0) = a
  generalize (if d = nbY c then 1 else 0) = b
  generalize (if d = nbZ c then 1 else 0) = e
  omega

theorem owed_rX (d c : Dev nD) : O₀ d (dCell rX c) () = if d = nbX c then N else 0 := by
  unfold O₀ O₃
  simp only [Pi.add_apply, Finsupp.add_apply]
  rw [tally_d rX nbX nbX_nbX,
    tally_other (g := dCell rY (nbY d)) (g' := dCell rX c) (show (SemLoc.dma rX : SemLoc sig) ≠ .dma rY by decide),
    tally_other (g := dCell rZ (nbZ d)) (g' := dCell rX c) (show (SemLoc.dma rX : SemLoc sig) ≠ .dma rZ by decide),
    tally_other (g := barCell (nbZ d)) (g' := dCell rX c) (ne_bar rX),
    tally_other (g := barCell (nbY d)) (g' := dCell rX c) (ne_bar rX),
    tally_other (g := barCell (nbX d)) (g' := dCell rX c) (ne_bar rX)]
  simp only [Nat.add_zero, Nat.zero_add]
theorem owed_rY (d c : Dev nD) : O₀ d (dCell rY c) () = if d = nbY c then N else 0 := by
  unfold O₀ O₃
  simp only [Pi.add_apply, Finsupp.add_apply]
  rw [tally_d rY nbY nbY_nbY,
    tally_other (g := dCell rX (nbX d)) (g' := dCell rY c) (show (SemLoc.dma rY : SemLoc sig) ≠ .dma rX by decide),
    tally_other (g := dCell rZ (nbZ d)) (g' := dCell rY c) (show (SemLoc.dma rY : SemLoc sig) ≠ .dma rZ by decide),
    tally_other (g := barCell (nbZ d)) (g' := dCell rY c) (ne_bar rY),
    tally_other (g := barCell (nbY d)) (g' := dCell rY c) (ne_bar rY),
    tally_other (g := barCell (nbX d)) (g' := dCell rY c) (ne_bar rY)]
  simp only [Nat.add_zero, Nat.zero_add]
theorem owed_rZ (d c : Dev nD) : O₀ d (dCell rZ c) () = if d = nbZ c then N else 0 := by
  unfold O₀ O₃
  simp only [Pi.add_apply, Finsupp.add_apply]
  rw [tally_d rZ nbZ nbZ_nbZ,
    tally_other (g := dCell rX (nbX d)) (g' := dCell rZ c) (show (SemLoc.dma rZ : SemLoc sig) ≠ .dma rX by decide),
    tally_other (g := dCell rY (nbY d)) (g' := dCell rZ c) (show (SemLoc.dma rZ : SemLoc sig) ≠ .dma rY by decide),
    tally_other (g := barCell (nbZ d)) (g' := dCell rZ c) (ne_bar rZ),
    tally_other (g := barCell (nbY d)) (g' := dCell rZ c) (ne_bar rZ),
    tally_other (g := barCell (nbX d)) (g' := dCell rZ c) (ne_bar rZ)]
  simp only [Nat.add_zero, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (nbX c) fun _ => 1, Finset.sum_ite_eq' Finset.univ (nbY c) fun _ => 1,
    Finset.sum_ite_eq' Finset.univ (nbZ c) fun _ => 1, if_pos (Finset.mem_univ _), if_pos (Finset.mem_univ _), if_pos (Finset.mem_univ _)]
theorem launch_rX (c : Dev nD) :
    tallyOn (dCell rX c) (launchCredit (Pipeline.owing O₀) 0 (dCell rX c)) = (tallyAt (dCell rX c) () N : CellTallies nD τ sig Unit) := by
  unfold tallyAt; refine congrArg _ (Finsupp.ext fun u => ?_); cases u
  rw [Pipeline.launchCredit_owing, Finsupp.single_eq_same, Finset.sum_congr rfl fun d _ => owed_rX d c,
    Finset.sum_ite_eq' Finset.univ (nbX c) fun _ => N, if_pos (Finset.mem_univ _)]
theorem launch_rY (c : Dev nD) :
    tallyOn (dCell rY c) (launchCredit (Pipeline.owing O₀) 0 (dCell rY c)) = (tallyAt (dCell rY c) () N : CellTallies nD τ sig Unit) := by
  unfold tallyAt; refine congrArg _ (Finsupp.ext fun u => ?_); cases u
  rw [Pipeline.launchCredit_owing, Finsupp.single_eq_same, Finset.sum_congr rfl fun d _ => owed_rY d c,
    Finset.sum_ite_eq' Finset.univ (nbY c) fun _ => N, if_pos (Finset.mem_univ _)]
theorem launch_rZ (c : Dev nD) :
    tallyOn (dCell rZ c) (launchCredit (Pipeline.owing O₀) 0 (dCell rZ c)) = (tallyAt (dCell rZ c) () N : CellTallies nD τ sig Unit) := by
  unfold tallyAt; refine congrArg _ (Finsupp.ext fun u => ?_); cases u
  rw [Pipeline.launchCredit_owing, Finsupp.single_eq_same, Finset.sum_congr rfl fun d _ => owed_rZ d c,
    Finset.sum_ite_eq' Finset.univ (nbZ c) fun _ => N, if_pos (Finset.mem_univ _)]

/-- The credit device `c` is launched with holds its barrier cell's three units and each receive cell's face credit. -/
theorem creds (c : Dev nD) :
    (Pipeline.launchCred O₀ c : sProp 𝕄)
      ⊢ iprop(cred (tallyAt (barCell c) () 3) ∗ cred (tallyAt (dCell rX c) () N) ∗ cred (tallyAt (dCell rY c) () N) ∗ cred (tallyAt (dCell rZ c) () N)) := by
  unfold Pipeline.launchCred
  rw [bigSep_univ_at _ (SemLoc.reg barS), launch_bar]
  refine sep_mono_right ?_
  rw [bigSep_erase (i := SemLoc.dma rX) (Finset.mem_erase.mpr ⟨ne_bar rX, Finset.mem_univ _⟩), launch_rX]
  refine sep_mono_right ?_
  rw [bigSep_erase (i := SemLoc.dma rY)
    (Finset.mem_erase.mpr ⟨by decide, Finset.mem_erase.mpr ⟨ne_bar rY, Finset.mem_univ _⟩⟩), launch_rY]
  refine sep_mono_right ?_
  rw [← launch_rZ]
  exact bigSep_elim (Finset.mem_erase.mpr ⟨by decide, Finset.mem_erase.mpr ⟨by decide,
    Finset.mem_erase.mpr ⟨ne_bar rZ, Finset.mem_univ _⟩⟩⟩)

end Cert.Kernel.HaloProof

end
-- ==== Proof.Word.Launch.lean ====
/-
  The run of the whole program on the eight devices, from one device's body run: what the launch hands a device becomes
  the body's starting state, what the body leaves gives the launch back its semaphores and scratch buffers, and the
  final arrays are read off the proof data — the input block unchanged, the output block the named term.
-/
import proofs.«900808_g7700000000000809_dist_halo3d_v7x_xyz2x2x2_s64_f32_1_alg».proof.Proof.Word.Body
import proofs.«900808_g7700000000000809_dist_halo3d_v7x_xyz2x2x2_s64_f32_1_alg».proof.Proof.Word.Glob
import proofs.«900808_g7700000000000809_dist_halo3d_v7x_xyz2x2x2_s64_f32_1_alg».proof.Proof.Word.Credit

noncomputable section

namespace Cert.Kernel.HaloProof

open Cert.Kernel Cert.Kernel.Gen Cert.Kernel.Halo

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H0, HX, HY, HZ⟩
  imodintro
  unfold start G'
  isplitl
  · isplitl [HG]; · iexact HG
    isplitl [H0]; · iexact H0
    isplitl [HX]; · iexact HX
    isplitl [HY]; · iexact HY
    isplitl [HZ]; · iexact HZ
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, Hs⟩
  isplitr; · iempintro
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the proof data's. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.HaloProof.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.HaloProof

end
-- ==== Proof.Word.FinalOut.lean ====
/-
  The output array after the run: the one point's flush writes the whole staging buffer back, so the array holds what
  the body left in the staging buffer.
-/
import proofs.«900808_g7700000000000809_dist_halo3d_v7x_xyz2x2x2_s64_f32_1_alg».proof.Proof.Word.BodyData

noncomputable section

namespace Cert.Kernel.HaloProof

open Cert.Kernel Cert.Kernel.Gen Cert.Kernel.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The output window's array after the last point is the device's output block. -/
theorem arrAt_out (c : Dev nD) : (dats m ρ 0 c).arrAt (1 : Fin 2) cfg0.N = outAt c (X m ρ) := by
  -- the window is the whole array: its one block sits at offset zero along every axis
  have hz : (fun a => win0_1.index t0_0 a * main_v1.ty.shape.size a) = fun _ => 0 := funext fun a => Nat.zero_mul _
  -- the grid has one point, and that point writes the block back
  show (dats m ρ 0 c).arrAt (1 : Fin 2) ((t0_0 : Fin cfg0.N).val + 1) = _
  rw [(dats m ρ 0 c).arrAt_succ (1 : Fin 2) t0_0, flush0_1 t0_0, if_pos rfl]
  -- a whole array overwritten whole holds what was written: the staging buffer's contents after the body
  exact Memref.write_access_unit_zero_univ (Elt F) main_v1 hz
    (fun a => Nat.le_of_eq (by show 0 * _ + _ = _; rw [Nat.zero_mul, Nat.zero_add])) _ _

/-- The input window's array after the last point is what it was at launch. -/
theorem arrAt_in (c : Dev nD) : (dats m ρ 0 c).arrAt (0 : Fin 2) cfg0.N = m ((c : Thread nD τ).loc main_arg0) :=
  -- an input window's array is never written back
  (dats m ρ 0 c).arrAt_in (0 : Fin 2) rfl _

/-- The staged input block is the device's argument array. -/
theorem xstg_eq (c : Dev nD) : xstg m ρ c = m ((c : Thread nD τ).loc main_arg0) := by
  -- the window is the whole array, so the staged block, a read of the one block at offset zero, is the array
  have hz : (fun a => win0_0.index t0_0 a * main_arg0.ty.shape.size a) = fun _ => 0 := funext fun a => Nat.zero_mul _
  unfold xstg
  exact Memref.read_access_unit_zero (Elt F) main_arg0 hz
    (fun a => Nat.le_of_eq (by show 0 * _ + _ = _; rw [Nat.zero_mul, Nat.zero_add])) _

end Cert.Kernel.HaloProof

end
-- ==== Proof.ClaimsWord.lean ====
/-
  The word-level kernel's frame: its run — the same protocol, body and launch, read at the word-level instance — with
  the argument array's final contents read off the proof data.
-/
import proofs.«900808_g7700000000000809_dist_halo3d_v7x_xyz2x2x2_s64_f32_1_alg».proof.Defs
import proofs.«900808_g7700000000000809_dist_halo3d_v7x_xyz2x2x2_s64_f32_1_alg».proof.Proof.Gen.Kernel
import proofs.«900808_g7700000000000809_dist_halo3d_v7x_xyz2x2x2_s64_f32_1_alg».proof.Proof.Gen.Pre_finite_inputs_Kernel
import proofs.«900808_g7700000000000809_dist_halo3d_v7x_xyz2x2x2_s64_f32_1_alg».proof.Proof.Word.Launch
import proofs.«900808_g7700000000000809_dist_halo3d_v7x_xyz2x2x2_s64_f32_1_alg».proof.Proof.Word.FinalOut

noncomputable section

namespace Cert.Proof.HaloClaims

open Cert.Kernel Cert.Kernel.Gen Cert.Kernel.Halo Cert.Kernel.HaloProof
open Idealize.ShloMosaic Idealize.ShloMosaic.TcCoe Idealize.SL.Sem

theorem frame_p : Cert.frame_Kernel := by
  intro m g _
  exact (θ_run (defs (F := Bits)) _ _).mono (fun r h c => (h c 0).trans (arrAt_in m g c)) (run_main (F := Bits) m g)

end Cert.Proof.HaloClaims

end
-- ==== Proof.lean ====
/-
  A halo-exchange stencil on a 2 × 2 × 2 mesh against the seven-point stencil on the whole grid.

  Each of the eight devices holds a 64 × 64 × 64 block of a 128 × 128 × 128 array `u`. The reference computes
  `v = W + E + S + N + D + U − 6·u` at the interior points of the whole grid and `0` on its boundary. A device computes the
  same sum on its block with the neighbours outside the block read as `0`, zeroes the points on the global boundary,
  sends its three interior faces (zeroed where the other two coordinates lie on the global boundary) to the neighbours
  across them, and adds the three faces it receives onto its own interior faces. Over the extended reals the missing
  neighbour of an interior-face point is exactly the facing entry of the neighbour's block, `x + 0 = x`, and addition is
  commutative and associative, so the device's block of the result is the stencil's block: no finiteness is used.

  The devices meet only through the kernel's signals and copies: on entry a device signals its three neighbours' barrier
  semaphore and waits for three units on its own — each unit hands over the signaller's landing buffer for the shared
  axis — before it copies a face into a neighbour; it reads a landing buffer only after the wait on that buffer's receive
  semaphore, and leaves only after its three copies have left their sources. Every wait is below what the waiter still
  owes (barrier cells below receive cells), so every weakly fair execution terminates.

  The modules: Values (the data a device computes, as pure terms), Spec / DevSpec (the mathematics), SlabValue / FaceValue /
  OutValue (a device's output at an index), Join (blocks of one whole array), RefValue (the reference's run), Cover;
  Protocol / Schedule (the cells, the schedule, what is owed, the levels), BodyData / Sends / Body (one device's body),
  Alloc / Glob / Credit / Launch (the launch), FinalOut, Claims; under Word/ the word-level kernel's copies of the
  protocol, body and launch modules, and ClaimsWord.
-/
import proofs.«900808_g7700000000000809_dist_halo3d_v7x_xyz2x2x2_s64_f32_1_alg».proof.Defs
import proofs.«900808_g7700000000000809_dist_halo3d_v7x_xyz2x2x2_s64_f32_1_alg».proof.Proof.Gen.Kernel
import proofs.«900808_g7700000000000809_dist_halo3d_v7x_xyz2x2x2_s64_f32_1_alg».proof.Proof.Gen.KernelIdeal
import proofs.«900808_g7700000000000809_dist_halo3d_v7x_xyz2x2x2_s64_f32_1_alg».proof.Proof.Gen.ReferenceIdeal
import proofs.«900808_g7700000000000809_dist_halo3d_v7x_xyz2x2x2_s64_f32_1_alg».proof.Proof.Gen.Pre_finite_inputs_Kernel
import proofs.«900808_g7700000000000809_dist_halo3d_v7x_xyz2x2x2_s64_f32_1_alg».proof.Proof.Gen.Pre_finite_inputs_ReferenceIdeal
import proofs.«900808_g7700000000000809_dist_halo3d_v7x_xyz2x2x2_s64_f32_1_alg».proof.Proof.Claims
import proofs.«900808_g7700000000000809_dist_halo3d_v7x_xyz2x2x2_s64_f32_1_alg».proof.Proof.ClaimsWord

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  HaloClaims.frame_p, HaloClaims.frame_pi, HaloClaims.frame_ri, HaloClaims.preserves, HaloClaims.algebraic⟩

end Cert.Proof

end
